-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x6 : Shape := ⟨2, ![300000, 6]⟩
abbrev S2x600000 : Shape := ⟨2, ![2, 600000]⟩
abbrev S300000 : Shape := ⟨1, ![300000]⟩
abbrev S6x128 : Shape := ⟨2, ![6, 128]⟩
abbrev S128 : Shape := ⟨1, ![128]⟩
abbrev S4x128x128 : Shape := ⟨3, ![4, 128, 128]⟩
abbrev S4x128 : Shape := ⟨2, ![4, 128]⟩
abbrev S128x256 : Shape := ⟨2, ![128, 256]⟩
abbrev S256 : Shape := ⟨1, ![256]⟩
abbrev S_ : Shape := ⟨0, ![]⟩
abbrev S1x600000 : Shape := ⟨2, ![1, 600000]⟩
abbrev S600000 : Shape := ⟨1, ![600000]⟩

class Facts : Prop where
  bcast_S_S300000x6 : S_.BroadcastsInDim S300000x6 (![] : Fin 0 → Fin S300000x6.rank)
  reducesTo_S300000x6_S_d0_1 : S300000x6.ReducesTo [0, 1] S_
  h_S_ : 0 < S_.numel
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_v43 : IVec S_ 1) (main_v47 : IVec S600000 1) (main_v51 : IVec S600000 1) : IVec S_ 1 :=
  let main_v52 : IVec S600000 1 := andi main_v47 main_v51
  let main_c_18 : IVec S_ 1 := constantI S_ 1 1#1
  let main_v53 : IVec S_ 1 := (fun x v => Host.reduce IntOp.andi x v reducesTo_S600000_S_d0 h_S_) main_v52 main_c_18
  let main_v54 : IVec S_ 1 := andi main_v43 main_v53
  main_v54

def fn_part2 {F : FTy → Type} [FloatOps F] (main_arg1 : IVec S2x600000 32) (main_arg9 : FVec F S128x256 .f32) (main_arg10 : FVec F S256 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : IVec S1x600000 32 := (extractStridedSlice S1x600000 ![0, 0] · slices_S2x600000_S1x600000_0_0) main_arg1
  let main_v45 : IVec S600000 32 := shapeCast S600000 main_v44 shapeCasts_S1x600000_S600000
  let main_c_16 : IVec S_ 32 := constantI S_ 32 4294667296#32
  let main_v46 : IVec S600000 32 := broadcastInDim S600000 ![] bcast_S_S600000 main_c_16
  let main_v47 : IVec S600000 1 := cmpi .sge main_v45 main_v46
  let main_v48 : IVec S1x600000 32 := (extractStridedSlice S1x600000 ![0, 0] · slices_S2x600000_S1x600000_0_0) main_arg1
  let main_v49 : IVec S600000 32 := shapeCast S600000 main_v48 shapeCasts_S1x600000_S600000
  let main_c_17 : IVec S_ 32 := constantI S_ 32 300000#32
  let main_v50 : IVec S600000 32 := broadcastInDim S600000 ![] bcast_S_S600000 main_c_17
  let main_v51 : IVec S600000 1 := cmpi .slt main_v49 main_v50
  fn_part3 (F := F) main_v43 main_v47 main_v51

def fn_part1 {F : FTy → Type} [FloatOps F] (main_arg1 : IVec S2x600000 32) (main_arg6 : FVec F S4x128 .f32) (main_arg7 : FVec F S4x128x128 .f32) (main_arg8 : FVec F S4x128 .f32) (main_arg9 : FVec F S128x256 .f32) (main_arg10 : FVec F S256 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg7
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg1 main_arg9 main_arg10 main_v33

def fn {F : FTy → Type} [FloatOps F] (main_arg0 : FVec F S300000x6 .f32) (main_arg1 : IVec S2x600000 32) (main_arg2 : IVec S300000 32) (main_arg3 : FVec F S6x128 .f32) (main_arg4 : FVec F S128 .f32) (main_arg5 : FVec F S4x128x128 .f32) (main_arg6 : FVec F S4x128 .f32) (main_arg7 : FVec F S4x128x128 .f32) (main_arg8 : FVec F S4x128 .f32) (main_arg9 : FVec F S128x256 .f32) (main_arg10 : FVec F S256 .f32) : IVec S_ 1 :=
  let main_v0 : FVec F S300000x6 .f32 := Host.absf main_arg0
  let main_cst : FVec F S_ .f32 := constant S_ .f32 0x7F800000#32
  let main_v1 : FVec F S300000x6 .f32 := broadcastInDim S300000x6 ![] bcast_S_S300000x6 main_cst
  let main_v2 : IVec S300000x6 1 := cmpf .olt main_v0 main_v1
  let main_c : IVec S_ 1 := constantI S_ 1 1#1
  let main_v3 : IVec S_ 1 := (fun x v => Host.reduce IntOp.andi x v reducesTo_S300000x6_S_d0_1 h_S_) main_v2 main_c
  let main_v4 : FVec F S6x128 .f32 := Host.absf main_arg3
  let main_cst_0 : FVec F S_ .f32 := constant S_ .f32 0x7F800000#32
  let main_v5 : FVec F S6x128 .f32 := broadcastInDim S6x128 ![] bcast_S_S6x128 main_cst_0
  let main_v6 : IVec S6x128 1 := cmpf .olt main_v4 main_v5
  let main_c_1 : IVec S_ 1 := constantI S_ 1 1#1
  let main_v7 : IVec S_ 1 := (fun x v => Host.reduce IntOp.andi x v reducesTo_S6x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg1 main_arg6 main_arg7 main_arg8 main_arg9 main_arg10 main_v13 main_v16
-- ==== Kernel.lean ====
abbrev S300000x6 : Shape := ⟨2, ![300000, 6]⟩
abbrev S2x600000 : Shape := ⟨2, ![2, 600000]⟩
abbrev S300000 : Shape := ⟨1, ![300000]⟩
abbrev S6x128 : Shape := ⟨2, ![6, 128]⟩
abbrev S128 : Shape := ⟨1, ![128]⟩
abbrev S4x128x128 : Shape := ⟨3, ![4, 128, 128]⟩
abbrev S4x128 : Shape := ⟨2, ![4, 128]⟩
abbrev S128x256 : Shape := ⟨2, ![128, 256]⟩
abbrev S256 : Shape := ⟨1, ![256]⟩
abbrev S1x600000 : Shape := ⟨2, ![1, 600000]⟩
abbrev S600000 : Shape := ⟨1, ![600000]⟩
abbrev S300000x128 : Shape := ⟨2, ![300000, 128]⟩
abbrev S4000x6 : Shape := ⟨2, ![4000, 6]⟩
abbrev S4000x128 : Shape := ⟨2, ![4000, 128]⟩
abbrev S1x128 : Shape := ⟨2, ![1, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S1x128x128 : Shape := ⟨3, ![1, 128, 128]⟩
abbrev S128x128 : Shape := ⟨2, ![128, 128]⟩
abbrev S8192x128 : Shape := ⟨2, ![8192, 128]⟩
abbrev S300000x1 : Shape := ⟨2, ![300000, 1]⟩
abbrev S8192x1 : Shape := ⟨2, ![8192, 1]⟩
abbrev S8192x256 : Shape := ⟨2, ![8192, 256]⟩
abbrev S1024x128 : Shape := ⟨2, ![1024, 128]⟩
abbrev S1024x1 : Shape := ⟨2, ![1024, 1]⟩
abbrev S1024x256 : Shape := ⟨2, ![1024, 256]⟩
abbrev S1x256 : Shape := ⟨2, ![1, 256]⟩

abbrev nBuf : Space → Nat
  | .hbm => 171
  | .vmem => 54
  | .smem => 0
  | _ => 0

abbrev hbmTy0_0 (i : Nat) : BufTy := match i % 128 with
  | 0 => ⟨S300000x6, .f32⟩
  | 1 => ⟨S2x600000, .i32⟩
  | 2 => ⟨S300000, .i32⟩
  | 3 => ⟨S6x128, .f32⟩
  | 4 => ⟨S128, .f32⟩
  | 5 => ⟨S4x128x128, .f32⟩
  | 6 => ⟨S4x128, .f32⟩
  | 7 => ⟨S4x128x128, .f32⟩
  | 8 => ⟨S4x128, .f32⟩
  | 9 => ⟨S128x256, .f32⟩
  | 10 => ⟨S256, .f32⟩
  | 11 => ⟨S1x600000, .i32⟩
  | 12 => ⟨S600000, .i32⟩
  | 13 => ⟨S1x600000, .i32⟩
  | 14 => ⟨S600000, .i32⟩
  | 15 => ⟨S300000x128, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S1, .i32⟩
  | 25 => ⟨S_, .i32⟩
  | 26 => ⟨S600000x1, .i32⟩
  | 27 => ⟨S600000x1, .i1⟩
  | 28 => ⟨S1x1, .i32⟩
  | 29 => ⟨S600000x1, .i32⟩
  | 30 => ⟨S600000x1, .i1⟩
  | 31 => ⟨S600000x1, .i1⟩
  | 32 => ⟨S_, .i1⟩
  | 33 => ⟨S600000, .i1⟩
  | 34 => ⟨S600000x128, .f32⟩
  | 35 => ⟨S600000x128, .i1⟩
  | 36 => ⟨S_, .f32⟩
  | 37 => ⟨S600000x128, .f32⟩
  | 38 => ⟨S600000x128, .f32⟩
  | 39 => ⟨S_, .f32⟩
  | 40 => ⟨S300000x128, .f32⟩
  | 41 => ⟨S600000x1, .i32⟩
  | 42 => ⟨S300000x128, .f32⟩
  | 43 => ⟨S1x128x128, .f32⟩
  | 44 => ⟨S128x128, .f32⟩
  | 45 => ⟨S1x128, .f32⟩
  | 46 => ⟨S128, .f32⟩
  | 47 => ⟨S1x128x128, .f32⟩
  | 48 => ⟨S128x128, .f32⟩
  | 49 => ⟨S1x128, .f32⟩
  | 50 => ⟨S128, .f32⟩
  | 51 => ⟨S300000x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S1, .i32⟩
  | 61 => ⟨S_, .i32⟩
  | 62 => ⟨S600000x1, .i32⟩
  | 63 => ⟨S600000x1, .i1⟩
  | 64 => ⟨S1x1, .i32⟩
  | 65 => ⟨S600000x1, .i32⟩
  | 66 => ⟨S600000x1, .i1⟩
  | 67 => ⟨S600000x1, .i1⟩
  | 68 => ⟨S_, .i1⟩
  | 69 => ⟨S600000, .i1⟩
  | 70 => ⟨S600000x128, .f32⟩
  | 71 => ⟨S600000x128, .i1⟩
  | 72 => ⟨S_, .f32⟩
  | 73 => ⟨S600000x128, .f32⟩
  | 74 => ⟨S600000x128, .f32⟩
  | 75 => ⟨S_, .f32⟩
  | 76 => ⟨S300000x128, .f32⟩
  | 77 => ⟨S600000x1, .i32⟩
  | 78 => ⟨S300000x128, .f32⟩
  | 79 => ⟨S1x128x128, .f32⟩
  | 80 => ⟨S128x128, .f32⟩
  | 81 => ⟨S1x128, .f32⟩
  | 82 => ⟨S128, .f32⟩
  | 83 => ⟨S1x128x128, .f32⟩
  | 84 => ⟨S128x128, .f32⟩
  | 85 => ⟨S1x128, .f32⟩
  | 86 => ⟨S128, .f32⟩
  | 87 => ⟨S300000x128, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S1, .i32⟩
  | 97 => ⟨S_, .i32⟩
  | 98 => ⟨S600000x1, .i32⟩
  | 99 => ⟨S600000x1, .i1⟩
  | 100 => ⟨S1x1, .i32⟩
  | 101 => ⟨S600000x1, .i32⟩
  | 102 => ⟨S600000x1, .i1⟩
  | 103 => ⟨S600000x1, .i1⟩
  | 104 => ⟨S_, .i1⟩
  | 105 => ⟨S600000, .i1⟩
  | 106 => ⟨S600000x128, .f32⟩
  | 107 => ⟨S600000x128, .i1⟩
  | 108 => ⟨S_, .f32⟩
  | 109 => ⟨S600000x128, .f32⟩
  | 110 => ⟨S600000x128, .f32⟩
  | 111 => ⟨S_, .f32⟩
  | 112 => ⟨S300000x128, .f32⟩
  | 113 => ⟨S600000x1, .i32⟩
  | 114 => ⟨S300000x128, .f32⟩
  | 115 => ⟨S1x128x128, .f32⟩
  | 116 => ⟨S128x128, .f32⟩
  | 117 => ⟨S1x128, .f32⟩
  | 118 => ⟨S128, .f32⟩
  | 119 => ⟨S1x128x128, .f32⟩
  | 120 => ⟨S128x128, .f32⟩
  | 121 => ⟨S1x128, .f32⟩
  | 122 => ⟨S128, .f32⟩
  | 123 => ⟨S300000x128, .f32⟩
  | 124 => ⟨S_, .i32⟩
  | 125 => ⟨S600000, .i32⟩
  | 126 => ⟨S600000, .i1⟩
  | 127 => ⟨S_, .i32⟩
  | _ => ⟨S300000x6, .f32⟩

abbrev hbmTy0_1 (i : Nat) : BufTy := match i % 128 with
  | 0 => ⟨S600000, .i32⟩
  | 1 => ⟨S600000, .i32⟩
  | 2 => ⟨S600000, .i32⟩
  | 3 => ⟨S600000x1, .i32⟩
  | 4 => ⟨S1, .i32⟩
  | 5 => ⟨S_, .i32⟩
  | 6 => ⟨S600000x1, .i32⟩
  | 7 => ⟨S600000x1, .i1⟩
  | 8 => ⟨S1x1, .i32⟩
  | 9 => ⟨S600000x1, .i32⟩
  | 10 => ⟨S600000x1, .i1⟩
  | 11 => ⟨S600000x1, .i1⟩
  | 12 => ⟨S_, .i1⟩
  | 13 => ⟨S600000, .i1⟩
  | 14 => ⟨S600000x128, .f32⟩
  | 15 => ⟨S600000x128, .i1⟩
  | 16 => ⟨S_, .f32⟩
  | 17 => ⟨S600000x128, .f32⟩
  | 18 => ⟨S600000x128, .f32⟩
  | 19 => ⟨S_, .f32⟩
  | 20 => ⟨S300000x128, .f32⟩
  | 21 => ⟨S600000x1, .i32⟩
  | 22 => ⟨S300000x128, .f32⟩
  | 23 => ⟨S1x128x128, .f32⟩
  | 24 => ⟨S128x128, .f32⟩
  | 25 => ⟨S1x128, .f32⟩
  | 26 => ⟨S128, .f32⟩
  | 27 => ⟨S1x128x128, .f32⟩
  | 28 => ⟨S128x128, .f32⟩
  | 29 => ⟨S1x128, .f32⟩
  | 30 => ⟨S128, .f32⟩
  | 31 => ⟨S300000x128, .f32⟩
  | 32 => ⟨S_, .f32⟩
  | 33 => ⟨S8192x128, .f32⟩
  | 34 => ⟨S300000x1, .i32⟩
  | 35 => ⟨S8192x128, .f32⟩
  | 36 => ⟨S_, .f32⟩
  | 37 => ⟨S300000x1, .f32⟩
  | 38 => ⟨S_, .f32⟩
  | 39 => ⟨S8192x1, .f32⟩
  | 40 => ⟨S300000x1, .i32⟩
  | 41 => ⟨S8192x1, .f32⟩
  | 42 => ⟨S8192x256, .f32⟩
  | _ => ⟨S300000x6, .f32⟩

abbrev hbmTy (i : Nat) : BufTy := match i / 128 with
  | 0 => hbmTy0_0 i
  | 1 => hbmTy0_1 i
  | _ => ⟨S300000x6, .f32⟩

abbrev bufTy : (tb : Table) → Fin (tcTables nBuf tb) → BufTy
  | .hbm, ⟨i, _⟩ => hbmTy i
  | .local _ .vmem, ⟨0, _⟩ => ⟨S4000x6, .f32⟩
  | .local _ .vmem, ⟨1, _⟩ => ⟨S4000x6, .f32⟩
  | .local _ .vmem, ⟨2, _⟩ => ⟨S6x128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x128, .f32⟩
  | .local _ .vmem, ⟨21, _⟩ => ⟨S128, .f32⟩
  | .local _ .vmem, ⟨22, _⟩ => ⟨S128x128, .f32⟩
  | .local _ .vmem, ⟨23, _⟩ => ⟨S128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S128x128, .f32⟩
  | .local _ .vmem, ⟨41, _⟩ => ⟨S128, .f32⟩
  | .local _ .vmem, ⟨42, _⟩ => ⟨S128x128, .f32⟩
  | .local _ .vmem, ⟨43, _⟩ => ⟨S128, .f32⟩
  | .local _ .vmem, ⟨44, _⟩ => ⟨S4000x128, .f32⟩
  | .local _ .vmem, ⟨45, _⟩ => ⟨S4000x128, .f32⟩
  | .local _ .vmem, ⟨46, _⟩ => ⟨S1024x128, .f32⟩
  | .local _ .vmem, ⟨47, _⟩ => ⟨S1024x128, .f32⟩
  | .local _ .vmem, ⟨48, _⟩ => ⟨S1024x1, .f32⟩
  | .local _ .vmem, ⟨49, _⟩ => ⟨S1024x1, .f32⟩
  | .local _ .vmem, ⟨50, _⟩ => ⟨S128x256, .f32⟩
  | .local _ .vmem, ⟨51, _⟩ => ⟨S256, .f32⟩
  | .local _ .vmem, ⟨52, _⟩ => ⟨S1024x256, .f32⟩
  | .local _ .vmem, ⟨53, _⟩ => ⟨S1024x256, .f32⟩
  | _, _ => ⟨S300000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v5 : Ref sig .tc := ⟨.hbm, 38, rfl⟩
abbrev main_cst : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v18 : Ref sig .tc := ⟨.hbm, 74, rfl⟩
abbrev main_cst_0 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v31 : Ref sig .tc := ⟨.hbm, 110, rfl⟩
abbrev main_cst_1 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_call3_c : Ref sig .tc := ⟨.hbm, 124, rfl⟩
abbrev main_call3_v0 : Ref sig .tc := ⟨.hbm, 125, rfl⟩
abbrev main_call3_v1 : Ref sig .tc := ⟨.hbm, 126, rfl⟩
abbrev main_call3_c_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_c_1 : Ref sig .tc := ⟨.hbm, 132, rfl⟩
abbrev main_call3_c_2 : Ref sig .tc := ⟨.hbm, 133, rfl⟩
abbrev main_call3_v6 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_c_3 : Ref sig .tc := ⟨.hbm, 140, rfl⟩
abbrev main_call3_v12 : Ref sig .tc := ⟨.hbm, 141, rfl⟩
abbrev main_call3_v13 : Ref sig .tc := ⟨.hbm, 142, rfl⟩
abbrev main_call3_v14 : Ref sig .tc := ⟨.hbm, 143, rfl⟩
abbrev main_call3_cst : Ref sig .tc := ⟨.hbm, 144, rfl⟩
abbrev main_call3_v15 : Ref sig .tc := ⟨.hbm, 145, rfl⟩
abbrev main_v44 : Ref sig .tc := ⟨.hbm, 146, rfl⟩
abbrev main_cst_2 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev main_cst_3 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_cst_4 : Ref sig .tc := ⟨.hbm, 164, rfl⟩
abbrev main_v60 : Ref sig .tc := ⟨.hbm, 165, rfl⟩
abbrev main_cst_5 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem4_1 : DmaSem sig := 53

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![75], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![75], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1024x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S4000x6_S4000x6_0_0 : ∀ a, (![0, 0] : Fin 2 → Nat) a + S4000x6.size a ≤ S4000x6.size a
  h_S4000x6 : 0 < S4000x6.numel
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S300000x128 : S_.BroadcastsInDim S300000x128 (![] : Fin 0 → Fin S300000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S8192x128 : S_.BroadcastsInDim S8192x128 (![] : Fin 0 → Fin S8192x128.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S_S8192x1 : S_.BroadcastsInDim S8192x1 (![] : Fin 0 → Fin S8192x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1024x1_S1024x128 : S1024x1.Broadcasts S1024x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S4000x6_S6x128_S4000x128_1_0_0_1_n_n_wf : DotDims.WF S4000x6 S6x128 S4000x128 [1] [0] [0] [1] [] []
  gather_S300000x128_S600000x1_S600000x128_1_0_n_n_0_1_1128_wf : GatherDims.WF S300000x128 S600000x1 S600000x128 [1] [0] [] [0] [] 1 ![1, 128]
  scatter_S300000x128_S600000x1_S600000x128_1_0_0_1_wf : ScatterDims.WF S300000x128 S600000x1 S600000x128 [1] [0] [0] 1
  dot_S4000x128_S128x128_S4000x128_1_0_0_1_n_n_wf : DotDims.WF S4000x128 S128x128 S4000x128 [1] [0] [0] [1] [] []
  scatter_S8192x128_S300000x1_S300000x128_1_0_0_1_wf : ScatterDims.WF S8192x128 S300000x1 S300000x128 [1] [0] [0] 1
  scatter_S8192x1_S300000x1_S300000x1_1_0_0_1_wf : ScatterDims.WF S8192x1 S300000x1 S300000x1 [1] [0] [0] 1
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x6.size a ≤ S300000x6.size a
  hwx0_0 : ∀ i : grid0.Coords, EltTy.bits .f32 = 32 ∨ (Rect.block (s := S300000x6) S4000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x128.size a ≤ S6x128.size a
  hwx0_1 : ∀ i : grid0.Coords, EltTy.bits .f32 = 32 ∨ (Rect.block (s := S6x128) S6x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S300000x128.size a
  hwx0_3 : ∀ i : grid0.Coords, EltTy.bits .f32 = 32 ∨ (Rect.block (s := S300000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S300000x128.size a
  hwx1_0 : ∀ i : grid1.Coords, EltTy.bits .f32 = 32 ∨ (Rect.block (s := S300000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S300000x128.size a
  hwx1_1 : ∀ i : grid1.Coords, EltTy.bits .f32 = 32 ∨ (Rect.block (s := S300000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S300000x128.size a
  hwx1_6 : ∀ i : grid1.Coords, EltTy.bits .f32 = 32 ∨ (Rect.block (s := S300000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S300000x128.size a
  hwx2_0 : ∀ i : grid2.Coords, EltTy.bits .f32 = 32 ∨ (Rect.block (s := S300000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S300000x128.size a
  hwx2_1 : ∀ i : grid2.Coords, EltTy.bits .f32 = 32 ∨ (Rect.block (s := S300000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S300000x128.size a
  hwx2_6 : ∀ i : grid2.Coords, EltTy.bits .f32 = 32 ∨ (Rect.block (s := S300000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S300000x128.size a
  hwx3_0 : ∀ i : grid3.Coords, EltTy.bits .f32 = 32 ∨ (Rect.block (s := S300000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S300000x128.size a
  hwx3_1 : ∀ i : grid3.Coords, EltTy.bits .f32 = 32 ∨ (Rect.block (s := S300000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S300000x128.size a
  hwx3_6 : ∀ i : grid3.Coords, EltTy.bits .f32 = 32 ∨ (Rect.block (s := S300000x128) S4000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S300000x128.size a
  hwx4_0 : ∀ i : grid4.Coords, EltTy.bits .f32 = 32 ∨ (Rect.block (s := S300000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S300000x128.size a
  hwx4_1 : ∀ i : grid4.Coords, EltTy.bits .f32 = 32 ∨ (Rect.block (s := S300000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S300000x128.size a
  hwx4_6 : ∀ i : grid4.Coords, EltTy.bits .f32 = 32 ∨ (Rect.block (s := S300000x128) S4000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S8192x128.size a
  hwx5_0 : ∀ i : grid5.Coords, EltTy.bits .f32 = 32 ∨ (Rect.block (s := S8192x128) S1024x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1.size a ≤ S8192x1.size a
  hwx5_1 : ∀ i : grid5.Coords, EltTy.bits .f32 = 32 ∨ (Rect.block (s := S8192x1) S1024x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x256.size a ≤ S128x256.size a
  hwx5_2 : ∀ i : grid5.Coords, EltTy.bits .f32 = 32 ∨ (Rect.block (s := S128x256) S128x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256.size a ≤ S256.size a
  hwx5_3 : ∀ i : grid5.Coords, EltTy.bits .f32 = 32 ∨ (Rect.block (s := S256) S256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x256.size a ≤ S8192x256.size a
  hwx5_4 : ∀ i : grid5.Coords, EltTy.bits .f32 = 32 ∨ (Rect.block (s := S8192x256) S1024x256.size (cc5_transform_4 i) (hinb5_4 i)).WholeWords (EltTy.packing .f32)

variable [Facts₀]

def dot_S4000x6_S6x128_S4000x128_1_0_0_1_n_n : DotDims S4000x6 S6x128 S4000x128 where
  lhsContracting := [1]
  rhsContracting := [0]
  lhsNonContracting := [0]
  rhsNonContracting := [1]
  lhsBatch := []
  rhsBatch := []
  wf := dot_S4000x6_S6x128_S4000x128_1_0_0_1_n_n_wf
def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S300000x128_S600000x1_S600000x128_1_0_0_1 : ScatterDims S300000x128 S600000x1 S600000x128 where
  updateWindowDims := [1]
  insertedWindowDims := [0]
  scatterDimsToOperandDims := [0]
  indexVectorDim := 1
  wf := scatter_S300000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S8192x128_S300000x1_S300000x128_1_0_0_1 : ScatterDims S8192x128 S300000x1 S300000x128 where
  updateWindowDims := [1]
  insertedWindowDims := [0]
  scatterDimsToOperandDims := [0]
  indexVectorDim := 1
  wf := scatter_S8192x128_S300000x1_S300000x128_1_0_0_1_wf
def scatter_S8192x1_S300000x1_S300000x1_1_0_0_1 : ScatterDims S8192x1 S300000x1 S300000x1 where
  updateWindowDims := [1]
  insertedWindowDims := [0]
  scatterDimsToOperandDims := [0]
  indexVectorDim := 1
  wf := scatter_S8192x1_S300000x1_S300000x1_1_0_0_1_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_arg0) S4000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v17) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v30) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v43) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v49) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v55) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v56) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v59) S1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S1024x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S128x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg10) S256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S1024x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S300000x6 : Shape := ⟨2, ![300000, 6]⟩
abbrev S2x600000 : Shape := ⟨2, ![2, 600000]⟩
abbrev S300000 : Shape := ⟨1, ![300000]⟩
abbrev S6x128 : Shape := ⟨2, ![6, 128]⟩
abbrev S128 : Shape := ⟨1, ![128]⟩
abbrev S4x128x128 : Shape := ⟨3, ![4, 128, 128]⟩
abbrev S4x128 : Shape := ⟨2, ![4, 128]⟩
abbrev S128x256 : Shape := ⟨2, ![128, 256]⟩
abbrev S256 : Shape := ⟨1, ![256]⟩
abbrev S1x600000 : Shape := ⟨2, ![1, 600000]⟩
abbrev S600000 : Shape := ⟨1, ![600000]⟩
abbrev S300000x128 : Shape := ⟨2, ![300000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S8192x128 : Shape := ⟨2, ![8192, 128]⟩
abbrev S300000x1 : Shape := ⟨2, ![300000, 1]⟩
abbrev S8192x1 : Shape := ⟨2, ![8192, 1]⟩
abbrev S8192x256 : Shape := ⟨2, ![8192, 256]⟩
abbrev S1x256 : Shape := ⟨2, ![1, 256]⟩

abbrev nBuf : Space → Nat
  | .hbm => 182
  | .vmem => 0
  | .smem => 0
  | _ => 0

abbrev hbmTy0_0 (i : Nat) : BufTy := match i % 128 with
  | 0 => ⟨S300000x6, .f32⟩
  | 1 => ⟨S2x600000, .i32⟩
  | 2 => ⟨S300000, .i32⟩
  | 3 => ⟨S6x128, .f32⟩
  | 4 => ⟨S128, .f32⟩
  | 5 => ⟨S4x128x128, .f32⟩
  | 6 => ⟨S4x128, .f32⟩
  | 7 => ⟨S4x128x128, .f32⟩
  | 8 => ⟨S4x128, .f32⟩
  | 9 => ⟨S128x256, .f32⟩
  | 10 => ⟨S256, .f32⟩
  | 11 => ⟨S1x600000, .i32⟩
  | 12 => ⟨S600000, .i32⟩
  | 13 => ⟨S1x600000, .i32⟩
  | 14 => ⟨S600000, .i32⟩
  | 15 => ⟨S300000x128, .f32⟩
  | 16 => ⟨S1x128, .f32⟩
  | 17 => ⟨S300000x128, .f32⟩
  | 18 => ⟨S300000x128, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .f32⟩
  | 29 => ⟨S300000x128, .f32⟩
  | 30 => ⟨S600000x1, .i32⟩
  | 31 => ⟨S300000x128, .f32⟩
  | 32 => ⟨S300000x128, .f32⟩
  | 33 => ⟨S1x128x128, .f32⟩
  | 34 => ⟨S128x128, .f32⟩
  | 35 => ⟨S300000x128, .f32⟩
  | 36 => ⟨S1x128, .f32⟩
  | 37 => ⟨S128, .f32⟩
  | 38 => ⟨S1x128, .f32⟩
  | 39 => ⟨S300000x128, .f32⟩
  | 40 => ⟨S300000x128, .f32⟩
  | 41 => ⟨S_, .f32⟩
  | 42 => ⟨S300000x128, .f32⟩
  | 43 => ⟨S300000x128, .f32⟩
  | 44 => ⟨S1x128x128, .f32⟩
  | 45 => ⟨S128x128, .f32⟩
  | 46 => ⟨S300000x128, .f32⟩
  | 47 => ⟨S1x128, .f32⟩
  | 48 => ⟨S128, .f32⟩
  | 49 => ⟨S1x128, .f32⟩
  | 50 => ⟨S300000x128, .f32⟩
  | 51 => ⟨S300000x128, .f32⟩
  | 52 => ⟨S_, .f32⟩
  | 53 => ⟨S300000x128, .f32⟩
  | 54 => ⟨S300000x128, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S_, .f32⟩
  | 65 => ⟨S300000x128, .f32⟩
  | 66 => ⟨S600000x1, .i32⟩
  | 67 => ⟨S300000x128, .f32⟩
  | 68 => ⟨S300000x128, .f32⟩
  | 69 => ⟨S1x128x128, .f32⟩
  | 70 => ⟨S128x128, .f32⟩
  | 71 => ⟨S300000x128, .f32⟩
  | 72 => ⟨S1x128, .f32⟩
  | 73 => ⟨S128, .f32⟩
  | 74 => ⟨S1x128, .f32⟩
  | 75 => ⟨S300000x128, .f32⟩
  | 76 => ⟨S300000x128, .f32⟩
  | 77 => ⟨S_, .f32⟩
  | 78 => ⟨S300000x128, .f32⟩
  | 79 => ⟨S300000x128, .f32⟩
  | 80 => ⟨S1x128x128, .f32⟩
  | 81 => ⟨S128x128, .f32⟩
  | 82 => ⟨S300000x128, .f32⟩
  | 83 => ⟨S1x128, .f32⟩
  | 84 => ⟨S128, .f32⟩
  | 85 => ⟨S1x128, .f32⟩
  | 86 => ⟨S300000x128, .f32⟩
  | 87 => ⟨S300000x128, .f32⟩
  | 88 => ⟨S_, .f32⟩
  | 89 => ⟨S300000x128, .f32⟩
  | 90 => ⟨S300000x128, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x128, .f32⟩
  | 100 => ⟨S_, .f32⟩
  | 101 => ⟨S300000x128, .f32⟩
  | 102 => ⟨S600000x1, .i32⟩
  | 103 => ⟨S300000x128, .f32⟩
  | 104 => ⟨S300000x128, .f32⟩
  | 105 => ⟨S1x128x128, .f32⟩
  | 106 => ⟨S128x128, .f32⟩
  | 107 => ⟨S300000x128, .f32⟩
  | 108 => ⟨S1x128, .f32⟩
  | 109 => ⟨S128, .f32⟩
  | 110 => ⟨S1x128, .f32⟩
  | 111 => ⟨S300000x128, .f32⟩
  | 112 => ⟨S300000x128, .f32⟩
  | 113 => ⟨S_, .f32⟩
  | 114 => ⟨S300000x128, .f32⟩
  | 115 => ⟨S300000x128, .f32⟩
  | 116 => ⟨S1x128x128, .f32⟩
  | 117 => ⟨S128x128, .f32⟩
  | 118 => ⟨S300000x128, .f32⟩
  | 119 => ⟨S1x128, .f32⟩
  | 120 => ⟨S128, .f32⟩
  | 121 => ⟨S1x128, .f32⟩
  | 122 => ⟨S300000x128, .f32⟩
  | 123 => ⟨S300000x128, .f32⟩
  | 124 => ⟨S_, .f32⟩
  | 125 => ⟨S300000x128, .f32⟩
  | 126 => ⟨S300000x128, .f32⟩
  | 127 => ⟨S_, .i32⟩
  | _ => ⟨S300000x6, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x128, .f32⟩
  | 8 => ⟨S_, .f32⟩
  | 9 => ⟨S300000x128, .f32⟩
  | 10 => ⟨S600000x1, .i32⟩
  | 11 => ⟨S300000x128, .f32⟩
  | 12 => ⟨S300000x128, .f32⟩
  | 13 => ⟨S1x128x128, .f32⟩
  | 14 => ⟨S128x128, .f32⟩
  | 15 => ⟨S300000x128, .f32⟩
  | 16 => ⟨S1x128, .f32⟩
  | 17 => ⟨S128, .f32⟩
  | 18 => ⟨S1x128, .f32⟩
  | 19 => ⟨S300000x128, .f32⟩
  | 20 => ⟨S300000x128, .f32⟩
  | 21 => ⟨S_, .f32⟩
  | 22 => ⟨S300000x128, .f32⟩
  | 23 => ⟨S300000x128, .f32⟩
  | 24 => ⟨S1x128x128, .f32⟩
  | 25 => ⟨S128x128, .f32⟩
  | 26 => ⟨S300000x128, .f32⟩
  | 27 => ⟨S1x128, .f32⟩
  | 28 => ⟨S128, .f32⟩
  | 29 => ⟨S1x128, .f32⟩
  | 30 => ⟨S300000x128, .f32⟩
  | 31 => ⟨S300000x128, .f32⟩
  | 32 => ⟨S_, .f32⟩
  | 33 => ⟨S300000x128, .f32⟩
  | 34 => ⟨S300000x128, .f32⟩
  | 35 => ⟨S_, .f32⟩
  | 36 => ⟨S8192x128, .f32⟩
  | 37 => ⟨S300000x1, .i32⟩
  | 38 => ⟨S8192x128, .f32⟩
  | 39 => ⟨S_, .f32⟩
  | 40 => ⟨S300000x1, .f32⟩
  | 41 => ⟨S_, .f32⟩
  | 42 => ⟨S8192x1, .f32⟩
  | 43 => ⟨S300000x1, .i32⟩
  | 44 => ⟨S8192x1, .f32⟩
  | 45 => ⟨S_, .f32⟩
  | 46 => ⟨S8192x1, .f32⟩
  | 47 => ⟨S8192x1, .f32⟩
  | 48 => ⟨S8192x128, .f32⟩
  | 49 => ⟨S8192x128, .f32⟩
  | 50 => ⟨S8192x256, .f32⟩
  | 51 => ⟨S1x256, .f32⟩
  | 52 => ⟨S8192x256, .f32⟩
  | 53 => ⟨S8192x256, .f32⟩
  | _ => ⟨S300000x6, .f32⟩

abbrev hbmTy (i : Nat) : BufTy := match i / 128 with
  | 0 => hbmTy0_0 i
  | 1 => hbmTy0_1 i
  | _ => ⟨S300000x6, .f32⟩

abbrev bufTy : (tb : Table) → Fin (tcTables nBuf tb) → BufTy
  | .hbm, ⟨i, _⟩ => hbmTy i
  | _, _ => ⟨S300000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_cst : Ref sig .tc := ⟨.hbm, 52, rfl⟩
abbrev main_call1_v0 : Ref sig .tc := ⟨.hbm, 53, rfl⟩
abbrev main_v36 : Ref sig .tc := ⟨.hbm, 54, rfl⟩
abbrev main_c_1 : Ref sig .tc := ⟨.hbm, 55, rfl⟩
abbrev main_v37 : Ref sig .tc := ⟨.hbm, 56, rfl⟩
abbrev main_v38 : Ref sig .tc := ⟨.hbm, 57, rfl⟩
abbrev main_c_2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call2_cst : Ref sig .tc := ⟨.hbm, 77, rfl⟩
abbrev main_call2_v0 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call3_cst : Ref sig .tc := ⟨.hbm, 88, rfl⟩
abbrev main_call3_v0 : Ref sig .tc := ⟨.hbm, 89, rfl⟩
abbrev main_v65 : Ref sig .tc := ⟨.hbm, 90, rfl⟩
abbrev main_c_4 : Ref sig .tc := ⟨.hbm, 91, rfl⟩
abbrev main_v66 : Ref sig .tc := ⟨.hbm, 92, rfl⟩
abbrev main_v67 : Ref sig .tc := ⟨.hbm, 93, rfl⟩
abbrev main_c_5 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_6 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call4_cst : Ref sig .tc := ⟨.hbm, 113, rfl⟩
abbrev main_call4_v0 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_call5_cst : Ref sig .tc := ⟨.hbm, 124, rfl⟩
abbrev main_call5_v0 : Ref sig .tc := ⟨.hbm, 125, rfl⟩
abbrev main_v94 : Ref sig .tc := ⟨.hbm, 126, rfl⟩
abbrev main_c_7 : Ref sig .tc := ⟨.hbm, 127, rfl⟩
abbrev main_v95 : Ref sig .tc := ⟨.hbm, 128, rfl⟩
abbrev main_v96 : Ref sig .tc := ⟨.hbm, 129, rfl⟩
abbrev main_c_8 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_9 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_call6_cst : Ref sig .tc := ⟨.hbm, 149, rfl⟩
abbrev main_call6_v0 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_call7_cst : Ref sig .tc := ⟨.hbm, 160, rfl⟩
abbrev main_call7_v0 : Ref sig .tc := ⟨.hbm, 161, rfl⟩
abbrev main_v123 : Ref sig .tc := ⟨.hbm, 162, rfl⟩
abbrev main_cst_10 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_11 : Ref sig .tc := ⟨.hbm, 167, rfl⟩
abbrev main_v127 : Ref sig .tc := ⟨.hbm, 168, rfl⟩
abbrev main_cst_12 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_13 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S300000x128 : S_.BroadcastsInDim S300000x128 (![] : Fin 0 → Fin S300000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S8192x128 : S_.BroadcastsInDim S8192x128 (![] : Fin 0 → Fin S8192x128.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S300000x6_S6x128_S300000x128_1_0_0_1_n_n_wf : DotDims.WF S300000x6 S6x128 S300000x128 [1] [0] [0] [1] [] []
  gather_S300000x128_S600000x1_S600000x128_1_0_n_n_0_1_1128_wf : GatherDims.WF S300000x128 S600000x1 S600000x128 [1] [0] [] [0] [] 1 ![1, 128]
  scatter_S300000x128_S600000x1_S600000x128_1_0_0_1_wf : ScatterDims.WF S300000x128 S600000x1 S600000x128 [1] [0] [0] 1
  dot_S300000x128_S128x128_S300000x128_1_0_0_1_n_n_wf : DotDims.WF S300000x128 S128x128 S300000x128 [1] [0] [0] [1] [] []
  scatter_S8192x128_S300000x1_S300000x128_1_0_0_1_wf : ScatterDims.WF S8192x128 S300000x1 S300000x128 [1] [0] [0] 1
  scatter_S8192x1_S300000x1_S300000x1_1_0_0_1_wf : ScatterDims.WF S8192x1 S300000x1 S300000x1 [1] [0] [0] 1
  dot_S8192x128_S128x256_S8192x256_1_0_0_1_n_n_wf : DotDims.WF S8192x128 S128x256 S8192x256 [1] [0] [0] [1] [] []

variable [Facts₀]

def dot_S300000x6_S6x128_S300000x128_1_0_0_1_n_n : DotDims S300000x6 S6x128 S300000x128 where
  lhsContracting := [1]
  rhsContracting := [0]
  lhsNonContracting := [0]
  rhsNonContracting := [1]
  lhsBatch := []
  rhsBatch := []
  wf := dot_S300000x6_S6x128_S300000x128_1_0_0_1_n_n_wf
def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S300000x128_S600000x1_S600000x128_1_0_0_1 : ScatterDims S300000x128 S600000x1 S600000x128 where
  updateWindowDims := [1]
  insertedWindowDims := [0]
  scatterDimsToOperandDims := [0]
  indexVectorDim := 1
  wf := scatter_S300000x128_S600000x1_S600000x128_1_0_0_1_wf
def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def scatter_S8192x128_S300000x1_S300000x128_1_0_0_1 : ScatterDims S8192x128 S300000x1 S300000x128 where
  updateWindowDims := [1]
  insertedWindowDims := [0]
  scatterDimsToOperandDims := [0]
  indexVectorDim := 1
  wf := scatter_S8192x128_S300000x1_S300000x128_1_0_0_1_wf
def scatter_S8192x1_S300000x1_S300000x1_1_0_0_1 : ScatterDims S8192x1 S300000x1 S300000x1 where
  updateWindowDims := [1]
  insertedWindowDims := [0]
  scatterDimsToOperandDims := [0]
  indexVectorDim := 1
  wf := scatter_S8192x1_S300000x1_S300000x1_1_0_0_1_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

class Facts : Prop extends Facts₀ where

variable [Facts]
-- ==== Proof.Rows.lean ====
/-
  The mathematics of one node (one row) of the three kinds of kernel, on the extended reals.
  A node's encoding is a 6-term inner product per hidden unit plus a bias; a message-passing layer adds the node's
  aggregate to its features and applies two 128-wide affine maps, each followed by a maximum with zero; the pooled
  output divides a graph's feature sums by its node count, clamped below by one, and applies a 128-to-256 affine map.
  Every whole-array statement about the kernels and about the reference is reduced to these row functions.
-/
import Idealize.ShloMosaic.PureOps.Ideal.Laws
import Idealize.ShloMosaic.Lib.ValueIdx

noncomputable section

namespace Cert.Gin

open Idealize.ShloMosaic

/-- The zero both programs take maxima with and start sums from, as the word they carry. -/
abbrev zeroW : EReal := Ideal.ofBits .f32 0x00000000#32
/-- The one the node count is clamped below by, as the word both programs carry. -/
abbrev oneW : EReal := Ideal.ofBits .f32 0x3F800000#32

/-- Hidden unit `j` of a node's encoding: the inner product of its 6 features with column `j`, plus the bias. -/
def encRow (x : Fin 6 → EReal) (W : Fin 6 → Fin 128 → EReal) (b : Fin 128 → EReal) (j : Fin 128) : EReal :=
  (∑ k : Fin 6, x k * W k j) + b j

/-- Unit `j` after the first affine map of a layer, applied to features plus aggregate, and the maximum with zero. -/
def hidRow (h a : Fin 128 → EReal) (w1 : Fin 128 → Fin 128 → EReal) (b1 : Fin 128 → EReal) (j : Fin 128) : EReal :=
  max ((∑ k : Fin 128, (h k + a k) * w1 k j) + b1 j) zeroW

/-- Unit `q` of a node after a whole layer: the second affine map of the hidden row, and the maximum with zero. -/
def mlpRow (h a : Fin 128 → EReal) (w1 : Fin 128 → Fin 128 → EReal) (b1 : Fin 128 → EReal)
    (w2 : Fin 128 → Fin 128 → EReal) (b2 : Fin 128 → EReal) (q : Fin 128) : EReal :=
  max ((∑ j : Fin 128, hidRow h a w1 b1 j * w2 j q) + b2 q) zeroW

/-- Output unit `q` of a graph: its feature sums over its clamped node count, through the output affine map. -/
def poolRow (s : Fin 128 → EReal) (cnt : EReal) (W : Fin 128 → Fin 256 → EReal) (b : Fin 256 → EReal) (q : Fin 256) : EReal :=
  (∑ k : Fin 128, Ideal.div (s k) (max cnt oneW) * W k q) + b q

end Cert.Gin

end
-- ==== Proof.HostG.lean ====
/-
  The three kinds of dense stage as whole-array functions, written with the host operations the reference applies
  (a matrix product, a bias laid along the rows, a maximum with zero, a quotient by a clamped count), the
  message-passing step around them (rows gathered at the edge sources, summed into the edge targets), and the whole
  network as their composition, with the row-gathering map left as a parameter `gat`.
-/
import proofs.«414283_j78855599555022_1_alg».proof.Proof.Gen.ReferenceIdeal
import proofs.«414283_j78855599555022_1_alg».proof.Proof.Rows
import Idealize.ShloMosaic.Lib.Pipeline.Value
import Idealize.ShloMosaic.Lib.ValueIdx
import Idealize.ShloMosaic.PureOps.Ideal.Laws

noncomputable section

namespace Cert.Gin

open Cert.ReferenceIdeal Cert.ReferenceIdeal.Gen Idealize.ShloMosaic Idealize.ShloMosaic.ValueIdx

variable {F : FTy → Type} [FloatOps F]

/-- An array's contents at an element type. -/
abbrev Arr (F : FTy → Type) (s : Shape) (e : EltTy) : Type := (⟨s, e⟩ : BufTy).Contents (Elt F)

/-- A length-128 bias laid along every one of 300000 rows. -/
def biasN (b : Arr F S128 .f32) : Arr F S300000x128 .f32 :=
  broadcastInDim S300000x128 ![0, 1] bcast_S1x128_S300000x128_0_1 (broadcastInDim S1x128 ![1] bcast_S128_S1x128_1 b)

/-- The node encoder: features times the encoder matrix, plus its bias. -/
def encG (x : Arr F S300000x6 .f32) (W : Arr F S6x128 .f32) (b : Arr F S128 .f32) : Arr F S300000x128 .f32 :=
  addf (Host.dotGeneral dot_S300000x6_S6x128_S300000x128_1_0_0_1_n_n none x W) (biasN b)

/-- The maximum with zero, entry by entry. -/
def reluG (y : Arr F S300000x128 .f32) : Arr F S300000x128 .f32 :=
  maximumf y (broadcastInDim S300000x128 ![] bcast_S_S300000x128 (constant S_ .f32 0x00000000#32))

/-- One layer's dense part: two affine maps of features plus aggregate, each followed by the maximum with zero. -/
def mlpG (h agg : Arr F S300000x128 .f32) (w1 : Arr F S128x128 .f32) (b1 : Arr F S128 .f32) (w2 : Arr F S128x128 .f32)
    (b2 : Arr F S128 .f32) : Arr F S300000x128 .f32 :=
  reluG (addf (Host.dotGeneral dot_S300000x128_S128x128_S300000x128_1_0_0_1_n_n none
    (reluG (addf (Host.dotGeneral dot_S300000x128_S128x128_S300000x128_1_0_0_1_n_n none (addf h agg) w1) (biasN b1))) w2) (biasN b2))

/-- The output stage: feature sums over node counts clamped below by one, through the output affine map. -/
def poolG (sums : Arr F S8192x128 .f32) (counts : Arr F S8192x1 .f32) (W : Arr F S128x256 .f32) (b : Arr F S256 .f32) :
    Arr F S8192x256 .f32 :=
  addf (Host.dotGeneral dot_S8192x128_S128x256_S8192x256_1_0_0_1_n_n none
      (Host.divf sums (broadcastInDim S8192x128 ![0, 1] bcast_S8192x1_S8192x128_0_1
        (maximumf counts (broadcastInDim S8192x1 ![] bcast_S_S8192x1 (constant S_ .f32 0x3F800000#32))))) W)
    (broadcastInDim S8192x256 ![0, 1] bcast_S1x256_S8192x256_0_1 (broadcastInDim S1x256 ![1] bcast_S256_S1x256_1 b))

/-- Row `r` of the edge list as a vector: row 0 holds the sources, row 1 the targets. -/
def srcOf (ei : Arr F S2x600000 .i32) : Arr F S600000 .i32 :=
  shapeCast _ (extractStridedSlice S1x600000 ![0, 0] ei slices_S2x600000_S1x600000_0_0) shapeCasts_S1x600000_S600000
def dstOf (ei : Arr F S2x600000 .i32) : Arr F S600000 .i32 :=
  shapeCast _ (extractStridedSlice S1x600000 ![1, 0] ei slices_S2x600000_S1x600000_1_0) shapeCasts_S1x600000_S600000

/-- A negative index counted from the end: `s + 300000` where `s < 0`, else `s`. -/
def wrapG (s : Arr F S600000 .i32) : Arr F S600000 .i32 :=
  select (cmpi .slt s (broadcastInDim S600000 ![] bcast_S_S600000 (constantI S_ 32 0#32)))
    (addi s (broadcastInDim S600000 ![] bcast_S_S600000 (constantI S_ 32 300000#32))) s

/-- An index vector as the one-column table a gather or scatter takes. -/
def colG (s : Arr F S600000 .i32) : Arr F S600000x1 .i32 := broadcastInDim S600000x1 ![0] bcast_S600000_S600000x1_0 s

/-- The reference's row gather: row `e` of the result is the row of `h` at source `e`, wrapped. -/
def gatherG (s : Arr F S600000 .i32) (h : Arr F S300000x128 .f32) : Arr F S600000x128 .f32 :=
  Host.gather gather_S300000x128_S600000x1_S600000x128_1_0_n_n_0_1_1128 h (colG (wrapG s))

/-- The aggregate: gathered rows summed into their targets, from zero. -/
def aggG (d : Arr F S600000 .i32) (g : Arr F S600000x128 .f32) : Arr F S300000x128 .f32 :=
  Host.scatterAdd scatter_S300000x128_S600000x1_S600000x128_1_0_0_1
    (broadcastInDim S300000x128 ![] bcast_S_S300000x128 (constant S_ .f32 0x00000000#32)) (colG d) g

/-- One whole layer, the gather a parameter. -/
def layerG (gat : Arr F S300000x128 .f32 → Arr F S600000x128 .f32) (d : Arr F S600000 .i32) (h : Arr F S300000x128 .f32)
    (w1 : Arr F S128x128 .f32) (b1 : Arr F S128 .f32) (w2 : Arr F S128x128 .f32) (b2 : Arr F S128 .f32) : Arr F S300000x128 .f32 :=
  mlpG h (aggG d (gat h)) w1 b1 w2 b2

/-- Per-graph feature sums and node counts. -/
def sumsG (bt : Arr F S300000 .i32) (h : Arr F S300000x128 .f32) : Arr F S8192x128 .f32 :=
  Host.scatterAdd scatter_S8192x128_S300000x1_S300000x128_1_0_0_1
    (broadcastInDim S8192x128 ![] bcast_S_S8192x128 (constant S_ .f32 0x00000000#32))
    (broadcastInDim S300000x1 ![0] bcast_S300000_S300000x1_0 bt) h
def countsG (bt : Arr F S300000 .i32) : Arr F S8192x1 .f32 :=
  Host.scatterAdd scatter_S8192x1_S300000x1_S300000x1_1_0_0_1
    (broadcastInDim S8192x1 ![] bcast_S_S8192x1 (constant S_ .f32 0x00000000#32))
    (broadcastInDim S300000x1 ![0] bcast_S300000_S300000x1_0 bt)
    (broadcastInDim S300000x1 ![] bcast_S_S300000x1 (constant S_ .f32 0x3F800000#32))

/-- Layer `l`'s matrices and biases out of the stacked arguments. -/
def mat0 (W : Arr F S4x128x128 .f32) : Arr F S128x128 .f32 := shapeCast _ (extractStridedSlice S1x128x128 ![0, 0, 0] W slices_S4x128x128_S1x128x128_0_0_0) shapeCasts_S1x128x128_S128x128
def mat1 (W : Arr F S4x128x128 .f32) : Arr F S128x128 .f32 := shapeCast _ (extractStridedSlice S1x128x128 ![1, 0, 0] W slices_S4x128x128_S1x128x128_1_0_0) shapeCasts_S1x128x128_S128x128
def mat2 (W : Arr F S4x128x128 .f32) : Arr F S128x128 .f32 := shapeCast _ (extractStridedSlice S1x128x128 ![2, 0, 0] W slices_S4x128x128_S1x128x128_2_0_0) shapeCasts_S1x128x128_S128x128
def mat3 (W : Arr F S4x128x128 .f32) : Arr F S128x128 .f32 := shapeCast _ (extractStridedSlice S1x128x128 ![3, 0, 0] W slices_S4x128x128_S1x128x128_3_0_0) shapeCasts_S1x128x128_S128x128
def vec0 (b : Arr F S4x128 .f32) : Arr F S128 .f32 := shapeCast _ (extractStridedSlice S1x128 ![0, 0] b slices_S4x128_S1x128_0_0) shapeCasts_S1x128_S128
def vec1 (b : Arr F S4x128 .f32) : Arr F S128 .f32 := shapeCast _ (extractStridedSlice S1x128 ![1, 0] b slices_S4x128_S1x128_1_0) shapeCasts_S1x128_S128
def vec2 (b : Arr F S4x128 .f32) : Arr F S128 .f32 := shapeCast _ (extractStridedSlice S1x128 ![2, 0] b slices_S4x128_S1x128_2_0) shapeCasts_S1x128_S128
def vec3 (b : Arr F S4x128 .f32) : Arr F S128 .f32 := shapeCast _ (extractStridedSlice S1x128 ![3, 0] b slices_S4x128_S1x128_3_0) shapeCasts_S1x128_S128

/-- The whole network over a row-gathering map `gat`: the encoder, four layers, the pooled output. -/
def outG (gat : Arr F S300000x128 .f32 → Arr F S600000x128 .f32)
    (x : Arr F S300000x6 .f32) (ei : Arr F S2x600000 .i32) (bt : Arr F S300000 .i32) (We : Arr F S6x128 .f32) (be : Arr F S128 .f32)
    (W1 : Arr F S4x128x128 .f32) (b1 : Arr F S4x128 .f32) (W2 : Arr F S4x128x128 .f32) (b2 : Arr F S4x128 .f32)
    (Wo : Arr F S128x256 .f32) (bo : Arr F S256 .f32) : Arr F S8192x256 .f32 :=
  poolG (sumsG bt
    (layerG gat (dstOf ei) (layerG gat (dstOf ei) (layerG gat (dstOf ei) (layerG gat (dstOf ei) (encG x We be)
      (mat0 W1) (vec0 b1) (mat0 W2) (vec0 b2)) (mat1 W1) (vec1 b1) (mat1 W2) (vec1 b2)) (mat2 W1) (vec2 b1) (mat2 W2) (vec2 b2))
      (mat3 W1) (vec3 b1) (mat3 W2) (vec3 b2))) (countsG bt) Wo bo

end Cert.Gin

end
-- ==== Proof.HostGApply.lean ====
/-
  Each dense stage of HostG.lean read at row `R`, column `q`, on the extended reals, is the row function of Rows.lean
  applied to row `R` of its operands: a host matrix product at an entry is the sum over the contracted axis, a bias
  laid along the rows reads its column, and the maxima and the quotient act entry by entry.
-/
import proofs.«414283_j78855599555022_1_alg».proof.Proof.HostG
import proofs.«414283_j78855599555022_1_alg».proof.Proof.Gen.ReferenceIdeal.Read

noncomputable section

namespace Cert.Gin

open Cert.ReferenceIdeal Cert.ReferenceIdeal.Gen Cert.ReferenceIdeal.Read Idealize.ShloMosaic Idealize.ShloMosaic.ValueIdx

/-! ## Broadcasts read at an index -/

section
variable {F : FTy → Type} [FloatOps F] {α : Type}

/-- A bias laid along the rows reads its column. -/
theorem biasN_apply (b : Arr F S128 .f32) (R : Fin 300000) (q : Fin 128) : biasN (F := F) b (ix2 R q) = b (ix1 q) := by
  unfold biasN
  refine (broadcastInDim_apply _ bcast_S1x128_S300000x128_0_1 _ (ix2 R q) (ix2 (0 : Fin 1) q) (fun a => match a with
    | ⟨0, _⟩ => by show 0 = if (1 : Nat) = 1 then 0 else R.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The 256-wide output bias laid along the rows reads its column. -/
theorem biasO_apply (b : S256.Idx → α) (R : Fin 8192) (q : Fin 256) :
    broadcastInDim S8192x256 ![0, 1] bcast_S1x256_S8192x256_0_1 (broadcastInDim S1x256 ![1] bcast_S256_S1x256_1 b) (ix2 R q)
      = b (ix1 q) := by
  refine (broadcastInDim_apply _ bcast_S1x256_S8192x256_0_1 _ (ix2 R q) (ix2 (0 : Fin 1) q) (fun a => match a with
    | ⟨0, _⟩ => by show 0 = if (1 : Nat) = 1 then 0 else R.val; rw [if_pos rfl]
    | ⟨1, _⟩ => by show q.val = if (256 : Nat) = 1 then 0 else q.val; rw [if_neg (by decide)])).trans ?_
  exact broadcastInDim_apply _ bcast_S256_S1x256_1 b (ix2 (0 : Fin 1) q) (ix1 q) (fun a => match a with
    | ⟨0, _⟩ => by show q.val = if (256 : Nat) = 1 then 0 else q.val; rw [if_neg (by decide)])

/-- A scalar laid over every entry of a 300000 by 128 array reads the scalar. -/
theorem fillN_apply (c : S_.Idx → α) (i : S300000x128.Idx) :
    broadcastInDim S300000x128 ![] bcast_S_S300000x128 c i = c ix0 :=
  broadcastInDim_apply _ bcast_S_S300000x128 c i ix0 (fun a => a.elim0)

/-- A scalar laid over every entry of an 8192 by 1 array reads the scalar. -/
theorem fillC_apply (c : S_.Idx → α) (i : S8192x1.Idx) :
    broadcastInDim S8192x1 ![] bcast_S_S8192x1 c i = c ix0 :=
  broadcastInDim_apply _ bcast_S_S8192x1 c i ix0 (fun a => a.elim0)

/-- A one-column array laid along 128 columns reads its row. -/
theorem colN_apply (y : S8192x1.Idx → α) (R : Fin 8192) (k : Fin 128) :
    broadcastInDim S8192x128 ![0, 1] bcast_S8192x1_S8192x128_0_1 y (ix2 R k) = y (ix2 R (0 : Fin 1)) :=
  broadcastInDim_apply _ bcast_S8192x1_S8192x128_0_1 y (ix2 R k) (ix2 R (0 : Fin 1)) (fun a => match a with
    | ⟨0, _⟩ => by show R.val = if (8192 : Nat) = 1 then 0 else R.val; rw [if_neg (by decide)]
    | ⟨1, _⟩ => by show 0 = if (1 : Nat) = 1 then 0 else k.val; rw [if_pos rfl])

end

/-! ## Sums, maxima and quotients act entry by entry -/

theorem addI_apply {s : Shape} (x y : FVec Ideal s .f32) (i : s.Idx) : addf (F := Ideal) (φ := .f32) x y i = x i + y i := rfl
theorem maxI_apply {s : Shape} (x y : FVec Ideal s .f32) (i : s.Idx) : maximumf (F := Ideal) (φ := .f32) x y i = max (x i) (y i) := rfl
theorem divI_apply {s : Shape} (x y : FVec Ideal s .f32) (i : s.Idx) :
    Host.divf (F := Ideal) (φ := .f32) x y i = Ideal.div (x i) (y i) := rfl

/-! ## The three matrix products read at an index -/

/-- The 6-term product at an entry. -/
theorem dotE_apply (x : Arr Ideal S300000x6 .f32) (W : Arr Ideal S6x128 .f32) (R : Fin 300000) (q : Fin 128) :
    Host.dotGeneral (F := Ideal) (φ₁ := .f32) (φ₂ := .f32) dot_S300000x6_S6x128_S300000x128_1_0_0_1_n_n none x W (ix2 R q) = ∑ k : Fin 6, x (ix2 R k) * W (ix2 k q) := by
  simp only [Host.dotGeneral]
  rw [Ideal.dotGeneral_apply, ← Equiv.sum_comp (ValueIdx.contrEquiv1 dot_S300000x6_S6x128_S300000x128_1_0_0_1_n_n 6 rfl rfl).symm]
  refine Finset.sum_congr rfl fun k _ => ?_
  have hk := ValueIdx.contrEquiv1_symm_val dot_S300000x6_S6x128_S300000x128_1_0_0_1_n_n 6 rfl rfl k
  have el : dot_S300000x6_S6x128_S300000x128_1_0_0_1_n_n.lhsIdx (ix2 R q) ((ValueIdx.contrEquiv1 dot_S300000x6_S6x128_S300000x128_1_0_0_1_n_n 6 rfl rfl).symm k) = ix2 R k := funext fun a => Fin.ext (by
    match a with
    | ⟨0, _⟩ => exact lhs_main_v4_0 _ _
    | ⟨1, _⟩ => exact (lhs_main_v4_1 _ _).trans hk)
  have er : dot_S300000x6_S6x128_S300000x128_1_0_0_1_n_n.rhsIdx (ix2 R q) ((ValueIdx.contrEquiv1 dot_S300000x6_S6x128_S300000x128_1_0_0_1_n_n 6 rfl rfl).symm k) = ix2 k q := funext fun a => Fin.ext (by
    match a with
    | ⟨0, _⟩ => exact (rhs_main_v4_0 _ _).trans hk
    | ⟨1, _⟩ => exact rhs_main_v4_1 _ _)
  rw [el, er]

/-- The 128-term product of a layer at an entry. -/
theorem dotM_apply (x : Arr Ideal S300000x128 .f32) (W : Arr Ideal S128x128 .f32) (R : Fin 300000) (q : Fin 128) :
    Host.dotGeneral (F := Ideal) (φ₁ := .f32) (φ₂ := .f32) dot_S300000x128_S128x128_S300000x128_1_0_0_1_n_n none x W (ix2 R q) = ∑ k : Fin 128, x (ix2 R k) * W (ix2 k q) := by
  simp only [Host.dotGeneral]
  rw [Ideal.dotGeneral_apply, ← Equiv.sum_comp (ValueIdx.contrEquiv1 dot_S300000x128_S128x128_S300000x128_1_0_0_1_n_n 128 rfl rfl).symm]
  refine Finset.sum_congr rfl fun k _ => ?_
  have hk := ValueIdx.contrEquiv1_symm_val dot_S300000x128_S128x128_S300000x128_1_0_0_1_n_n 128 rfl rfl k
  have el : dot_S300000x128_S128x128_S300000x128_1_0_0_1_n_n.lhsIdx (ix2 R q) ((ValueIdx.contrEquiv1 dot_S300000x128_S128x128_S300000x128_1_0_0_1_n_n 128 rfl rfl).symm k) = ix2 R k := funext fun a => Fin.ext (by
    match a with
    | ⟨0, _⟩ => exact lhs_main_v21_0 _ _
    | ⟨1, _⟩ => exact (lhs_main_v21_1 _ _).trans hk)
  have er : dot_S300000x128_S128x128_S300000x128_1_0_0_1_n_n.rhsIdx (ix2 R q) ((ValueIdx.contrEquiv1 dot_S300000x128_S128x128_S300000x128_1_0_0_1_n_n 128 rfl rfl).symm k) = ix2 k q := funext fun a => Fin.ext (by
    match a with
    | ⟨0, _⟩ => exact (rhs_main_v21_0 _ _).trans hk
    | ⟨1, _⟩ => exact rhs_main_v21_1 _ _)
  rw [el, er]

/-- The 128-term product of the output stage at an entry. -/
theorem dotO_apply (x : Arr Ideal S8192x128 .f32) (W : Arr Ideal S128x256 .f32) (R : Fin 8192) (q : Fin 256) :
    Host.dotGeneral (F := Ideal) (φ₁ := .f32) (φ₂ := .f32) dot_S8192x128_S128x256_S8192x256_1_0_0_1_n_n none x W (ix2 R q) = ∑ k : Fin 128, x (ix2 R k) * W (ix2 k q) := by
  simp only [Host.dotGeneral]
  rw [Ideal.dotGeneral_apply, ← Equiv.sum_comp (ValueIdx.contrEquiv1 dot_S8192x128_S128x256_S8192x256_1_0_0_1_n_n 128 rfl rfl).symm]
  refine Finset.sum_congr rfl fun k _ => ?_
  have hk := ValueIdx.contrEquiv1_symm_val dot_S8192x128_S128x256_S8192x256_1_0_0_1_n_n 128 rfl rfl k
  have el : dot_S8192x128_S128x256_S8192x256_1_0_0_1_n_n.lhsIdx (ix2 R q) ((ValueIdx.contrEquiv1 dot_S8192x128_S128x256_S8192x256_1_0_0_1_n_n 128 rfl rfl).symm k) = ix2 R k := funext fun a => Fin.ext (by
    match a with
    | ⟨0, _⟩ => exact lhs_main_v135_0 _ _
    | ⟨1, _⟩ => exact (lhs_main_v135_1 _ _).trans hk)
  have er : dot_S8192x128_S128x256_S8192x256_1_0_0_1_n_n.rhsIdx (ix2 R q) ((ValueIdx.contrEquiv1 dot_S8192x128_S128x256_S8192x256_1_0_0_1_n_n 128 rfl rfl).symm k) = ix2 k q := funext fun a => Fin.ext (by
    match a with
    | ⟨0, _⟩ => exact (rhs_main_v135_0 _ _).trans hk
    | ⟨1, _⟩ => exact rhs_main_v135_1 _ _)
  rw [el, er]

/-! ## The maximum with zero, the first half of a layer, and the clamped count -/

/-- The maximum with zero at an entry. -/
theorem reluG_apply (y : Arr Ideal S300000x128 .f32) (R : Fin 300000) (q : Fin 128) :
    reluG (F := Ideal) y (ix2 R q) = max (y (ix2 R q)) zeroW := by
  unfold reluG
  rw [maxI_apply]
  exact congrArg (max (y (ix2 R q))) (fillN_apply (constant (F := Ideal) S_ .f32 0x00000000#32) (ix2 R q))

/-- The hidden row of a layer at an entry. -/
theorem hidG_apply (h agg : Arr Ideal S300000x128 .f32) (w1 : Arr Ideal S128x128 .f32) (b1 : Arr Ideal S128 .f32)
    (R : Fin 300000) (j : Fin 128) :
    reluG (F := Ideal) (addf (F := Ideal) (φ := .f32) (Host.dotGeneral (F := Ideal) (φ₁ := .f32) (φ₂ := .f32) dot_S300000x128_S128x128_S300000x128_1_0_0_1_n_n none (addf (F := Ideal) (φ := .f32) h agg) w1) (biasN b1)) (ix2 R j)
      = hidRow (fun k => h (ix2 R k)) (fun k => agg (ix2 R k)) (fun k j => w1 (ix2 k j)) (fun j => b1 (ix1 j)) j := by
  rw [reluG_apply, addI_apply, dotM_apply, biasN_apply]
  rfl

/-- The node count clamped below by one and laid along the columns reads the clamped count of its row. -/
theorem clampN_apply (counts : Arr Ideal S8192x1 .f32) (R : Fin 8192) (k : Fin 128) :
    broadcastInDim S8192x128 ![0, 1] bcast_S8192x1_S8192x128_0_1
        (maximumf (F := Ideal) (φ := .f32) counts (broadcastInDim S8192x1 ![] bcast_S_S8192x1 (constant (F := Ideal) S_ .f32 0x3F800000#32)))
        (ix2 R k)
      = max (counts (ix2 R (0 : Fin 1))) oneW := by
  refine (colN_apply _ R k).trans ?_
  rw [maxI_apply]
  exact congrArg (max (counts (ix2 R (0 : Fin 1)))) (fillC_apply (constant (F := Ideal) S_ .f32 0x3F800000#32) (ix2 R (0 : Fin 1)))

/-! ## The dense stages read at an index, on the extended reals -/

theorem encG_apply (x : Arr Ideal S300000x6 .f32) (W : Arr Ideal S6x128 .f32) (b : Arr Ideal S128 .f32) (R : Fin 300000) (q : Fin 128) :
    encG (F := Ideal) x W b (ix2 R q) = encRow (fun k => x (ix2 R k)) (fun k j => W (ix2 k j)) (fun j => b (ix1 j)) q := by
  unfold encG
  rw [addI_apply, dotE_apply, biasN_apply]
  rfl

theorem mlpG_apply (h agg : Arr Ideal S300000x128 .f32) (w1 : Arr Ideal S128x128 .f32) (b1 : Arr Ideal S128 .f32)
    (w2 : Arr Ideal S128x128 .f32) (b2 : Arr Ideal S128 .f32) (R : Fin 300000) (q : Fin 128) :
    mlpG (F := Ideal) h agg w1 b1 w2 b2 (ix2 R q)
      = mlpRow (fun k => h (ix2 R k)) (fun k => agg (ix2 R k)) (fun k j => w1 (ix2 k j)) (fun j => b1 (ix1 j))
          (fun k j => w2 (ix2 k j)) (fun j => b2 (ix1 j)) q := by
  unfold mlpG
  rw [reluG_apply, addI_apply, dotM_apply, biasN_apply]
  unfold mlpRow
  congr 2
  refine Finset.sum_congr rfl fun j _ => ?_
  rw [hidG_apply]

theorem poolG_apply (sums : Arr Ideal S8192x128 .f32) (counts : Arr Ideal S8192x1 .f32) (W : Arr Ideal S128x256 .f32)
    (b : Arr Ideal S256 .f32) (R : Fin 8192) (q : Fin 256) :
    poolG (F := Ideal) sums counts W b (ix2 R q)
      = poolRow (fun k => sums (ix2 R k)) (counts (ix2 R (0 : Fin 1))) (fun k j => W (ix2 k j)) (fun j => b (ix1 j)) q := by
  unfold poolG
  rw [addI_apply, dotO_apply, biasO_apply]
  unfold poolRow
  congr 1
  refine Finset.sum_congr rfl fun k _ => ?_
  rw [divI_apply]
  exact congrArg (fun t => Ideal.div (sums (ix2 R k)) t * W (ix2 k q)) (clampN_apply counts R k)

end Cert.Gin

end
-- ==== Proof.RegionEnc.lean ====
/-
  The encoder call: 75 grid points, point `t` writing rows 4000·t … 4000·t + 3999 of the encoded features from the same rows of the node features. After the call the whole array is the encoder of HostG.lean of the arrays the call found.
  First the body's stored value at one entry of a block is the row function of Rows.lean of that block row; then each
  input block is rows of its array (the features' block `t` is rows 4000·t onwards, the matrix and the bias have one
  block), so what point `t` writes back is block `t` of the whole-array encoder; last, every row lies in the block of
  point `row / 4000`.
-/
import proofs.«414283_j78855599555022_1_alg».proof.Proof.Gen.KernelIdeal.Frame
import proofs.«414283_j78855599555022_1_alg».proof.Proof.HostGApply
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gin.K.Enc

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The encoder's arithmetic at one entry -/

/-- The product's left operand is read at the output's row … -/
theorem lhs_enc_0 (i : S4000x128.Idx) (q : dot_S4000x6_S6x128_S4000x128_1_0_0_1_n_n.contr.Idx) :
    (dot_S4000x6_S6x128_S4000x128_1_0_0_1_n_n.lhsIdx i q 0).val = (i 0).val := by
  unfold DotDims.lhsIdx
  rw [dif_neg (show ¬(0 : Fin S4000x6.rank) ∈ dot_S4000x6_S6x128_S4000x128_1_0_0_1_n_n.lhsBatch by decide), dif_pos (show (0 : Fin S4000x6.rank) ∈ dot_S4000x6_S6x128_S4000x128_1_0_0_1_n_n.lhsNonContracting by decide)]
  rfl
/-- … and the summation position, -/
theorem lhs_enc_1 (i : S4000x128.Idx) (q : dot_S4000x6_S6x128_S4000x128_1_0_0_1_n_n.contr.Idx) :
    (dot_S4000x6_S6x128_S4000x128_1_0_0_1_n_n.lhsIdx i q 1).val = (q ⟨0, by decide⟩).val :=
  dot_S4000x6_S6x128_S4000x128_1_0_0_1_n_n.lhsIdx_val_of_single rfl i q
/-- the right operand at the summation position … -/
theorem rhs_enc_0 (i : S4000x128.Idx) (q : dot_S4000x6_S6x128_S4000x128_1_0_0_1_n_n.contr.Idx) :
    (dot_S4000x6_S6x128_S4000x128_1_0_0_1_n_n.rhsIdx i q 0).val = (q ⟨0, by decide⟩).val :=
  dot_S4000x6_S6x128_S4000x128_1_0_0_1_n_n.rhsIdx_val_of_single rfl i q
/-- … and the output's column. -/
theorem rhs_enc_1 (i : S4000x128.Idx) (q : dot_S4000x6_S6x128_S4000x128_1_0_0_1_n_n.contr.Idx) :
    (dot_S4000x6_S6x128_S4000x128_1_0_0_1_n_n.rhsIdx i q 1).val = (i 1).val := by
  unfold DotDims.rhsIdx
  rw [dif_neg (show ¬(1 : Fin S6x128.rank) ∈ dot_S4000x6_S6x128_S4000x128_1_0_0_1_n_n.rhsBatch by decide), dif_pos (show (1 : Fin S6x128.rank) ∈ dot_S4000x6_S6x128_S4000x128_1_0_0_1_n_n.rhsNonContracting by decide)]
  rfl

/-- A block's matrix product from zero, at row `p` and column `q`: the 6-term inner product of row `p` with column `q`. -/
theorem matmul_enc_apply (a : FVec Ideal S4000x6 .bf16) (b : FVec Ideal S6x128 .bf16) (p : Fin 4000) (q : Fin 128) :
    FloatOps.matmul dot_S4000x6_S6x128_S4000x128_1_0_0_1_n_n none a b (constant (F := Ideal) S4000x128 .f32 0x00000000#32) (ix2 p q)
      = ∑ k : Fin 6, a (ix2 p k) * b (ix2 k q) := by
  rw [Ideal.matmul_constant_zero_apply, ← Equiv.sum_comp (ValueIdx.contrEquiv1 dot_S4000x6_S6x128_S4000x128_1_0_0_1_n_n 6 rfl rfl).symm]
  refine Finset.sum_congr rfl fun k _ => ?_
  have hk := ValueIdx.contrEquiv1_symm_val dot_S4000x6_S6x128_S4000x128_1_0_0_1_n_n 6 rfl rfl k
  have el : dot_S4000x6_S6x128_S4000x128_1_0_0_1_n_n.lhsIdx (ix2 p q) ((ValueIdx.contrEquiv1 dot_S4000x6_S6x128_S4000x128_1_0_0_1_n_n 6 rfl rfl).symm k) = ix2 p k := funext fun a => Fin.ext (by
    match a with
    | ⟨0, _⟩ => exact lhs_enc_0 _ _
    | ⟨1, _⟩ => exact (lhs_enc_1 _ _).trans hk)
  have er : dot_S4000x6_S6x128_S4000x128_1_0_0_1_n_n.rhsIdx (ix2 p q) ((ValueIdx.contrEquiv1 dot_S4000x6_S6x128_S4000x128_1_0_0_1_n_n 6 rfl rfl).symm k) = ix2 k q := funext fun a => Fin.ext (by
    match a with
    | ⟨0, _⟩ => exact (rhs_enc_0 _ _).trans hk
    | ⟨1, _⟩ => exact rhs_enc_1 _ _)
  rw [el, er]

/-- The bias laid along the block's rows reads its column. -/
theorem bias_enc_apply (v5 : Vec Ideal S128 .f32) (p : Fin 4000) (q : Fin 128) :
    broadcastTo S4000x128 (shapeCast S1x128 v5 shapeCasts_S128_S1x128) broadcasts_S1x128_S4000x128 (ix2 p q) = v5 (ix1 q) :=
  (broadcastTo_1b_ab_apply _ broadcasts_S1x128_S4000x128 p q).trans (shapeCast_a_1a_apply v5 shapeCasts_S128_S1x128 0 q)

/-- The body's stored value at row `p`, column `q` of the block is the encoding of row `p`. -/
theorem pay_enc_apply (v0 : Vec Ideal S4000x6 .f32) (v2 : Vec Ideal S6x128 .f32) (v5 : Vec Ideal S128 .f32) (p : Fin 4000) (q : Fin 128) :
    k0_pay1 (F := Ideal) v0 v2 v5 (ix2 p q) = encRow (fun k => v0 (ix2 p k)) (fun k j => v2 (ix2 k j)) (fun j => v5 (ix1 j)) q := by
  unfold k0_pay1 encRow
  show FloatOps.matmul dot_S4000x6_S6x128_S4000x128_1_0_0_1_n_n none (truncf .bf16 v0 bitsLt_bf16_f32) (truncf .bf16 v2 bitsLt_bf16_f32) (constant (F := Ideal) S4000x128 .f32 0x00000000#32) (ix2 p q)
      + broadcastTo S4000x128 (shapeCast S1x128 v5 shapeCasts_S128_S1x128) broadcasts_S1x128_S4000x128 (ix2 p q) = _
  rw [matmul_enc_apply, bias_enc_apply]
  rfl

variable (V : (c : Dev nD) → (b : Ref sig .tc) → Buf (Elt Ideal) ((c : Thread nD τ).loc b))

/-! ## Each block as rows of its array -/

theorem zeros2 : (![0, 0] : Fin 2 → Nat) = fun _ => 0 := funext fun a => by fin_cases a <;> rfl
theorem zeros1 : (![0] : Fin 1 → Nat) = fun _ => 0 := funext fun a => by fin_cases a <;> rfl

/-- The block indices over the grid: the feature and output windows move down the rows with the point, the matrix and the
    bias stay. -/
theorem enc_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of point `t`'s feature block is row `4000·t + p` of the features. -/
theorem feat_blk_apply (c : Dev nD) (t : Fin cfg0.N) (p : Fin 4000) (k : Fin 6) (R : Fin 300000) (hR : R.val = 4000 * t.val + p.val) :
    (iblk0 V c 0 t : Vec Ideal S4000x6 .f32) (ix2 p k) = (V c main_arg0 : S300000x6.Idx → EReal) (ix2 R k) := by
  obtain ⟨e0, e1, -⟩ := enc_idx t
  have he : ((cfg0.win 0).blk t).view.emb (ix2 p k) = (ix2 R k : S300000x6.Idx) := by
    funext a; apply Fin.ext
    match a with
    | ⟨0, _⟩ => show win0_0.index t (0 : Fin 2) * 4000 + 1 * p.val = R.val; omega
    | ⟨1, _⟩ => show win0_0.index t (1 : Fin 2) * 6 + 1 * k.val = k.val; omega
  show V c main_arg0 (((cfg0.win 0).blk t).view.emb (ix2 p k)) = _
  rw [he]

/-- The matrix's one block is the matrix. -/
theorem mat_blk_apply (c : Dev nD) (t : Fin cfg0.N) (k : Fin 6) (j : Fin 128) :
    (iblk0 V c 1 t : Vec Ideal S6x128 .f32) (ix2 k j) = (V c main_arg3 : S6x128.Idx → EReal) (ix2 k j) := by
  obtain ⟨-, -, e0, e1, -⟩ := enc_idx t
  have he : ((cfg0.win 1).blk t).view.emb (ix2 k j) = (ix2 k j : S6x128.Idx) := by
    funext a; apply Fin.ext
    match a with
    | ⟨0, _⟩ => show win0_1.index t (0 : Fin 2) * 6 + 1 * k.val = k.val; omega
    | ⟨1, _⟩ => show win0_1.index t (1 : Fin 2) * 128 + 1 * j.val = j.val; omega
  show V c main_arg3 (((cfg0.win 1).blk t).view.emb (ix2 k j)) = _
  rw [he]

/-- The bias's one block is the bias. -/
theorem bias_blk_apply (c : Dev nD) (t : Fin cfg0.N) (j : Fin 128) :
    (iblk0 V c 2 t : Vec Ideal S128 .f32) (ix1 j) = (V c main_arg4 : S128.Idx → EReal) (ix1 j) := by
  obtain ⟨-, -, -, -, e0, -⟩ := enc_idx t
  have he : ((cfg0.win 2).blk t).view.emb (ix1 j) = (ix1 j : S128.Idx) := by
    funext a; apply Fin.ext
    match a with
    | ⟨0, _⟩ => show win0_2.index t (0 : Fin 1) * 128 + 1 * j.val = j.val; omega
  show V c main_arg4 (((cfg0.win 2).blk t).view.emb (ix1 j)) = _
  rw [he]

/-- Entry `(p, q)` of point `t`'s output block sits at row `4000·t + p`, column `q` of the output. -/
theorem out_blk_emb (t : Fin cfg0.N) (p : Fin 4000) (q : Fin 128) (R : Fin 300000) (hR : R.val = 4000 * t.val + p.val) :
    ((cfg0.win 3).blk t).view.emb (ix2 p q) = (ix2 R q : S300000x128.Idx) := by
  obtain ⟨-, -, -, -, -, e0, e1⟩ := enc_idx t
  funext a; apply Fin.ext
  match a with
  | ⟨0, _⟩ => show win0_3.index t (0 : Fin 2) * 4000 + 1 * p.val = R.val; omega
  | ⟨1, _⟩ => show win0_3.index t (1 : Fin 2) * 128 + 1 * q.val = q.val; omega

/-! ## What a point writes back -/

/-- Point `t` writes back block `t` of the encoder of the arrays the call found. -/
theorem enc_flushed (c : Dev nD) (t : Fin cfg0.N) :
    (dat0 (F := Ideal) V c).flushed 3 t
      = ((cfg0.win 3).blk t).view.read (Elt Ideal) (encG (F := Ideal) (V c main_arg0) (V c main_arg3) (V c main_arg4)) := by
  show (cfg0.win 3).cut (grid0.coords t) ((dat0 V c).after 3 t) = _
  rw [after0_3]
  unfold out0_3
  rw [View.canon_unit_zero zeros2]
  simp only [View.ld_unit_zero (S := S4000x6) zeros2, View.ld_unit_zero (S := S6x128) zeros2, View.ld_unit_zero (S := S128) zeros1]
  refine funext fun (j : S4000x128.Idx) => ?_
  obtain ⟨p, q, rfl⟩ : ∃ (p : Fin 4000) (q : Fin 128), j = ix2 p q := ⟨j 0, j 1, eq_ix2 j⟩
  have ht : t.val < 75 := lt_of_lt_of_eq t.isLt N_0
  show k0_pay1 (F := Ideal) (iblk0 V c 0 t) (iblk0 V c 1 t) (iblk0 V c 2 t) (ix2 p q)
    = encG (F := Ideal) (V c main_arg0) (V c main_arg3) (V c main_arg4) (((cfg0.win 3).blk t).view.emb (ix2 p q))
  rw [out_blk_emb t p q ⟨4000 * t.val + p.val, by omega⟩ rfl]
  refine (pay_enc_apply (iblk0 V c 0 t) (iblk0 V c 1 t) (iblk0 V c 2 t) p q).trans ?_
  refine ((encG_apply (V c main_arg0) (V c main_arg3) (V c main_arg4) ⟨4000 * t.val + p.val, by omega⟩ q).trans ?_).symm
  congr 1
  · exact funext fun k => (feat_blk_apply V c t p k ⟨4000 * t.val + p.val, by omega⟩ rfl).symm
  · exact funext fun k => funext fun j => (mat_blk_apply V c t k j).symm
  · exact funext fun j => (bias_blk_apply V c t j).symm

/-! ## The blocks cover the output -/

/-- An index of the output is in point `t`'s block iff each coordinate is in the block's range on its axis. -/
theorem out_mem_blk (t : Fin cfg0.N) (i : S300000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v4).slice (win0_3.rect t)).set ↔ _
  rw [View.set_slice_whole, Rect.mem_set_unit]
  exact Iff.rfl

/-- Row `r` of the output lies in the block of point `r / 4000`, which is written back. -/
theorem enc_cover (i : S300000x128.Idx) :
    ∃ t : Fin cfg0.N, (cfg0.win 3).flush t = true ∧ i ∈ ((cfg0.win 3).blk t).view.set := by
  have hi0 : (i 0).val < 300000 := (i 0).isLt
  have hi1 : (i 1).val < 128 := (i 1).isLt
  obtain ⟨t, ht⟩ : ∃ t : Fin cfg0.N, t.val = (i 0).val / 4000 :=
    ⟨⟨(i 0).val / 4000, lt_of_lt_of_eq (by omega : (i 0).val / 4000 < 75) N_0.symm⟩, rfl⟩
  obtain ⟨-, -, -, -, -, e0, e1⟩ := enc_idx t
  refine ⟨t, flush0_3 t, ?_⟩
  rw [out_mem_blk]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-! ## The array after the call -/

/-- After the encoder call its output array is the encoder of the arrays it read. -/
theorem enc_final (c : Dev nD) :
    (dat0 (F := Ideal) V c).arrAt 3 cfg0.N = encG (F := Ideal) (V c main_arg0) (V c main_arg3) (V c main_arg4) :=
  (dat0 (F := Ideal) V c).arrAt_eq_of_cover 3 (encG (F := Ideal) (V c main_arg0) (V c main_arg3) (V c main_arg4))
    (fun t _ => enc_flushed V c t) enc_cover

end Cert.Gin.K.Enc

end
-- ==== Proof.KCarry.lean ====
/-
  The kernel program between its calls. The buffer contents at each boundary of the program are a fold from the
  launch memory through host stretches and calls. Nine buffers are read by stages far from where they are written
  (the edge sources and targets, the graph ids, the stacked layer weights, the output weights): no stage in between
  writes them, so at every boundary they hold what they held after the first host stretch, which cuts the two rows
  out of the edge list and touches no argument. The first call then leaves the encoder of the launched arguments.
-/
import proofs.«414283_j78855599555022_1_alg».proof.Proof.Gen.KernelIdeal.Frame
import proofs.«414283_j78855599555022_1_alg».proof.Proof.HostG
import proofs.«414283_j78855599555022_1_alg».proof.Proof.RegionEnc
import Idealize.ShloMosaic.Lib.StableHlo.Run

set_option maxRecDepth 16384

noncomputable section

namespace Cert.Gin.K

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- A value carried to another type along an equation and back is the value. -/
theorem cast_round {α β : Sort _} (h₁ : α = β) (h₂ : β = α) (a : α) : cast h₂ (cast h₁ a) = a := by
  subst h₁; rfl

/-- An argument array as launched. -/
abbrev A (c : Dev nD) (b : Ref sig .tc) : Buf (Elt Ideal) ((c : Thread nD τ).loc b) := m ((c : Thread nD τ).loc b)

/-- The buffers later stages read long after they were written. -/
def carriedRefs : List (Ref sig .tc) :=
  [main_v1, main_v3, main_arg2, main_arg5, main_arg6, main_arg7, main_arg8, main_arg9, main_arg10]

/-- Two boundaries' contents agree on the carried buffers. -/
def Agree (X Y : Valuation τ sig (Elt Ideal)) : Prop :=
  ∀ b ∈ carriedRefs, X (Proc.devRef .tc b) = Y (Proc.devRef .tc b)

theorem Agree.trans {X Y Z : Valuation τ sig (Elt Ideal)} (h : Agree X Y) (h' : Agree Y Z) : Agree X Z :=
  fun b hb => (h b hb).trans (h' b hb)

/-- The carried buffers at their values: row 0 and row 1 of the edge list, and the arguments as launched. -/
structure Known (c : Dev nD) (X : Valuation τ sig (Elt Ideal)) : Prop where
  src : X (Proc.devRef .tc main_v1) = srcOf (F := Ideal) (A m c main_arg1)
  dst : X (Proc.devRef .tc main_v3) = dstOf (F := Ideal) (A m c main_arg1)
  a2 : X (Proc.devRef .tc main_arg2) = A m c main_arg2
  a5 : X (Proc.devRef .tc main_arg5) = A m c main_arg5
  a6 : X (Proc.devRef .tc main_arg6) = A m c main_arg6
  a7 : X (Proc.devRef .tc main_arg7) = A m c main_arg7
  a8 : X (Proc.devRef .tc main_arg8) = A m c main_arg8
  a9 : X (Proc.devRef .tc main_arg9) = A m c main_arg9
  a10 : X (Proc.devRef .tc main_arg10) = A m c main_arg10

theorem Known.of_agree {c : Dev nD} {X Y : Valuation τ sig (Elt Ideal)} (h : Agree X Y) (k : Known m c Y) : Known m c X where
  src := (h main_v1 (by decide)).trans k.src
  dst := (h main_v3 (by decide)).trans k.dst
  a2 := (h main_arg2 (by decide)).trans k.a2
  a5 := (h main_arg5 (by decide)).trans k.a5
  a6 := (h main_arg6 (by decide)).trans k.a6
  a7 := (h main_arg7 (by decide)).trans k.a7
  a8 := (h main_arg8 (by decide)).trans k.a8
  a9 := (h main_arg9 (by decide)).trans k.a9
  a10 := (h main_arg10 (by decide)).trans k.a10

/-! ## The first stretch and the encoder -/

/-- After the first host stretch: the two rows of the edge list cut out, the arguments untouched. -/
theorem known1 (c : Dev nD) : Known m c (W1 (F := Ideal) m ρ c) where
  src := by show StableHlo.after hostOps0 (W0 m ρ c) (Proc.devRef .tc main_v1) = _; after_results_simp <;> rfl
  dst := by show StableHlo.after hostOps0 (W0 m ρ c) (Proc.devRef .tc main_v3) = _; after_results_simp <;> rfl
  a2 := by show StableHlo.after hostOps0 (W0 m ρ c) (Proc.devRef .tc main_arg2) = _; after_results_simp <;> rfl
  a5 := by show StableHlo.after hostOps0 (W0 m ρ c) (Proc.devRef .tc main_arg5) = _; after_results_simp <;> rfl
  a6 := by show StableHlo.after hostOps0 (W0 m ρ c) (Proc.devRef .tc main_arg6) = _; after_results_simp <;> rfl
  a7 := by show StableHlo.after hostOps0 (W0 m ρ c) (Proc.devRef .tc main_arg7) = _; after_results_simp <;> rfl
  a8 := by show StableHlo.after hostOps0 (W0 m ρ c) (Proc.devRef .tc main_arg8) = _; after_results_simp <;> rfl
  a9 := by show StableHlo.after hostOps0 (W0 m ρ c) (Proc.devRef .tc main_arg9) = _; after_results_simp <;> rfl
  a10 := by show StableHlo.after hostOps0 (W0 m ρ c) (Proc.devRef .tc main_arg10) = _; after_results_simp <;> rfl

/-- The encoder call writes none of the carried buffers. -/
theorem agree_exit0 (c : Dev nD) : Agree (W2 (F := Ideal) m ρ c) (W1 m ρ c) :=
  fun b hb => W2_of_ne m ρ c b ((by decide : ∀ b ∈ carriedRefs, ∀ w, Pipeline.arrRef spec0 w ≠ b) b hb)

theorem known2 (c : Dev nD) : Known m c (W2 (F := Ideal) m ρ c) := (known1 m ρ c).of_agree m (agree_exit0 m ρ c)

/-- The encoder call leaves the encoder of the launched features, matrix and bias. -/
theorem encoded (c : Dev nD) :
    W2 (F := Ideal) m ρ c (Proc.devRef .tc main_v4) = encG (F := Ideal) (A m c main_arg0) (A m c main_arg3) (A m c main_arg4) := by
  have e0 : V1 (F := Ideal) m ρ c main_arg0 = A m c main_arg0 := by
    show StableHlo.after hostOps0 (W0 m ρ c) (Proc.devRef .tc main_arg0) = _; after_results_simp <;> rfl
  have e3 : V1 (F := Ideal) m ρ c main_arg3 = A m c main_arg3 := by
    show StableHlo.after hostOps0 (W0 m ρ c) (Proc.devRef .tc main_arg3) = _; after_results_simp <;> rfl
  have e4 : V1 (F := Ideal) m ρ c main_arg4 = A m c main_arg4 := by
    show StableHlo.after hostOps0 (W0 m ρ c) (Proc.devRef .tc main_arg4) = _; after_results_simp <;> rfl
  refine (W2_arr m ρ c 3).trans ((Enc.enc_final (V1 m ρ) c).trans ?_)
  rw [e0, e3, e4]

end Cert.Gin.K

end
-- ==== Proof.KHost.lean ====
/-
  The kernel program's row gather, `jnp.take` in its default mode: the source indices are wrapped as the reference
  wraps them, the rows gathered, and a row whose wrapped index falls outside 0 … 299999 is replaced by a fill row.
  Where every source index lies in −300000 … 299999 no row is replaced, and the map is the reference's gather.
-/
import proofs.«414283_j78855599555022_1_alg».proof.Proof.Gen.KernelIdeal
import proofs.«414283_j78855599555022_1_alg».proof.Proof.HostG
import Idealize.ShloMosaic.Lib.StableHlo.Predicate
import Idealize.ShloMosaic.Lib.ReduceAll

noncomputable section

namespace Cert.Gin.K

open Cert.KernelIdeal Cert.KernelIdeal.Gen Idealize.ShloMosaic Idealize.ShloMosaic.ValueIdx

variable {F : FTy → Type} [FloatOps F]

/-- The wrapped source indices as a one-column table. -/
def idxK (s : Arr F S600000 .i32) : Arr F S600000x1 .i32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 300000#32))) s)

/-- Per edge: is the wrapped source index inside 0 … 299999? -/
def inRangeK (s : Arr F S600000 .i32) : Arr F S600000 .i1 :=
  Host.reduce IntOp.andi
    (andi (cmpi .sge (idxK s) (broadcastInDim S600000x1 ![] bcast_S_S600000x1 (constantI S_ 32 0#32)))
      (cmpi .sle (idxK s) (broadcastInDim S600000x1 ![0, 1] bcast_S1x1_S600000x1_0_1
        (broadcastInDim S1x1 ![1] bcast_S1_S1x1_1 (constantI S1 32 299999#32)))))
    (constantI S_ 1 1#1) reducesTo_S600000x1_S600000_d1 h_S_

/-- The kernel program's gather of the rows of `h` at the sources `s`, out-of-range rows filled. -/
def takeK (s : Arr F S600000 .i32) (h : Arr F S300000x128 .f32) : Arr F S600000x128 .f32 :=
  select (broadcastInDim S600000x128 ![0] bcast_S600000_S600000x128_0 (inRangeK s))
    (Host.gather gather_S300000x128_S600000x1_S600000x128_1_0_n_n_0_1_1128 h (idxK s))
    (broadcastInDim S600000x128 ![] bcast_S_S600000x128 (constant S_ .f32 0x7FC00000#32))

/-- A left fold by `and` that starts at 1 and meets only 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]; exact foldl_andi_one f hf l

/-- One wrapped index as a word: `x + 300000` where `x` is negative, else `x`. -/
def wrapW (x : BitVec 32) : BitVec 32 := Scalar.select (IntOp.cmpi .slt x 0#32) (IntOp.addi x 300000#32) x

/-- A word in −300000 … 299999 wraps into 0 … 299999: a negative one plus 300000 does not leave the signed range. -/
theorem wrapW_toInt (x : BitVec 32) (hx : (-300000 : Int) ≤ x.toInt ∧ x.toInt < 300000) :
    0 ≤ (wrapW x).toInt ∧ (wrapW x).toInt ≤ 299999 := by
  have h0 : (0#32 : BitVec 32).toInt = 0 := by decide
  by_cases hneg : x.toInt < 0
  · have hc : IntOp.cmpi .slt x 0#32 = 1#1 := by
      show BitVec.ofBool (decide (x.toInt < (0#32 : BitVec 32).toInt)) = 1#1
      rw [h0, decide_eq_true hneg]; rfl
    have hw : wrapW x = x + 300000#32 := by
      unfold wrapW; rw [hc]; exact if_pos rfl
    rw [hw, BitVec.toInt_add]
    have h3 : (300000#32 : BitVec 32).toInt = 300000 := by decide
    rw [h3]
    have hb : (x.toInt + 300000).bmod (2 ^ 32) = x.toInt + 300000 := by
      apply Int.bmod_eq_of_le <;> omega
    rw [hb]; omega
  · have hc : IntOp.cmpi .slt x 0#32 = 0#1 := by
      show BitVec.ofBool (decide (x.toInt < (0#32 : BitVec 32).toInt)) = 0#1
      rw [h0, decide_eq_false hneg]; rfl
    have hw : wrapW x = x := by
      unfold wrapW; rw [hc]; exact if_neg (by decide)
    rw [hw]; omega

/-- The wrapped word is at least 0 as a signed word … -/
theorem wrapW_sge (x : BitVec 32) (hx : (-300000 : Int) ≤ x.toInt ∧ x.toInt < 300000) :
    IntOp.cmpi .sge (wrapW x) 0#32 = 1#1 := by
  have h0 : (0#32 : BitVec 32).toInt = 0 := by decide
  show BitVec.ofBool (decide ((0#32 : BitVec 32).toInt ≤ (wrapW x).toInt)) = 1#1
  rw [h0, decide_eq_true (wrapW_toInt x hx).1]; rfl

/-- … and at most 299999. -/
theorem wrapW_sle (x : BitVec 32) (hx : (-300000 : Int) ≤ x.toInt ∧ x.toInt < 300000) :
    IntOp.cmpi .sle (wrapW x) 299999#32 = 1#1 := by
  have h0 : (299999#32 : BitVec 32).toInt = 299999 := by decide
  show BitVec.ofBool (decide ((wrapW x).toInt ≤ (299999#32 : BitVec 32).toInt)) = 1#1
  rw [h0, decide_eq_true (wrapW_toInt x hx).2]; rfl

/-- The index column at row `e` (its one column `q`) is the wrapped source `e`. -/
theorem idxK_apply (s : Arr F S600000 .i32) (e : Fin 600000) (q : Fin 1) :
    idxK (F := F) s (ix2 e q) = wrapW (s (ix1 e)) := by
  unfold idxK
  exact broadcastInDim_apply _ _ _ (ix2 e q) (ix1 e) (fun a => match a with | ⟨0, _⟩ => rfl)

/-- Every entry of the mask the reduction runs over is 1. -/
theorem mask_one (s : Arr F S600000 .i32)
    (hs : ∀ e : Fin 600000, (-300000 : Int) ≤ (s (ix1 e)).toInt ∧ (s (ix1 e)).toInt < 300000)
    (i : S600000x1.Idx) :
    andi (cmpi .sge (idxK (F := F) s) (broadcastInDim S600000x1 ![] bcast_S_S600000x1 (constantI S_ 32 0#32)))
      (cmpi .sle (idxK (F := F) s) (broadcastInDim S600000x1 ![0, 1] bcast_S1x1_S600000x1_0_1
        (broadcastInDim S1x1 ![1] bcast_S1_S1x1_1 (constantI S1 32 299999#32)))) i = 1#1 := by
  obtain ⟨e, q, rfl⟩ : ∃ (e : Fin 600000) (q : Fin 1), i = ix2 e q := ⟨i 0, i 1, eq_ix2 i⟩
  show IntOp.andi (IntOp.cmpi .sge (idxK (F := F) s (ix2 e q)) 0#32)
    (IntOp.cmpi .sle (idxK (F := F) s (ix2 e q)) 299999#32) = 1#1
  rw [idxK_apply, wrapW_sge _ (hs e), wrapW_sle _ (hs e)]; decide

/-- So every edge's in-range bit is 1. -/
theorem inRangeK_one (s : Arr F S600000 .i32)
    (hs : ∀ e : Fin 600000, (-300000 : Int) ≤ (s (ix1 e)).toInt ∧ (s (ix1 e)).toInt < 300000)
    (j : S600000.Idx) : inRangeK (F := F) s j = 1#1 := by
  unfold inRangeK
  rw [Host.reduce_eq_foldl]
  exact foldl_andi_one _ (mask_one s hs) _

/-- With every source index in −300000 … 299999 the kernel program's gather is the reference's. -/
theorem takeK_eq_gatherG (s : Arr F S600000 .i32)
    (hs : ∀ e : Fin 600000, (-300000 : Int) ≤ (s (ix1 e)).toInt ∧ (s (ix1 e)).toInt < 300000) :
    takeK (F := F) s = gatherG (F := F) s := by
  funext h; funext j
  obtain ⟨e, q, rfl⟩ : ∃ (e : Fin 600000) (q : Fin 128), j = ix2 e q := ⟨j 0, j 1, eq_ix2 j⟩
  unfold takeK
  rw [select_apply]
  have hm : broadcastInDim S600000x128 ![0] bcast_S600000_S600000x128_0 (inRangeK (F := F) s) (ix2 e q) = 1#1 :=
    (broadcastInDim_apply _ _ _ (ix2 e q) (ix1 e) (fun a => match a with | ⟨0, _⟩ => rfl)).trans (inRangeK_one s hs _)
  rw [hm, select_one]
  rfl

end Cert.Gin.K

end
-- ==== Proof.RegionMlp1.lean ====
/-
  Layer 1's dense call: 75 grid points, point `t` writing rows 4000·t … 4000·t + 3999 of the new features from the same rows of the features and of the aggregate. After the call the whole array is the layer map of HostG.lean of the arrays the call found.
-/
import proofs.«414283_j78855599555022_1_alg».proof.Proof.Gen.KernelIdeal.Frame
import proofs.«414283_j78855599555022_1_alg».proof.Proof.HostGApply
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gin.K.Mlp1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The matrix product of the body at an entry -/

theorem mlp1_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mlp1_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem mlp1_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem mlp1_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's matrix product into a zero accumulator, at row `p` and column `q`: the inner product of row `p` of the
    left operand with column `q` of the right one. -/
theorem mlp1_dot_apply (a : FVec Ideal S4000x128 .bf16) (w : FVec Ideal S128x128 .bf16) (p : Fin 4000) (q : Fin 128) :
    matmul dot_S4000x128_S128x128_S4000x128_1_0_0_1_n_n none a w (constant (F := Ideal) S4000x128 .f32 0x00000000#32) (ix2 p q)
      = ∑ k : Fin 128, a (ix2 p k) * w (ix2 k q) := by
  refine (Ideal.matmul_constant_zero_apply dot_S4000x128_S128x128_S4000x128_1_0_0_1_n_n none a w (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact mlp1_lhs_0 _ _
    | ⟨1, _⟩ => exact (mlp1_lhs_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (mlp1_rhs_0 _ _).trans hk
    | ⟨1, _⟩ => exact mlp1_rhs_1 _ _)
  rw [el, er]

/-- One affine stage of the body followed by the maximum with zero, at row `p` and column `q`. -/
theorem mlp1_stage_apply (a : FVec Ideal S4000x128 .bf16) (w : FVec Ideal S128x128 .bf16) (b : Vec Ideal S128 .f32) (p : Fin 4000) (q : Fin 128) :
    maximumf (addf (matmul dot_S4000x128_S128x128_S4000x128_1_0_0_1_n_n none a w (constant (F := Ideal) S4000x128 .f32 0x00000000#32))
        (broadcastTo S4000x128 (shapeCast S1x128 b shapeCasts_S128_S1x128) broadcasts_S1x128_S4000x128))
      (broadcast S4000x128 (Scalar.ofBits (F := Ideal) .f32 0x00000000#32)) (ix2 p q)
      = max ((∑ k : Fin 128, a (ix2 p k) * w (ix2 k q)) + b (ix1 q)) zeroW := by
  show max (matmul dot_S4000x128_S128x128_S4000x128_1_0_0_1_n_n none a w (constant (F := Ideal) S4000x128 .f32 0x00000000#32) (ix2 p q)
      + broadcastTo S4000x128 (shapeCast S1x128 b shapeCasts_S128_S1x128) broadcasts_S1x128_S4000x128 (ix2 p q)) zeroW = _
  rw [mlp1_dot_apply, broadcastTo_1b_ab_apply, shapeCast_a_1a_apply]

/-- The body's stored value at row `p`, column `q` of its block: the layer's row function of row `p` of the two
    4000-row blocks, of the two matrices and of the two biases. -/
theorem mlp1_payload (v0 v2 : Vec Ideal S4000x128 .f32) (v6 : Vec Ideal S128x128 .f32) (v10 : Vec Ideal S128 .f32)
    (v18 : Vec Ideal S128x128 .f32) (v22 : Vec Ideal S128 .f32) (p : Fin 4000) (q : Fin 128) :
    k1_pay1 (F := Ideal) v0 v2 v6 v10 v18 v22 (ix2 p q)
      = mlpRow (fun k => v0 (ix2 p k)) (fun k => v2 (ix2 p k)) (fun k j => v6 (ix2 k j)) (fun j => v10 (ix1 j))
          (fun k j => v18 (ix2 k j)) (fun j => v22 (ix1 j)) q := by
  unfold k1_pay1
  simp only [shapeCast_self]
  refine (mlp1_stage_apply _ _ v22 p q).trans ?_
  show _ = max ((∑ j : Fin 128, hidRow _ _ _ _ j * v18 (ix2 j q)) + v22 (ix1 q)) zeroW
  refine congrArg (fun s => max (s + v22 (ix1 q)) zeroW) (Finset.sum_congr rfl fun j _ => ?_)
  rw [truncf_apply, truncf_apply]
  refine congrArg (· * v18 (ix2 j q)) ?_
  refine (mlp1_stage_apply _ _ v10 p j).trans ?_
  show _ = max ((∑ k : Fin 128, (v0 (ix2 p k) + v2 (ix2 p k)) * v6 (ix2 k j)) + v10 (ix1 j)) zeroW
  refine congrArg (fun s => max (s + v10 (ix1 j)) zeroW) (Finset.sum_congr rfl fun k _ => ?_)
  rw [truncf_apply, truncf_apply, addf_apply]

/-! ## From blocks to the array -/

theorem mlp1_hz2 : (![0, 0] : Fin 2 → Nat) = fun _ => 0 := funext fun a => by fin_cases a <;> rfl
theorem mlp1_hz1 : (![0] : Fin 1 → Nat) = fun _ => 0 := funext fun a => by fin_cases a <;> rfl

/-- The body's stored value at row `p`, column `q` is the layer map at row `R`, column `q`, of arrays whose row `R` the
    two 4000-row blocks hold at row `p` and whose matrices and biases the other four blocks are. -/
theorem mlp1_point (h agg : Arr Ideal S300000x128 .f32) (w1 : Arr Ideal S128x128 .f32) (b1 : Arr Ideal S128 .f32)
    (w2 : Arr Ideal S128x128 .f32) (b2 : Arr Ideal S128 .f32)
    (x0 x1 : Vec Ideal S4000x128 .f32) (x2 : Vec Ideal S128x128 .f32) (x3 : Vec Ideal S128 .f32)
    (x4 : Vec Ideal S128x128 .f32) (x5 : Vec Ideal S128 .f32) (p : Fin 4000) (q : Fin 128) (R : Fin 300000)
    (h0 : ∀ k, x0 (ix2 p k) = h (ix2 R k)) (h1 : ∀ k, x1 (ix2 p k) = agg (ix2 R k))
    (h2 : ∀ k j, x2 (ix2 k j) = w1 (ix2 k j)) (h3 : ∀ j, x3 (ix1 j) = b1 (ix1 j))
    (h4 : ∀ k j, x4 (ix2 k j) = w2 (ix2 k j)) (h5 : ∀ j, x5 (ix1 j) = b2 (ix1 j)) :
    k1_pay1 (F := Ideal) x0 x1 x2 x3 x4 x5 (ix2 p q) = mlpG (F := Ideal) h agg w1 b1 w2 b2 (ix2 R q) := by
  rw [mlp1_payload, mlpG_apply]
  simp only [h0, h1, h2, h3, h4, h5]

/-- The printed index maps, decided over the 75 grid points: the row windows sit at block `t`, the others at block 0. -/
theorem mlp1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p` of point `t`'s block of the features is row `4000·t + p` of the array. -/
theorem mlp1_blk0 (c : Dev nD) (t : Fin cfg1.N) (p : Fin 4000) (k : Fin 128) (R : Fin 300000) (hR : R.val = 4000 * t.val + p.val) :
    iblk1 V c 0 t (ix2 p k) = V c main_v4 (ix2 R k) := by
  show V c main_v4 (((cfg1.win 0).blk t).view.emb (ix2 p k)) = _
  refine congrArg (V c main_v4) (funext fun a => Fin.ext ?_)
  obtain ⟨e0, e1, -⟩ := mlp1_idx t
  match a with
  | ⟨0, _⟩ => show win1_0.index t (0 : Fin 2) * 4000 + 1 * p.val = R.val; omega
  | ⟨1, _⟩ => show win1_0.index t (1 : Fin 2) * 128 + 1 * k.val = k.val; omega

/-- Row `p` of point `t`'s block of the aggregate is row `4000·t + p` of the array. -/
theorem mlp1_blk1 (c : Dev nD) (t : Fin cfg1.N) (p : Fin 4000) (k : Fin 128) (R : Fin 300000) (hR : R.val = 4000 * t.val + p.val) :
    iblk1 V c 1 t (ix2 p k) = V c main_v8 (ix2 R k) := by
  show V c main_v8 (((cfg1.win 1).blk t).view.emb (ix2 p k)) = _
  refine congrArg (V c main_v8) (funext fun a => Fin.ext ?_)
  obtain ⟨-, -, e0, e1, -⟩ := mlp1_idx t
  match a with
  | ⟨0, _⟩ => show win1_1.index t (0 : Fin 2) * 4000 + 1 * p.val = R.val; omega
  | ⟨1, _⟩ => show win1_1.index t (1 : Fin 2) * 128 + 1 * k.val = k.val; omega

/-- The first matrix's one block is the matrix. -/
theorem mlp1_blk2 (c : Dev nD) (t : Fin cfg1.N) (k j : Fin 128) :
    iblk1 V c 2 t (ix2 k j) = V c main_v10 (ix2 k j) := by
  show V c main_v10 (((cfg1.win 2).blk t).view.emb (ix2 k j)) = _
  refine congrArg (V c main_v10) (funext fun a => Fin.ext ?_)
  obtain ⟨-, -, -, -, e0, e1, -⟩ := mlp1_idx t
  match a with
  | ⟨0, _⟩ => show win1_2.index t (0 : Fin 2) * 128 + 1 * k.val = k.val; omega
  | ⟨1, _⟩ => show win1_2.index t (1 : Fin 2) * 128 + 1 * j.val = j.val; omega

/-- The first bias's one block is the bias. -/
theorem mlp1_blk3 (c : Dev nD) (t : Fin cfg1.N) (j : Fin 128) :
    iblk1 V c 3 t (ix1 j) = V c main_v12 (ix1 j) := by
  show V c main_v12 (((cfg1.win 3).blk t).view.emb (ix1 j)) = _
  refine congrArg (V c main_v12) (funext fun a => Fin.ext ?_)
  obtain ⟨-, -, -, -, -, -, e0, -⟩ := mlp1_idx t
  match a with
  | ⟨0, _⟩ => show win1_3.index t (0 : Fin 1) * 128 + 1 * j.val = j.val; omega

/-- The second matrix's one block is the matrix. -/
theorem mlp1_blk4 (c : Dev nD) (t : Fin cfg1.N) (k j : Fin 128) :
    iblk1 V c 4 t (ix2 k j) = V c main_v14 (ix2 k j) := by
  show V c main_v14 (((cfg1.win 4).blk t).view.emb (ix2 k j)) = _
  refine congrArg (V c main_v14) (funext fun a => Fin.ext ?_)
  obtain ⟨-, -, -, -, -, -, -, e0, e1, -⟩ := mlp1_idx t
  match a with
  | ⟨0, _⟩ => show win1_4.index t (0 : Fin 2) * 128 + 1 * k.val = k.val; omega
  | ⟨1, _⟩ => show win1_4.index t (1 : Fin 2) * 128 + 1 * j.val = j.val; omega

/-- The second bias's one block is the bias. -/
theorem mlp1_blk5 (c : Dev nD) (t : Fin cfg1.N) (j : Fin 128) :
    iblk1 V c 5 t (ix1 j) = V c main_v16 (ix1 j) := by
  show V c main_v16 (((cfg1.win 5).blk t).view.emb (ix1 j)) = _
  refine congrArg (V c main_v16) (funext fun a => Fin.ext ?_)
  obtain ⟨-, -, -, -, -, -, -, -, -, e0, -⟩ := mlp1_idx t
  match a with
  | ⟨0, _⟩ => show win1_5.index t (0 : Fin 1) * 128 + 1 * j.val = j.val; omega

/-- Entry `(p, q)` of point `t`'s output block sits at row `4000·t + p`, column `q` of the output array. -/
theorem mlp1_emb6 (t : Fin cfg1.N) (p : Fin 4000) (q : Fin 128) (R : Fin 300000) (hR : R.val = 4000 * t.val + p.val) :
    ((cfg1.win 6).blk t).view.emb (ix2 p q) = ix2 R q := by
  refine funext fun a => Fin.ext ?_
  obtain ⟨-, -, -, -, -, -, -, -, -, -, e0, e1⟩ := mlp1_idx t
  match a with
  | ⟨0, _⟩ => show win1_6.index t (0 : Fin 2) * 4000 + 1 * p.val = R.val; omega
  | ⟨1, _⟩ => show win1_6.index t (1 : Fin 2) * 128 + 1 * q.val = q.val; omega

/-- What point `t` writes back is block `t` of the layer map of the arrays the call found. -/
theorem mlp1_flushed (c : Dev nD) (t : Fin cfg1.N) :
    (dat1 (F := Ideal) V c).flushed 6 t = ((cfg1.win 6).blk t).view.read (Elt Ideal)
      (mlpG (F := Ideal) (V c main_v4) (V c main_v8) (V c main_v10) (V c main_v12) (V c main_v14) (V c main_v16)) := by
  show (cfg1.win 6).cut (grid1.coords t) ((dat1 V c).after 6 t) = _
  rw [after1_6]
  unfold out1_6
  rw [View.canon_unit_zero mlp1_hz2]
  simp only [View.ld_unit_zero (S := S4000x128) mlp1_hz2, View.ld_unit_zero (S := S128x128) mlp1_hz2, View.ld_unit_zero (S := S128) mlp1_hz1]
  funext j
  obtain ⟨p, q, rfl⟩ : ∃ (p : Fin 4000) (q : Fin 128), j = ix2 p q := ⟨j 0, j 1, eq_ix2 j⟩
  have ht : t.val < 75 := lt_of_lt_of_eq t.isLt (show cfg1.N = 75 from N_1)
  have hR : 4000 * t.val + p.val < 300000 := by have := p.isLt; omega
  show k1_pay1 (F := Ideal) (iblk1 V c 0 t) (iblk1 V c 1 t) (iblk1 V c 2 t) (iblk1 V c 3 t) (iblk1 V c 4 t) (iblk1 V c 5 t) (ix2 p q)
      = mlpG (F := Ideal) (V c main_v4) (V c main_v8) (V c main_v10) (V c main_v12) (V c main_v14) (V c main_v16)
          (((cfg1.win 6).blk t).view.emb (ix2 p q))
  rw [mlp1_emb6 t p q ⟨4000 * t.val + p.val, hR⟩ rfl]
  exact mlp1_point _ _ _ _ _ _ _ _ _ _ _ _ p q ⟨4000 * t.val + p.val, hR⟩
    (fun k => mlp1_blk0 V c t p k _ rfl) (fun k => mlp1_blk1 V c t p k _ rfl) (fun k j => mlp1_blk2 V c t k j)
    (fun j => mlp1_blk3 V c t j) (fun k j => mlp1_blk4 V c t k j) (fun j => mlp1_blk5 V c t j)

/-- An index of the output array is in point `t`'s block iff each coordinate is in the block's range on its axis. -/
theorem mlp1_mem_blk (t : Fin cfg1.N) (i : S300000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v17).slice (win1_6.rect t)).set ↔ _
  rw [View.set_slice_whole, Rect.mem_set_unit]
  exact Iff.rfl

/-- Every index of the output array is in the block of the point its row divided by 4000 names. -/
theorem mlp1_cover (i : S300000x128.Idx) :
    ∃ t : Fin cfg1.N, (cfg1.win 6).flush t = true ∧ i ∈ ((cfg1.win 6).blk t).view.set := by
  have hi0 : (i 0).val < 300000 := (i 0).isLt
  have hi1 : (i 1).val < 128 := (i 1).isLt
  have hN : cfg1.N = 75 := N_1
  have hlt : (i 0).val / 4000 < cfg1.N := by rw [hN]; omega
  obtain ⟨-, -, -, -, -, -, -, -, -, -, e0, e1⟩ := mlp1_idx ⟨(i 0).val / 4000, hlt⟩
  refine ⟨⟨(i 0).val / 4000, hlt⟩, flush1_6 _, ?_⟩
  rw [mlp1_mem_blk]
  intro a
  match a with
  | ⟨0, _⟩ =>
    show win1_6.index ⟨(i 0).val / 4000, hlt⟩ (0 : Fin 2) * 4000 ≤ (i 0).val ∧ (i 0).val < win1_6.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, hlt⟩ (1 : Fin 2) * 128 ≤ (i 1).val ∧ (i 1).val < win1_6.index ⟨(i 0).val / 4000, hlt⟩ (1 : Fin 2) * 128 + 128
    rw [e1]; omega

/-- After layer 1's dense call its output array is the layer map of the arrays it read. -/
theorem mlp1_final (c : Dev nD) :
    (dat1 (F := Ideal) V c).arrAt 6 cfg1.N
      = mlpG (F := Ideal) (V c main_v4) (V c main_v8) (V c main_v10) (V c main_v12) (V c main_v14) (V c main_v16) :=
  (dat1 (F := Ideal) V c).arrAt_eq_of_cover 6 _ (fun t _ => mlp1_flushed V c t) (fun i => mlp1_cover i)

end Cert.Gin.K.Mlp1

end
-- ==== Proof.KLayer1.lean ====
/-
  Layer 1 of the kernel program. Two host stretches stand between the previous call and this layer's dense call: the
  first gathers the rows of the features at the edge sources (wrapped, out-of-range rows filled), the second sums them
  into the edge targets and cuts this layer's matrices and biases out of the stacked weights. They write none of the
  carried buffers and neither does the call. So if the previous call left the features `H`, this call leaves the
  layer map of `H` over the kernel program's gather.
-/
import proofs.«414283_j78855599555022_1_alg».proof.Proof.KCarry
import proofs.«414283_j78855599555022_1_alg».proof.Proof.KHost
import proofs.«414283_j78855599555022_1_alg».proof.Proof.RegionMlp1
import Idealize.ShloMosaic.Lib.StableHlo.Run

set_option maxRecDepth 16384

noncomputable section

namespace Cert.Gin.K

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The first stretch, from any contents `X`: the gathered rows are the kernel program's gather of `X`'s features at
    `X`'s sources. -/
theorem gathered1 (X : Valuation τ sig (Elt Ideal)) :
    StableHlo.after hostOps1 X (Proc.devRef .tc main_v5)
      = takeK (F := Ideal) (X (Proc.devRef .tc main_v1)) (X (Proc.devRef .tc main_v4)) := by
  after_results_simp
  simp only [TRef.ofBuf, TRef.toBuf, cast_round]
  simp only [cast_eq]
  rfl

/-- The first stretch writes neither the targets nor the features. -/
theorem gathered1_dst (X : Valuation τ sig (Elt Ideal)) :
    StableHlo.after hostOps1 X (Proc.devRef .tc main_v3) = X (Proc.devRef .tc main_v3) := by
  after_results_simp

/-- The second stretch, from any contents `X`: the aggregate sums `X`'s gathered rows into `X`'s targets. -/
theorem aggregated1 (X : Valuation τ sig (Elt Ideal)) :
    StableHlo.after hostOps1_1 X (Proc.devRef .tc main_v8)
      = aggG (F := Ideal) (X (Proc.devRef .tc main_v3)) (X (Proc.devRef .tc main_v5)) := by
  after_results_simp <;> rfl

/-- Layer 1's two host stretches leave the carried buffers as region 0's exit had them. -/
theorem agree_entry1 (c : Dev nD) : Agree (W4 (F := Ideal) m ρ c) (W2 m ρ c) := by
  intro b hb
  simp only [carriedRefs, List.mem_cons, List.not_mem_nil, or_false] at hb
  rcases hb with rfl | rfl | rfl | rfl | rfl | rfl | rfl | rfl | rfl <;>
    (show StableHlo.after hostOps1_1 (StableHlo.after hostOps1 (W2 m ρ c)) _ = _; after_results_simp)

/-- Region 1 writes none of the carried buffers. -/
theorem agree_exit1 (c : Dev nD) : Agree (W5 (F := Ideal) m ρ c) (W4 m ρ c) :=
  fun b hb => W5_of_ne m ρ c b ((by decide : ∀ b ∈ carriedRefs, ∀ w, Pipeline.arrRef spec1 w ≠ b) b hb)

/-- LAYER 1. If region 0 left the features `H` and the carried buffers at their known values, region 1 leaves the
    layer map of `H`: its aggregate is the rows the kernel program's gather takes at the sources, summed into the targets. -/
theorem layer1 (c : Dev nD) (H : Arr Ideal Cert.ReferenceIdeal.S300000x128 .f32)
    (hH : W2 (F := Ideal) m ρ c (Proc.devRef .tc main_v4) = H) (hk : Known m c (W2 m ρ c)) :
    W5 (F := Ideal) m ρ c (Proc.devRef .tc main_v17)
      = layerG (F := Ideal) (takeK (srcOf (A m c main_arg1))) (dstOf (A m c main_arg1)) H
          (mat0 (A m c main_arg5)) (vec0 (A m c main_arg6)) (mat0 (A m c main_arg7)) (vec0 (A m c main_arg8)) := by
  have e0 : V4 (F := Ideal) m ρ c main_v4 = H := by
    show StableHlo.after hostOps1_1 (StableHlo.after hostOps1 (W2 m ρ c)) (Proc.devRef .tc main_v4) = _
    after_results_simp; exact hH
  have e1 : V4 (F := Ideal) m ρ c main_v8 = aggG (F := Ideal) (dstOf (A m c main_arg1)) (takeK (srcOf (A m c main_arg1)) H) := by
    refine (aggregated1 (StableHlo.after hostOps1 (W2 m ρ c))).trans ?_
    rw [gathered1_dst, gathered1, hk.dst, hk.src, hH]
  have e2 : V4 (F := Ideal) m ρ c main_v10 = mat0 (F := Ideal) (A m c main_arg5) := by
    show StableHlo.after hostOps1_1 (StableHlo.after hostOps1 (W2 m ρ c)) (Proc.devRef .tc main_v10) = _
    after_results_simp; rw [hk.a5]; rfl
  have e3 : V4 (F := Ideal) m ρ c main_v12 = vec0 (F := Ideal) (A m c main_arg6) := by
    show StableHlo.after hostOps1_1 (StableHlo.after hostOps1 (W2 m ρ c)) (Proc.devRef .tc main_v12) = _
    after_results_simp; rw [hk.a6]; rfl
  have e4 : V4 (F := Ideal) m ρ c main_v14 = mat0 (F := Ideal) (A m c main_arg7) := by
    show StableHlo.after hostOps1_1 (StableHlo.after hostOps1 (W2 m ρ c)) (Proc.devRef .tc main_v14) = _
    after_results_simp; rw [hk.a7]; rfl
  have e5 : V4 (F := Ideal) m ρ c main_v16 = vec0 (F := Ideal) (A m c main_arg8) := by
    show StableHlo.after hostOps1_1 (StableHlo.after hostOps1 (W2 m ρ c)) (Proc.devRef .tc main_v16) = _
    after_results_simp; rw [hk.a8]; rfl
  refine (W5_arr m ρ c 6).trans ((Mlp1.mlp1_final (V4 m ρ) c).trans ?_)
  rw [e0, e1, e2, e3, e4, e5]
  rfl

end Cert.Gin.K

end
-- ==== Proof.RegionMlp2.lean ====
/-
  Layer 2's dense call: 75 grid points, point `t` writing rows 4000·t … 4000·t + 3999 of the new features from the same rows of the features and of the aggregate. After the call the whole array is the layer map of HostG.lean of the arrays the call found.
-/
import proofs.«414283_j78855599555022_1_alg».proof.Proof.Gen.KernelIdeal.Frame
import proofs.«414283_j78855599555022_1_alg».proof.Proof.HostGApply
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gin.K.Mlp2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The matrix product of the body at an entry -/

theorem mlp2_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mlp2_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem mlp2_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem mlp2_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's matrix product into a zero accumulator, at row `p` and column `q`: the inner product of row `p` of the
    left operand with column `q` of the right one. -/
theorem mlp2_dot_apply (a : FVec Ideal S4000x128 .bf16) (w : FVec Ideal S128x128 .bf16) (p : Fin 4000) (q : Fin 128) :
    matmul dot_S4000x128_S128x128_S4000x128_1_0_0_1_n_n none a w (constant (F := Ideal) S4000x128 .f32 0x00000000#32) (ix2 p q)
      = ∑ k : Fin 128, a (ix2 p k) * w (ix2 k q) := by
  refine (Ideal.matmul_constant_zero_apply dot_S4000x128_S128x128_S4000x128_1_0_0_1_n_n none a w (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact mlp2_lhs_0 _ _
    | ⟨1, _⟩ => exact (mlp2_lhs_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (mlp2_rhs_0 _ _).trans hk
    | ⟨1, _⟩ => exact mlp2_rhs_1 _ _)
  rw [el, er]

/-- One affine stage of the body followed by the maximum with zero, at row `p` and column `q`. -/
theorem mlp2_stage_apply (a : FVec Ideal S4000x128 .bf16) (w : FVec Ideal S128x128 .bf16) (b : Vec Ideal S128 .f32) (p : Fin 4000) (q : Fin 128) :
    maximumf (addf (matmul dot_S4000x128_S128x128_S4000x128_1_0_0_1_n_n none a w (constant (F := Ideal) S4000x128 .f32 0x00000000#32))
        (broadcastTo S4000x128 (shapeCast S1x128 b shapeCasts_S128_S1x128) broadcasts_S1x128_S4000x128))
      (broadcast S4000x128 (Scalar.ofBits (F := Ideal) .f32 0x00000000#32)) (ix2 p q)
      = max ((∑ k : Fin 128, a (ix2 p k) * w (ix2 k q)) + b (ix1 q)) zeroW := by
  show max (matmul dot_S4000x128_S128x128_S4000x128_1_0_0_1_n_n none a w (constant (F := Ideal) S4000x128 .f32 0x00000000#32) (ix2 p q)
      + broadcastTo S4000x128 (shapeCast S1x128 b shapeCasts_S128_S1x128) broadcasts_S1x128_S4000x128 (ix2 p q)) zeroW = _
  rw [mlp2_dot_apply, broadcastTo_1b_ab_apply, shapeCast_a_1a_apply]

/-- The body's stored value at row `p`, column `q` of its block: the layer's row function of row `p` of the two
    4000-row blocks, of the two matrices and of the two biases. -/
theorem mlp2_payload (v0 v2 : Vec Ideal S4000x128 .f32) (v6 : Vec Ideal S128x128 .f32) (v10 : Vec Ideal S128 .f32)
    (v18 : Vec Ideal S128x128 .f32) (v22 : Vec Ideal S128 .f32) (p : Fin 4000) (q : Fin 128) :
    k2_pay1 (F := Ideal) v0 v2 v6 v10 v18 v22 (ix2 p q)
      = mlpRow (fun k => v0 (ix2 p k)) (fun k => v2 (ix2 p k)) (fun k j => v6 (ix2 k j)) (fun j => v10 (ix1 j))
          (fun k j => v18 (ix2 k j)) (fun j => v22 (ix1 j)) q := by
  unfold k2_pay1
  simp only [shapeCast_self]
  refine (mlp2_stage_apply _ _ v22 p q).trans ?_
  show _ = max ((∑ j : Fin 128, hidRow _ _ _ _ j * v18 (ix2 j q)) + v22 (ix1 q)) zeroW
  refine congrArg (fun s => max (s + v22 (ix1 q)) zeroW) (Finset.sum_congr rfl fun j _ => ?_)
  rw [truncf_apply, truncf_apply]
  refine congrArg (· * v18 (ix2 j q)) ?_
  refine (mlp2_stage_apply _ _ v10 p j).trans ?_
  show _ = max ((∑ k : Fin 128, (v0 (ix2 p k) + v2 (ix2 p k)) * v6 (ix2 k j)) + v10 (ix1 j)) zeroW
  refine congrArg (fun s => max (s + v10 (ix1 j)) zeroW) (Finset.sum_congr rfl fun k _ => ?_)
  rw [truncf_apply, truncf_apply, addf_apply]

/-! ## From blocks to the array -/

theorem mlp2_hz2 : (![0, 0] : Fin 2 → Nat) = fun _ => 0 := funext fun a => by fin_cases a <;> rfl
theorem mlp2_hz1 : (![0] : Fin 1 → Nat) = fun _ => 0 := funext fun a => by fin_cases a <;> rfl

/-- The body's stored value at row `p`, column `q` is the layer map at row `R`, column `q`, of arrays whose row `R` the
    two 4000-row blocks hold at row `p` and whose matrices and biases the other four blocks are. -/
theorem mlp2_point (h agg : Arr Ideal S300000x128 .f32) (w1 : Arr Ideal S128x128 .f32) (b1 : Arr Ideal S128 .f32)
    (w2 : Arr Ideal S128x128 .f32) (b2 : Arr Ideal S128 .f32)
    (x0 x1 : Vec Ideal S4000x128 .f32) (x2 : Vec Ideal S128x128 .f32) (x3 : Vec Ideal S128 .f32)
    (x4 : Vec Ideal S128x128 .f32) (x5 : Vec Ideal S128 .f32) (p : Fin 4000) (q : Fin 128) (R : Fin 300000)
    (h0 : ∀ k, x0 (ix2 p k) = h (ix2 R k)) (h1 : ∀ k, x1 (ix2 p k) = agg (ix2 R k))
    (h2 : ∀ k j, x2 (ix2 k j) = w1 (ix2 k j)) (h3 : ∀ j, x3 (ix1 j) = b1 (ix1 j))
    (h4 : ∀ k j, x4 (ix2 k j) = w2 (ix2 k j)) (h5 : ∀ j, x5 (ix1 j) = b2 (ix1 j)) :
    k2_pay1 (F := Ideal) x0 x1 x2 x3 x4 x5 (ix2 p q) = mlpG (F := Ideal) h agg w1 b1 w2 b2 (ix2 R q) := by
  rw [mlp2_payload, mlpG_apply]
  simp only [h0, h1, h2, h3, h4, h5]

/-- The printed index maps, decided over the 75 grid points: the row windows sit at block `t`, the others at block 0. -/
theorem mlp2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row `p` of point `t`'s block of the features is row `4000·t + p` of the array. -/
theorem mlp2_blk0 (c : Dev nD) (t : Fin cfg2.N) (p : Fin 4000) (k : Fin 128) (R : Fin 300000) (hR : R.val = 4000 * t.val + p.val) :
    iblk2 V c 0 t (ix2 p k) = V c main_v17 (ix2 R k) := by
  show V c main_v17 (((cfg2.win 0).blk t).view.emb (ix2 p k)) = _
  refine congrArg (V c main_v17) (funext fun a => Fin.ext ?_)
  obtain ⟨e0, e1, -⟩ := mlp2_idx t
  match a with
  | ⟨0, _⟩ => show win2_0.index t (0 : Fin 2) * 4000 + 1 * p.val = R.val; omega
  | ⟨1, _⟩ => show win2_0.index t (1 : Fin 2) * 128 + 1 * k.val = k.val; omega

/-- Row `p` of point `t`'s block of the aggregate is row `4000·t + p` of the array. -/
theorem mlp2_blk1 (c : Dev nD) (t : Fin cfg2.N) (p : Fin 4000) (k : Fin 128) (R : Fin 300000) (hR : R.val = 4000 * t.val + p.val) :
    iblk2 V c 1 t (ix2 p k) = V c main_v21 (ix2 R k) := by
  show V c main_v21 (((cfg2.win 1).blk t).view.emb (ix2 p k)) = _
  refine congrArg (V c main_v21) (funext fun a => Fin.ext ?_)
  obtain ⟨-, -, e0, e1, -⟩ := mlp2_idx t
  match a with
  | ⟨0, _⟩ => show win2_1.index t (0 : Fin 2) * 4000 + 1 * p.val = R.val; omega
  | ⟨1, _⟩ => show win2_1.index t (1 : Fin 2) * 128 + 1 * k.val = k.val; omega

/-- The first matrix's one block is the matrix. -/
theorem mlp2_blk2 (c : Dev nD) (t : Fin cfg2.N) (k j : Fin 128) :
    iblk2 V c 2 t (ix2 k j) = V c main_v23 (ix2 k j) := by
  show V c main_v23 (((cfg2.win 2).blk t).view.emb (ix2 k j)) = _
  refine congrArg (V c main_v23) (funext fun a => Fin.ext ?_)
  obtain ⟨-, -, -, -, e0, e1, -⟩ := mlp2_idx t
  match a with
  | ⟨0, _⟩ => show win2_2.index t (0 : Fin 2) * 128 + 1 * k.val = k.val; omega
  | ⟨1, _⟩ => show win2_2.index t (1 : Fin 2) * 128 + 1 * j.val = j.val; omega

/-- The first bias's one block is the bias. -/
theorem mlp2_blk3 (c : Dev nD) (t : Fin cfg2.N) (j : Fin 128) :
    iblk2 V c 3 t (ix1 j) = V c main_v25 (ix1 j) := by
  show V c main_v25 (((cfg2.win 3).blk t).view.emb (ix1 j)) = _
  refine congrArg (V c main_v25) (funext fun a => Fin.ext ?_)
  obtain ⟨-, -, -, -, -, -, e0, -⟩ := mlp2_idx t
  match a with
  | ⟨0, _⟩ => show win2_3.index t (0 : Fin 1) * 128 + 1 * j.val = j.val; omega

/-- The second matrix's one block is the matrix. -/
theorem mlp2_blk4 (c : Dev nD) (t : Fin cfg2.N) (k j : Fin 128) :
    iblk2 V c 4 t (ix2 k j) = V c main_v27 (ix2 k j) := by
  show V c main_v27 (((cfg2.win 4).blk t).view.emb (ix2 k j)) = _
  refine congrArg (V c main_v27) (funext fun a => Fin.ext ?_)
  obtain ⟨-, -, -, -, -, -, -, e0, e1, -⟩ := mlp2_idx t
  match a with
  | ⟨0, _⟩ => show win2_4.index t (0 : Fin 2) * 128 + 1 * k.val = k.val; omega
  | ⟨1, _⟩ => show win2_4.index t (1 : Fin 2) * 128 + 1 * j.val = j.val; omega

/-- The second bias's one block is the bias. -/
theorem mlp2_blk5 (c : Dev nD) (t : Fin cfg2.N) (j : Fin 128) :
    iblk2 V c 5 t (ix1 j) = V c main_v29 (ix1 j) := by
  show V c main_v29 (((cfg2.win 5).blk t).view.emb (ix1 j)) = _
  refine congrArg (V c main_v29) (funext fun a => Fin.ext ?_)
  obtain ⟨-, -, -, -, -, -, -, -, -, e0, -⟩ := mlp2_idx t
  match a with
  | ⟨0, _⟩ => show win2_5.index t (0 : Fin 1) * 128 + 1 * j.val = j.val; omega

/-- Entry `(p, q)` of point `t`'s output block sits at row `4000·t + p`, column `q` of the output array. -/
theorem mlp2_emb6 (t : Fin cfg2.N) (p : Fin 4000) (q : Fin 128) (R : Fin 300000) (hR : R.val = 4000 * t.val + p.val) :
    ((cfg2.win 6).blk t).view.emb (ix2 p q) = ix2 R q := by
  refine funext fun a => Fin.ext ?_
  obtain ⟨-, -, -, -, -, -, -, -, -, -, e0, e1⟩ := mlp2_idx t
  match a with
  | ⟨0, _⟩ => show win2_6.index t (0 : Fin 2) * 4000 + 1 * p.val = R.val; omega
  | ⟨1, _⟩ => show win2_6.index t (1 : Fin 2) * 128 + 1 * q.val = q.val; omega

/-- What point `t` writes back is block `t` of the layer map of the arrays the call found. -/
theorem mlp2_flushed (c : Dev nD) (t : Fin cfg2.N) :
    (dat2 (F := Ideal) V c).flushed 6 t = ((cfg2.win 6).blk t).view.read (Elt Ideal)
      (mlpG (F := Ideal) (V c main_v17) (V c main_v21) (V c main_v23) (V c main_v25) (V c main_v27) (V c main_v29)) := by
  show (cfg2.win 6).cut (grid2.coords t) ((dat2 V c).after 6 t) = _
  rw [after2_6]
  unfold out2_6
  rw [View.canon_unit_zero mlp2_hz2]
  simp only [View.ld_unit_zero (S := S4000x128) mlp2_hz2, View.ld_unit_zero (S := S128x128) mlp2_hz2, View.ld_unit_zero (S := S128) mlp2_hz1]
  funext j
  obtain ⟨p, q, rfl⟩ : ∃ (p : Fin 4000) (q : Fin 128), j = ix2 p q := ⟨j 0, j 1, eq_ix2 j⟩
  have ht : t.val < 75 := lt_of_lt_of_eq t.isLt (show cfg2.N = 75 from N_2)
  have hR : 4000 * t.val + p.val < 300000 := by have := p.isLt; omega
  show k2_pay1 (F := Ideal) (iblk2 V c 0 t) (iblk2 V c 1 t) (iblk2 V c 2 t) (iblk2 V c 3 t) (iblk2 V c 4 t) (iblk2 V c 5 t) (ix2 p q)
      = mlpG (F := Ideal) (V c main_v17) (V c main_v21) (V c main_v23) (V c main_v25) (V c main_v27) (V c main_v29)
          (((cfg2.win 6).blk t).view.emb (ix2 p q))
  rw [mlp2_emb6 t p q ⟨4000 * t.val + p.val, hR⟩ rfl]
  exact mlp2_point _ _ _ _ _ _ _ _ _ _ _ _ p q ⟨4000 * t.val + p.val, hR⟩
    (fun k => mlp2_blk0 V c t p k _ rfl) (fun k => mlp2_blk1 V c t p k _ rfl) (fun k j => mlp2_blk2 V c t k j)
    (fun j => mlp2_blk3 V c t j) (fun k j => mlp2_blk4 V c t k j) (fun j => mlp2_blk5 V c t j)

/-- An index of the output array is in point `t`'s block iff each coordinate is in the block's range on its axis. -/
theorem mlp2_mem_blk (t : Fin cfg2.N) (i : S300000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v30).slice (win2_6.rect t)).set ↔ _
  rw [View.set_slice_whole, Rect.mem_set_unit]
  exact Iff.rfl

/-- Every index of the output array is in the block of the point its row divided by 4000 names. -/
theorem mlp2_cover (i : S300000x128.Idx) :
    ∃ t : Fin cfg2.N, (cfg2.win 6).flush t = true ∧ i ∈ ((cfg2.win 6).blk t).view.set := by
  have hi0 : (i 0).val < 300000 := (i 0).isLt
  have hi1 : (i 1).val < 128 := (i 1).isLt
  have hN : cfg2.N = 75 := N_2
  have hlt : (i 0).val / 4000 < cfg2.N := by rw [hN]; omega
  obtain ⟨-, -, -, -, -, -, -, -, -, -, e0, e1⟩ := mlp2_idx ⟨(i 0).val / 4000, hlt⟩
  refine ⟨⟨(i 0).val / 4000, hlt⟩, flush2_6 _, ?_⟩
  rw [mlp2_mem_blk]
  intro a
  match a with
  | ⟨0, _⟩ =>
    show win2_6.index ⟨(i 0).val / 4000, hlt⟩ (0 : Fin 2) * 4000 ≤ (i 0).val ∧ (i 0).val < win2_6.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win2_6.index ⟨(i 0).val / 4000, hlt⟩ (1 : Fin 2) * 128 ≤ (i 1).val ∧ (i 1).val < win2_6.index ⟨(i 0).val / 4000, hlt⟩ (1 : Fin 2) * 128 + 128
    rw [e1]; omega

/-- After layer 2's dense call its output array is the layer map of the arrays it read. -/
theorem mlp2_final (c : Dev nD) :
    (dat2 (F := Ideal) V c).arrAt 6 cfg2.N
      = mlpG (F := Ideal) (V c main_v17) (V c main_v21) (V c main_v23) (V c main_v25) (V c main_v27) (V c main_v29) :=
  (dat2 (F := Ideal) V c).arrAt_eq_of_cover 6 _ (fun t _ => mlp2_flushed V c t) (fun i => mlp2_cover i)

end Cert.Gin.K.Mlp2

end
-- ==== Proof.KLayer2.lean ====
/-
  Layer 2 of the kernel program. Two host stretches stand between the previous call and this layer's dense call: the
  first gathers the rows of the features at the edge sources (wrapped, out-of-range rows filled), the second sums them
  into the edge targets and cuts this layer's matrices and biases out of the stacked weights. They write none of the
  carried buffers and neither does the call. So if the previous call left the features `H`, this call leaves the
  layer map of `H` over the kernel program's gather.
-/
import proofs.«414283_j78855599555022_1_alg».proof.Proof.KCarry
import proofs.«414283_j78855599555022_1_alg».proof.Proof.KHost
import proofs.«414283_j78855599555022_1_alg».proof.Proof.RegionMlp2
import Idealize.ShloMosaic.Lib.StableHlo.Run

set_option maxRecDepth 16384

noncomputable section

namespace Cert.Gin.K

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The first stretch, from any contents `X`: the gathered rows are the kernel program's gather of `X`'s features at
    `X`'s sources. -/
theorem gathered2 (X : Valuation τ sig (Elt Ideal)) :
    StableHlo.after hostOps2 X (Proc.devRef .tc main_v18)
      = takeK (F := Ideal) (X (Proc.devRef .tc main_v1)) (X (Proc.devRef .tc main_v17)) := by
  after_results_simp
  simp only [TRef.ofBuf, TRef.toBuf, cast_round]
  simp only [cast_eq]
  rfl

/-- The first stretch writes neither the targets nor the features. -/
theorem gathered2_dst (X : Valuation τ sig (Elt Ideal)) :
    StableHlo.after hostOps2 X (Proc.devRef .tc main_v3) = X (Proc.devRef .tc main_v3) := by
  after_results_simp

/-- The second stretch, from any contents `X`: the aggregate sums `X`'s gathered rows into `X`'s targets. -/
theorem aggregated2 (X : Valuation τ sig (Elt Ideal)) :
    StableHlo.after hostOps2_1 X (Proc.devRef .tc main_v21)
      = aggG (F := Ideal) (X (Proc.devRef .tc main_v3)) (X (Proc.devRef .tc main_v18)) := by
  after_results_simp <;> rfl

/-- Layer 2's two host stretches leave the carried buffers as region 1's exit had them. -/
theorem agree_entry2 (c : Dev nD) : Agree (W7 (F := Ideal) m ρ c) (W5 m ρ c) := by
  intro b hb
  simp only [carriedRefs, List.mem_cons, List.not_mem_nil, or_false] at hb
  rcases hb with rfl | rfl | rfl | rfl | rfl | rfl | rfl | rfl | rfl <;>
    (show StableHlo.after hostOps2_1 (StableHlo.after hostOps2 (W5 m ρ c)) _ = _; after_results_simp)

/-- Region 2 writes none of the carried buffers. -/
theorem agree_exit2 (c : Dev nD) : Agree (W8 (F := Ideal) m ρ c) (W7 m ρ c) :=
  fun b hb => W8_of_ne m ρ c b ((by decide : ∀ b ∈ carriedRefs, ∀ w, Pipeline.arrRef spec2 w ≠ b) b hb)

/-- LAYER 2. If region 1 left the features `H` and the carried buffers at their known values, region 2 leaves the
    layer map of `H`: its aggregate is the rows the kernel program's gather takes at the sources, summed into the targets. -/
theorem layer2 (c : Dev nD) (H : Arr Ideal Cert.ReferenceIdeal.S300000x128 .f32)
    (hH : W5 (F := Ideal) m ρ c (Proc.devRef .tc main_v17) = H) (hk : Known m c (W5 m ρ c)) :
    W8 (F := Ideal) m ρ c (Proc.devRef .tc main_v30)
      = layerG (F := Ideal) (takeK (srcOf (A m c main_arg1))) (dstOf (A m c main_arg1)) H
          (mat1 (A m c main_arg5)) (vec1 (A m c main_arg6)) (mat1 (A m c main_arg7)) (vec1 (A m c main_arg8)) := by
  have e0 : V7 (F := Ideal) m ρ c main_v17 = H := by
    show StableHlo.after hostOps2_1 (StableHlo.after hostOps2 (W5 m ρ c)) (Proc.devRef .tc main_v17) = _
    after_results_simp; exact hH
  have e1 : V7 (F := Ideal) m ρ c main_v21 = aggG (F := Ideal) (dstOf (A m c main_arg1)) (takeK (srcOf (A m c main_arg1)) H) := by
    refine (aggregated2 (StableHlo.after hostOps2 (W5 m ρ c))).trans ?_
    rw [gathered2_dst, gathered2, hk.dst, hk.src, hH]
  have e2 : V7 (F := Ideal) m ρ c main_v23 = mat1 (F := Ideal) (A m c main_arg5) := by
    show StableHlo.after hostOps2_1 (StableHlo.after hostOps2 (W5 m ρ c)) (Proc.devRef .tc main_v23) = _
    after_results_simp; rw [hk.a5]; rfl
  have e3 : V7 (F := Ideal) m ρ c main_v25 = vec1 (F := Ideal) (A m c main_arg6) := by
    show StableHlo.after hostOps2_1 (StableHlo.after hostOps2 (W5 m ρ c)) (Proc.devRef .tc main_v25) = _
    after_results_simp; rw [hk.a6]; rfl
  have e4 : V7 (F := Ideal) m ρ c main_v27 = mat1 (F := Ideal) (A m c main_arg7) := by
    show StableHlo.after hostOps2_1 (StableHlo.after hostOps2 (W5 m ρ c)) (Proc.devRef .tc main_v27) = _
    after_results_simp; rw [hk.a7]; rfl
  have e5 : V7 (F := Ideal) m ρ c main_v29 = vec1 (F := Ideal) (A m c main_arg8) := by
    show StableHlo.after hostOps2_1 (StableHlo.after hostOps2 (W5 m ρ c)) (Proc.devRef .tc main_v29) = _
    after_results_simp; rw [hk.a8]; rfl
  refine (W8_arr m ρ c 6).trans ((Mlp2.mlp2_final (V7 m ρ) c).trans ?_)
  rw [e0, e1, e2, e3, e4, e5]
  rfl

end Cert.Gin.K

end
-- ==== Proof.RegionMlp3.lean ====
/-
  Layer 3's dense call: 75 grid points, point `t` writing rows 4000·t … 4000·t + 3999 of the new features from the same rows of the features and of the aggregate. After the call the whole array is the layer map of HostG.lean of the arrays the call found.
-/
import proofs.«414283_j78855599555022_1_alg».proof.Proof.Gen.KernelIdeal.Frame
import proofs.«414283_j78855599555022_1_alg».proof.Proof.HostGApply
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gin.K.Mlp3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The matrix product of the body at an entry -/

theorem mlp3_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mlp3_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem mlp3_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem mlp3_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's matrix product into a zero accumulator, at row `p` and column `q`: the inner product of row `p` of the
    left operand with column `q` of the right one. -/
theorem mlp3_dot_apply (a : FVec Ideal S4000x128 .bf16) (w : FVec Ideal S128x128 .bf16) (p : Fin 4000) (q : Fin 128) :
    matmul dot_S4000x128_S128x128_S4000x128_1_0_0_1_n_n none a w (constant (F := Ideal) S4000x128 .f32 0x00000000#32) (ix2 p q)
      = ∑ k : Fin 128, a (ix2 p k) * w (ix2 k q) := by
  refine (Ideal.matmul_constant_zero_apply dot_S4000x128_S128x128_S4000x128_1_0_0_1_n_n none a w (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact mlp3_lhs_0 _ _
    | ⟨1, _⟩ => exact (mlp3_lhs_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (mlp3_rhs_0 _ _).trans hk
    | ⟨1, _⟩ => exact mlp3_rhs_1 _ _)
  rw [el, er]

/-- One affine stage of the body followed by the maximum with zero, at row `p` and column `q`. -/
theorem mlp3_stage_apply (a : FVec Ideal S4000x128 .bf16) (w : FVec Ideal S128x128 .bf16) (b : Vec Ideal S128 .f32) (p : Fin 4000) (q : Fin 128) :
    maximumf (addf (matmul dot_S4000x128_S128x128_S4000x128_1_0_0_1_n_n none a w (constant (F := Ideal) S4000x128 .f32 0x00000000#32))
        (broadcastTo S4000x128 (shapeCast S1x128 b shapeCasts_S128_S1x128) broadcasts_S1x128_S4000x128))
      (broadcast S4000x128 (Scalar.ofBits (F := Ideal) .f32 0x00000000#32)) (ix2 p q)
      = max ((∑ k : Fin 128, a (ix2 p k) * w (ix2 k q)) + b (ix1 q)) zeroW := by
  show max (matmul dot_S4000x128_S128x128_S4000x128_1_0_0_1_n_n none a w (constant (F := Ideal) S4000x128 .f32 0x00000000#32) (ix2 p q)
      + broadcastTo S4000x128 (shapeCast S1x128 b shapeCasts_S128_S1x128) broadcasts_S1x128_S4000x128 (ix2 p q)) zeroW = _
  rw [mlp3_dot_apply, broadcastTo_1b_ab_apply, shapeCast_a_1a_apply]

/-- The body's stored value at row `p`, column `q` of its block: the layer's row function of row `p` of the two
    4000-row blocks, of the two matrices and of the two biases. -/
theorem mlp3_payload (v0 v2 : Vec Ideal S4000x128 .f32) (v6 : Vec Ideal S128x128 .f32) (v10 : Vec Ideal S128 .f32)
    (v18 : Vec Ideal S128x128 .f32) (v22 : Vec Ideal S128 .f32) (p : Fin 4000) (q : Fin 128) :
    k3_pay1 (F := Ideal) v0 v2 v6 v10 v18 v22 (ix2 p q)
      = mlpRow (fun k => v0 (ix2 p k)) (fun k => v2 (ix2 p k)) (fun k j => v6 (ix2 k j)) (fun j => v10 (ix1 j))
          (fun k j => v18 (ix2 k j)) (fun j => v22 (ix1 j)) q := by
  unfold k3_pay1
  simp only [shapeCast_self]
  refine (mlp3_stage_apply _ _ v22 p q).trans ?_
  show _ = max ((∑ j : Fin 128, hidRow _ _ _ _ j * v18 (ix2 j q)) + v22 (ix1 q)) zeroW
  refine congrArg (fun s => max (s + v22 (ix1 q)) zeroW) (Finset.sum_congr rfl fun j _ => ?_)
  rw [truncf_apply, truncf_apply]
  refine congrArg (· * v18 (ix2 j q)) ?_
  refine (mlp3_stage_apply _ _ v10 p j).trans ?_
  show _ = max ((∑ k : Fin 128, (v0 (ix2 p k) + v2 (ix2 p k)) * v6 (ix2 k j)) + v10 (ix1 j)) zeroW
  refine congrArg (fun s => max (s + v10 (ix1 j)) zeroW) (Finset.sum_congr rfl fun k _ => ?_)
  rw [truncf_apply, truncf_apply, addf_apply]

/-! ## From blocks to the array -/

theorem mlp3_hz2 : (![0, 0] : Fin 2 → Nat) = fun _ => 0 := funext fun a => by fin_cases a <;> rfl
theorem mlp3_hz1 : (![0] : Fin 1 → Nat) = fun _ => 0 := funext fun a => by fin_cases a <;> rfl

/-- The body's stored value at row `p`, column `q` is the layer map at row `R`, column `q`, of arrays whose row `R` the
    two 4000-row blocks hold at row `p` and whose matrices and biases the other four blocks are. -/
theorem mlp3_point (h agg : Arr Ideal S300000x128 .f32) (w1 : Arr Ideal S128x128 .f32) (b1 : Arr Ideal S128 .f32)
    (w2 : Arr Ideal S128x128 .f32) (b2 : Arr Ideal S128 .f32)
    (x0 x1 : Vec Ideal S4000x128 .f32) (x2 : Vec Ideal S128x128 .f32) (x3 : Vec Ideal S128 .f32)
    (x4 : Vec Ideal S128x128 .f32) (x5 : Vec Ideal S128 .f32) (p : Fin 4000) (q : Fin 128) (R : Fin 300000)
    (h0 : ∀ k, x0 (ix2 p k) = h (ix2 R k)) (h1 : ∀ k, x1 (ix2 p k) = agg (ix2 R k))
    (h2 : ∀ k j, x2 (ix2 k j) = w1 (ix2 k j)) (h3 : ∀ j, x3 (ix1 j) = b1 (ix1 j))
    (h4 : ∀ k j, x4 (ix2 k j) = w2 (ix2 k j)) (h5 : ∀ j, x5 (ix1 j) = b2 (ix1 j)) :
    k3_pay1 (F := Ideal) x0 x1 x2 x3 x4 x5 (ix2 p q) = mlpG (F := Ideal) h agg w1 b1 w2 b2 (ix2 R q) := by
  rw [mlp3_payload, mlpG_apply]
  simp only [h0, h1, h2, h3, h4, h5]

/-- The printed index maps, decided over the 75 grid points: the row windows sit at block `t`, the others at block 0. -/
theorem mlp3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Row `p` of point `t`'s block of the features is row `4000·t + p` of the array. -/
theorem mlp3_blk0 (c : Dev nD) (t : Fin cfg3.N) (p : Fin 4000) (k : Fin 128) (R : Fin 300000) (hR : R.val = 4000 * t.val + p.val) :
    iblk3 V c 0 t (ix2 p k) = V c main_v30 (ix2 R k) := by
  show V c main_v30 (((cfg3.win 0).blk t).view.emb (ix2 p k)) = _
  refine congrArg (V c main_v30) (funext fun a => Fin.ext ?_)
  obtain ⟨e0, e1, -⟩ := mlp3_idx t
  match a with
  | ⟨0, _⟩ => show win3_0.index t (0 : Fin 2) * 4000 + 1 * p.val = R.val; omega
  | ⟨1, _⟩ => show win3_0.index t (1 : Fin 2) * 128 + 1 * k.val = k.val; omega

/-- Row `p` of point `t`'s block of the aggregate is row `4000·t + p` of the array. -/
theorem mlp3_blk1 (c : Dev nD) (t : Fin cfg3.N) (p : Fin 4000) (k : Fin 128) (R : Fin 300000) (hR : R.val = 4000 * t.val + p.val) :
    iblk3 V c 1 t (ix2 p k) = V c main_v34 (ix2 R k) := by
  show V c main_v34 (((cfg3.win 1).blk t).view.emb (ix2 p k)) = _
  refine congrArg (V c main_v34) (funext fun a => Fin.ext ?_)
  obtain ⟨-, -, e0, e1, -⟩ := mlp3_idx t
  match a with
  | ⟨0, _⟩ => show win3_1.index t (0 : Fin 2) * 4000 + 1 * p.val = R.val; omega
  | ⟨1, _⟩ => show win3_1.index t (1 : Fin 2) * 128 + 1 * k.val = k.val; omega

/-- The first matrix's one block is the matrix. -/
theorem mlp3_blk2 (c : Dev nD) (t : Fin cfg3.N) (k j : Fin 128) :
    iblk3 V c 2 t (ix2 k j) = V c main_v36 (ix2 k j) := by
  show V c main_v36 (((cfg3.win 2).blk t).view.emb (ix2 k j)) = _
  refine congrArg (V c main_v36) (funext fun a => Fin.ext ?_)
  obtain ⟨-, -, -, -, e0, e1, -⟩ := mlp3_idx t
  match a with
  | ⟨0, _⟩ => show win3_2.index t (0 : Fin 2) * 128 + 1 * k.val = k.val; omega
  | ⟨1, _⟩ => show win3_2.index t (1 : Fin 2) * 128 + 1 * j.val = j.val; omega

/-- The first bias's one block is the bias. -/
theorem mlp3_blk3 (c : Dev nD) (t : Fin cfg3.N) (j : Fin 128) :
    iblk3 V c 3 t (ix1 j) = V c main_v38 (ix1 j) := by
  show V c main_v38 (((cfg3.win 3).blk t).view.emb (ix1 j)) = _
  refine congrArg (V c main_v38) (funext fun a => Fin.ext ?_)
  obtain ⟨-, -, -, -, -, -, e0, -⟩ := mlp3_idx t
  match a with
  | ⟨0, _⟩ => show win3_3.index t (0 : Fin 1) * 128 + 1 * j.val = j.val; omega

/-- The second matrix's one block is the matrix. -/
theorem mlp3_blk4 (c : Dev nD) (t : Fin cfg3.N) (k j : Fin 128) :
    iblk3 V c 4 t (ix2 k j) = V c main_v40 (ix2 k j) := by
  show V c main_v40 (((cfg3.win 4).blk t).view.emb (ix2 k j)) = _
  refine congrArg (V c main_v40) (funext fun a => Fin.ext ?_)
  obtain ⟨-, -, -, -, -, -, -, e0, e1, -⟩ := mlp3_idx t
  match a with
  | ⟨0, _⟩ => show win3_4.index t (0 : Fin 2) * 128 + 1 * k.val = k.val; omega
  | ⟨1, _⟩ => show win3_4.index t (1 : Fin 2) * 128 + 1 * j.val = j.val; omega

/-- The second bias's one block is the bias. -/
theorem mlp3_blk5 (c : Dev nD) (t : Fin cfg3.N) (j : Fin 128) :
    iblk3 V c 5 t (ix1 j) = V c main_v42 (ix1 j) := by
  show V c main_v42 (((cfg3.win 5).blk t).view.emb (ix1 j)) = _
  refine congrArg (V c main_v42) (funext fun a => Fin.ext ?_)
  obtain ⟨-, -, -, -, -, -, -, -, -, e0, -⟩ := mlp3_idx t
  match a with
  | ⟨0, _⟩ => show win3_5.index t (0 : Fin 1) * 128 + 1 * j.val = j.val; omega

/-- Entry `(p, q)` of point `t`'s output block sits at row `4000·t + p`, column `q` of the output array. -/
theorem mlp3_emb6 (t : Fin cfg3.N) (p : Fin 4000) (q : Fin 128) (R : Fin 300000) (hR : R.val = 4000 * t.val + p.val) :
    ((cfg3.win 6).blk t).view.emb (ix2 p q) = ix2 R q := by
  refine funext fun a => Fin.ext ?_
  obtain ⟨-, -, -, -, -, -, -, -, -, -, e0, e1⟩ := mlp3_idx t
  match a with
  | ⟨0, _⟩ => show win3_6.index t (0 : Fin 2) * 4000 + 1 * p.val = R.val; omega
  | ⟨1, _⟩ => show win3_6.index t (1 : Fin 2) * 128 + 1 * q.val = q.val; omega

/-- What point `t` writes back is block `t` of the layer map of the arrays the call found. -/
theorem mlp3_flushed (c : Dev nD) (t : Fin cfg3.N) :
    (dat3 (F := Ideal) V c).flushed 6 t = ((cfg3.win 6).blk t).view.read (Elt Ideal)
      (mlpG (F := Ideal) (V c main_v30) (V c main_v34) (V c main_v36) (V c main_v38) (V c main_v40) (V c main_v42)) := by
  show (cfg3.win 6).cut (grid3.coords t) ((dat3 V c).after 6 t) = _
  rw [after3_6]
  unfold out3_6
  rw [View.canon_unit_zero mlp3_hz2]
  simp only [View.ld_unit_zero (S := S4000x128) mlp3_hz2, View.ld_unit_zero (S := S128x128) mlp3_hz2, View.ld_unit_zero (S := S128) mlp3_hz1]
  funext j
  obtain ⟨p, q, rfl⟩ : ∃ (p : Fin 4000) (q : Fin 128), j = ix2 p q := ⟨j 0, j 1, eq_ix2 j⟩
  have ht : t.val < 75 := lt_of_lt_of_eq t.isLt (show cfg3.N = 75 from N_3)
  have hR : 4000 * t.val + p.val < 300000 := by have := p.isLt; omega
  show k3_pay1 (F := Ideal) (iblk3 V c 0 t) (iblk3 V c 1 t) (iblk3 V c 2 t) (iblk3 V c 3 t) (iblk3 V c 4 t) (iblk3 V c 5 t) (ix2 p q)
      = mlpG (F := Ideal) (V c main_v30) (V c main_v34) (V c main_v36) (V c main_v38) (V c main_v40) (V c main_v42)
          (((cfg3.win 6).blk t).view.emb (ix2 p q))
  rw [mlp3_emb6 t p q ⟨4000 * t.val + p.val, hR⟩ rfl]
  exact mlp3_point _ _ _ _ _ _ _ _ _ _ _ _ p q ⟨4000 * t.val + p.val, hR⟩
    (fun k => mlp3_blk0 V c t p k _ rfl) (fun k => mlp3_blk1 V c t p k _ rfl) (fun k j => mlp3_blk2 V c t k j)
    (fun j => mlp3_blk3 V c t j) (fun k j => mlp3_blk4 V c t k j) (fun j => mlp3_blk5 V c t j)

/-- An index of the output array is in point `t`'s block iff each coordinate is in the block's range on its axis. -/
theorem mlp3_mem_blk (t : Fin cfg3.N) (i : S300000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v43).slice (win3_6.rect t)).set ↔ _
  rw [View.set_slice_whole, Rect.mem_set_unit]
  exact Iff.rfl

/-- Every index of the output array is in the block of the point its row divided by 4000 names. -/
theorem mlp3_cover (i : S300000x128.Idx) :
    ∃ t : Fin cfg3.N, (cfg3.win 6).flush t = true ∧ i ∈ ((cfg3.win 6).blk t).view.set := by
  have hi0 : (i 0).val < 300000 := (i 0).isLt
  have hi1 : (i 1).val < 128 := (i 1).isLt
  have hN : cfg3.N = 75 := N_3
  have hlt : (i 0).val / 4000 < cfg3.N := by rw [hN]; omega
  obtain ⟨-, -, -, -, -, -, -, -, -, -, e0, e1⟩ := mlp3_idx ⟨(i 0).val / 4000, hlt⟩
  refine ⟨⟨(i 0).val / 4000, hlt⟩, flush3_6 _, ?_⟩
  rw [mlp3_mem_blk]
  intro a
  match a with
  | ⟨0, _⟩ =>
    show win3_6.index ⟨(i 0).val / 4000, hlt⟩ (0 : Fin 2) * 4000 ≤ (i 0).val ∧ (i 0).val < win3_6.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win3_6.index ⟨(i 0).val / 4000, hlt⟩ (1 : Fin 2) * 128 ≤ (i 1).val ∧ (i 1).val < win3_6.index ⟨(i 0).val / 4000, hlt⟩ (1 : Fin 2) * 128 + 128
    rw [e1]; omega

/-- After layer 3's dense call its output array is the layer map of the arrays it read. -/
theorem mlp3_final (c : Dev nD) :
    (dat3 (F := Ideal) V c).arrAt 6 cfg3.N
      = mlpG (F := Ideal) (V c main_v30) (V c main_v34) (V c main_v36) (V c main_v38) (V c main_v40) (V c main_v42) :=
  (dat3 (F := Ideal) V c).arrAt_eq_of_cover 6 _ (fun t _ => mlp3_flushed V c t) (fun i => mlp3_cover i)

end Cert.Gin.K.Mlp3

end
-- ==== Proof.KLayer3.lean ====
/-
  Layer 3 of the kernel program. Two host stretches stand between the previous call and this layer's dense call: the
  first gathers the rows of the features at the edge sources (wrapped, out-of-range rows filled), the second sums them
  into the edge targets and cuts this layer's matrices and biases out of the stacked weights. They write none of the
  carried buffers and neither does the call. So if the previous call left the features `H`, this call leaves the
  layer map of `H` over the kernel program's gather.
-/
import proofs.«414283_j78855599555022_1_alg».proof.Proof.KCarry
import proofs.«414283_j78855599555022_1_alg».proof.Proof.KHost
import proofs.«414283_j78855599555022_1_alg».proof.Proof.RegionMlp3
import Idealize.ShloMosaic.Lib.StableHlo.Run

set_option maxRecDepth 16384

noncomputable section

namespace Cert.Gin.K

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The first stretch, from any contents `X`: the gathered rows are the kernel program's gather of `X`'s features at
    `X`'s sources. -/
theorem gathered3 (X : Valuation τ sig (Elt Ideal)) :
    StableHlo.after hostOps3 X (Proc.devRef .tc main_v31)
      = takeK (F := Ideal) (X (Proc.devRef .tc main_v1)) (X (Proc.devRef .tc main_v30)) := by
  after_results_simp
  simp only [TRef.ofBuf, TRef.toBuf, cast_round]
  simp only [cast_eq]
  rfl

/-- The first stretch writes neither the targets nor the features. -/
theorem gathered3_dst (X : Valuation τ sig (Elt Ideal)) :
    StableHlo.after hostOps3 X (Proc.devRef .tc main_v3) = X (Proc.devRef .tc main_v3) := by
  after_results_simp

/-- The second stretch, from any contents `X`: the aggregate sums `X`'s gathered rows into `X`'s targets. -/
theorem aggregated3 (X : Valuation τ sig (Elt Ideal)) :
    StableHlo.after hostOps3_1 X (Proc.devRef .tc main_v34)
      = aggG (F := Ideal) (X (Proc.devRef .tc main_v3)) (X (Proc.devRef .tc main_v31)) := by
  after_results_simp <;> rfl

/-- Layer 3's two host stretches leave the carried buffers as region 2's exit had them. -/
theorem agree_entry3 (c : Dev nD) : Agree (W10 (F := Ideal) m ρ c) (W8 m ρ c) := by
  intro b hb
  simp only [carriedRefs, List.mem_cons, List.not_mem_nil, or_false] at hb
  rcases hb with rfl | rfl | rfl | rfl | rfl | rfl | rfl | rfl | rfl <;>
    (show StableHlo.after hostOps3_1 (StableHlo.after hostOps3 (W8 m ρ c)) _ = _; after_results_simp)

/-- Region 3 writes none of the carried buffers. -/
theorem agree_exit3 (c : Dev nD) : Agree (W11 (F := Ideal) m ρ c) (W10 m ρ c) :=
  fun b hb => W11_of_ne m ρ c b ((by decide : ∀ b ∈ carriedRefs, ∀ w, Pipeline.arrRef spec3 w ≠ b) b hb)

/-- LAYER 3. If region 2 left the features `H` and the carried buffers at their known values, region 3 leaves the
    layer map of `H`: its aggregate is the rows the kernel program's gather takes at the sources, summed into the targets. -/
theorem layer3 (c : Dev nD) (H : Arr Ideal Cert.ReferenceIdeal.S300000x128 .f32)
    (hH : W8 (F := Ideal) m ρ c (Proc.devRef .tc main_v30) = H) (hk : Known m c (W8 m ρ c)) :
    W11 (F := Ideal) m ρ c (Proc.devRef .tc main_v43)
      = layerG (F := Ideal) (takeK (srcOf (A m c main_arg1))) (dstOf (A m c main_arg1)) H
          (mat2 (A m c main_arg5)) (vec2 (A m c main_arg6)) (mat2 (A m c main_arg7)) (vec2 (A m c main_arg8)) := by
  have e0 : V10 (F := Ideal) m ρ c main_v30 = H := by
    show StableHlo.after hostOps3_1 (StableHlo.after hostOps3 (W8 m ρ c)) (Proc.devRef .tc main_v30) = _
    after_results_simp; exact hH
  have e1 : V10 (F := Ideal) m ρ c main_v34 = aggG (F := Ideal) (dstOf (A m c main_arg1)) (takeK (srcOf (A m c main_arg1)) H) := by
    refine (aggregated3 (StableHlo.after hostOps3 (W8 m ρ c))).trans ?_
    rw [gathered3_dst, gathered3, hk.dst, hk.src, hH]
  have e2 : V10 (F := Ideal) m ρ c main_v36 = mat2 (F := Ideal) (A m c main_arg5) := by
    show StableHlo.after hostOps3_1 (StableHlo.after hostOps3 (W8 m ρ c)) (Proc.devRef .tc main_v36) = _
    after_results_simp; rw [hk.a5]; rfl
  have e3 : V10 (F := Ideal) m ρ c main_v38 = vec2 (F := Ideal) (A m c main_arg6) := by
    show StableHlo.after hostOps3_1 (StableHlo.after hostOps3 (W8 m ρ c)) (Proc.devRef .tc main_v38) = _
    after_results_simp; rw [hk.a6]; rfl
  have e4 : V10 (F := Ideal) m ρ c main_v40 = mat2 (F := Ideal) (A m c main_arg7) := by
    show StableHlo.after hostOps3_1 (StableHlo.after hostOps3 (W8 m ρ c)) (Proc.devRef .tc main_v40) = _
    after_results_simp; rw [hk.a7]; rfl
  have e5 : V10 (F := Ideal) m ρ c main_v42 = vec2 (F := Ideal) (A m c main_arg8) := by
    show StableHlo.after hostOps3_1 (StableHlo.after hostOps3 (W8 m ρ c)) (Proc.devRef .tc main_v42) = _
    after_results_simp; rw [hk.a8]; rfl
  refine (W11_arr m ρ c 6).trans ((Mlp3.mlp3_final (V10 m ρ) c).trans ?_)
  rw [e0, e1, e2, e3, e4, e5]
  rfl

end Cert.Gin.K

end
-- ==== Proof.RegionMlp4.lean ====
/-
  Layer 4's dense call: 75 grid points, point `t` writing rows 4000·t … 4000·t + 3999 of the new features from the same rows of the features and of the aggregate. After the call the whole array is the layer map of HostG.lean of the arrays the call found.
-/
import proofs.«414283_j78855599555022_1_alg».proof.Proof.Gen.KernelIdeal.Frame
import proofs.«414283_j78855599555022_1_alg».proof.Proof.HostGApply
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gin.K.Mlp4

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The matrix product of the body at an entry -/

theorem mlp4_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mlp4_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem mlp4_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem mlp4_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's matrix product into a zero accumulator, at row `p` and column `q`: the inner product of row `p` of the
    left operand with column `q` of the right one. -/
theorem mlp4_dot_apply (a : FVec Ideal S4000x128 .bf16) (w : FVec Ideal S128x128 .bf16) (p : Fin 4000) (q : Fin 128) :
    matmul dot_S4000x128_S128x128_S4000x128_1_0_0_1_n_n none a w (constant (F := Ideal) S4000x128 .f32 0x00000000#32) (ix2 p q)
      = ∑ k : Fin 128, a (ix2 p k) * w (ix2 k q) := by
  refine (Ideal.matmul_constant_zero_apply dot_S4000x128_S128x128_S4000x128_1_0_0_1_n_n none a w (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact mlp4_lhs_0 _ _
    | ⟨1, _⟩ => exact (mlp4_lhs_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (mlp4_rhs_0 _ _).trans hk
    | ⟨1, _⟩ => exact mlp4_rhs_1 _ _)
  rw [el, er]

/-- One affine stage of the body followed by the maximum with zero, at row `p` and column `q`. -/
theorem mlp4_stage_apply (a : FVec Ideal S4000x128 .bf16) (w : FVec Ideal S128x128 .bf16) (b : Vec Ideal S128 .f32) (p : Fin 4000) (q : Fin 128) :
    maximumf (addf (matmul dot_S4000x128_S128x128_S4000x128_1_0_0_1_n_n none a w (constant (F := Ideal) S4000x128 .f32 0x00000000#32))
        (broadcastTo S4000x128 (shapeCast S1x128 b shapeCasts_S128_S1x128) broadcasts_S1x128_S4000x128))
      (broadcast S4000x128 (Scalar.ofBits (F := Ideal) .f32 0x00000000#32)) (ix2 p q)
      = max ((∑ k : Fin 128, a (ix2 p k) * w (ix2 k q)) + b (ix1 q)) zeroW := by
  show max (matmul dot_S4000x128_S128x128_S4000x128_1_0_0_1_n_n none a w (constant (F := Ideal) S4000x128 .f32 0x00000000#32) (ix2 p q)
      + broadcastTo S4000x128 (shapeCast S1x128 b shapeCasts_S128_S1x128) broadcasts_S1x128_S4000x128 (ix2 p q)) zeroW = _
  rw [mlp4_dot_apply, broadcastTo_1b_ab_apply, shapeCast_a_1a_apply]

/-- The body's stored value at row `p`, column `q` of its block: the layer's row function of row `p` of the two
    4000-row blocks, of the two matrices and of the two biases. -/
theorem mlp4_payload (v0 v2 : Vec Ideal S4000x128 .f32) (v6 : Vec Ideal S128x128 .f32) (v10 : Vec Ideal S128 .f32)
    (v18 : Vec Ideal S128x128 .f32) (v22 : Vec Ideal S128 .f32) (p : Fin 4000) (q : Fin 128) :
    k4_pay1 (F := Ideal) v0 v2 v6 v10 v18 v22 (ix2 p q)
      = mlpRow (fun k => v0 (ix2 p k)) (fun k => v2 (ix2 p k)) (fun k j => v6 (ix2 k j)) (fun j => v10 (ix1 j))
          (fun k j => v18 (ix2 k j)) (fun j => v22 (ix1 j)) q := by
  unfold k4_pay1
  simp only [shapeCast_self]
  refine (mlp4_stage_apply _ _ v22 p q).trans ?_
  show _ = max ((∑ j : Fin 128, hidRow _ _ _ _ j * v18 (ix2 j q)) + v22 (ix1 q)) zeroW
  refine congrArg (fun s => max (s + v22 (ix1 q)) zeroW) (Finset.sum_congr rfl fun j _ => ?_)
  rw [truncf_apply, truncf_apply]
  refine congrArg (· * v18 (ix2 j q)) ?_
  refine (mlp4_stage_apply _ _ v10 p j).trans ?_
  show _ = max ((∑ k : Fin 128, (v0 (ix2 p k) + v2 (ix2 p k)) * v6 (ix2 k j)) + v10 (ix1 j)) zeroW
  refine congrArg (fun s => max (s + v10 (ix1 j)) zeroW) (Finset.sum_congr rfl fun k _ => ?_)
  rw [truncf_apply, truncf_apply, addf_apply]

/-! ## From blocks to the array -/

theorem mlp4_hz2 : (![0, 0] : Fin 2 → Nat) = fun _ => 0 := funext fun a => by fin_cases a <;> rfl
theorem mlp4_hz1 : (![0] : Fin 1 → Nat) = fun _ => 0 := funext fun a => by fin_cases a <;> rfl

/-- The body's stored value at row `p`, column `q` is the layer map at row `R`, column `q`, of arrays whose row `R` the
    two 4000-row blocks hold at row `p` and whose matrices and biases the other four blocks are. -/
theorem mlp4_point (h agg : Arr Ideal S300000x128 .f32) (w1 : Arr Ideal S128x128 .f32) (b1 : Arr Ideal S128 .f32)
    (w2 : Arr Ideal S128x128 .f32) (b2 : Arr Ideal S128 .f32)
    (x0 x1 : Vec Ideal S4000x128 .f32) (x2 : Vec Ideal S128x128 .f32) (x3 : Vec Ideal S128 .f32)
    (x4 : Vec Ideal S128x128 .f32) (x5 : Vec Ideal S128 .f32) (p : Fin 4000) (q : Fin 128) (R : Fin 300000)
    (h0 : ∀ k, x0 (ix2 p k) = h (ix2 R k)) (h1 : ∀ k, x1 (ix2 p k) = agg (ix2 R k))
    (h2 : ∀ k j, x2 (ix2 k j) = w1 (ix2 k j)) (h3 : ∀ j, x3 (ix1 j) = b1 (ix1 j))
    (h4 : ∀ k j, x4 (ix2 k j) = w2 (ix2 k j)) (h5 : ∀ j, x5 (ix1 j) = b2 (ix1 j)) :
    k4_pay1 (F := Ideal) x0 x1 x2 x3 x4 x5 (ix2 p q) = mlpG (F := Ideal) h agg w1 b1 w2 b2 (ix2 R q) := by
  rw [mlp4_payload, mlpG_apply]
  simp only [h0, h1, h2, h3, h4, h5]

/-- The printed index maps, decided over the 75 grid points: the row windows sit at block `t`, the others at block 0. -/
theorem mlp4_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- Row `p` of point `t`'s block of the features is row `4000·t + p` of the array. -/
theorem mlp4_blk0 (c : Dev nD) (t : Fin cfg4.N) (p : Fin 4000) (k : Fin 128) (R : Fin 300000) (hR : R.val = 4000 * t.val + p.val) :
    iblk4 V c 0 t (ix2 p k) = V c main_v43 (ix2 R k) := by
  show V c main_v43 (((cfg4.win 0).blk t).view.emb (ix2 p k)) = _
  refine congrArg (V c main_v43) (funext fun a => Fin.ext ?_)
  obtain ⟨e0, e1, -⟩ := mlp4_idx t
  match a with
  | ⟨0, _⟩ => show win4_0.index t (0 : Fin 2) * 4000 + 1 * p.val = R.val; omega
  | ⟨1, _⟩ => show win4_0.index t (1 : Fin 2) * 128 + 1 * k.val = k.val; omega

/-- Row `p` of point `t`'s block of the aggregate is row `4000·t + p` of the array. -/
theorem mlp4_blk1 (c : Dev nD) (t : Fin cfg4.N) (p : Fin 4000) (k : Fin 128) (R : Fin 300000) (hR : R.val = 4000 * t.val + p.val) :
    iblk4 V c 1 t (ix2 p k) = V c main_v47 (ix2 R k) := by
  show V c main_v47 (((cfg4.win 1).blk t).view.emb (ix2 p k)) = _
  refine congrArg (V c main_v47) (funext fun a => Fin.ext ?_)
  obtain ⟨-, -, e0, e1, -⟩ := mlp4_idx t
  match a with
  | ⟨0, _⟩ => show win4_1.index t (0 : Fin 2) * 4000 + 1 * p.val = R.val; omega
  | ⟨1, _⟩ => show win4_1.index t (1 : Fin 2) * 128 + 1 * k.val = k.val; omega

/-- The first matrix's one block is the matrix. -/
theorem mlp4_blk2 (c : Dev nD) (t : Fin cfg4.N) (k j : Fin 128) :
    iblk4 V c 2 t (ix2 k j) = V c main_v49 (ix2 k j) := by
  show V c main_v49 (((cfg4.win 2).blk t).view.emb (ix2 k j)) = _
  refine congrArg (V c main_v49) (funext fun a => Fin.ext ?_)
  obtain ⟨-, -, -, -, e0, e1, -⟩ := mlp4_idx t
  match a with
  | ⟨0, _⟩ => show win4_2.index t (0 : Fin 2) * 128 + 1 * k.val = k.val; omega
  | ⟨1, _⟩ => show win4_2.index t (1 : Fin 2) * 128 + 1 * j.val = j.val; omega

/-- The first bias's one block is the bias. -/
theorem mlp4_blk3 (c : Dev nD) (t : Fin cfg4.N) (j : Fin 128) :
    iblk4 V c 3 t (ix1 j) = V c main_v51 (ix1 j) := by
  show V c main_v51 (((cfg4.win 3).blk t).view.emb (ix1 j)) = _
  refine congrArg (V c main_v51) (funext fun a => Fin.ext ?_)
  obtain ⟨-, -, -, -, -, -, e0, -⟩ := mlp4_idx t
  match a with
  | ⟨0, _⟩ => show win4_3.index t (0 : Fin 1) * 128 + 1 * j.val = j.val; omega

/-- The second matrix's one block is the matrix. -/
theorem mlp4_blk4 (c : Dev nD) (t : Fin cfg4.N) (k j : Fin 128) :
    iblk4 V c 4 t (ix2 k j) = V c main_v53 (ix2 k j) := by
  show V c main_v53 (((cfg4.win 4).blk t).view.emb (ix2 k j)) = _
  refine congrArg (V c main_v53) (funext fun a => Fin.ext ?_)
  obtain ⟨-, -, -, -, -, -, -, e0, e1, -⟩ := mlp4_idx t
  match a with
  | ⟨0, _⟩ => show win4_4.index t (0 : Fin 2) * 128 + 1 * k.val = k.val; omega
  | ⟨1, _⟩ => show win4_4.index t (1 : Fin 2) * 128 + 1 * j.val = j.val; omega

/-- The second bias's one block is the bias. -/
theorem mlp4_blk5 (c : Dev nD) (t : Fin cfg4.N) (j : Fin 128) :
    iblk4 V c 5 t (ix1 j) = V c main_v55 (ix1 j) := by
  show V c main_v55 (((cfg4.win 5).blk t).view.emb (ix1 j)) = _
  refine congrArg (V c main_v55) (funext fun a => Fin.ext ?_)
  obtain ⟨-, -, -, -, -, -, -, -, -, e0, -⟩ := mlp4_idx t
  match a with
  | ⟨0, _⟩ => show win4_5.index t (0 : Fin 1) * 128 + 1 * j.val = j.val; omega

/-- Entry `(p, q)` of point `t`'s output block sits at row `4000·t + p`, column `q` of the output array. -/
theorem mlp4_emb6 (t : Fin cfg4.N) (p : Fin 4000) (q : Fin 128) (R : Fin 300000) (hR : R.val = 4000 * t.val + p.val) :
    ((cfg4.win 6).blk t).view.emb (ix2 p q) = ix2 R q := by
  refine funext fun a => Fin.ext ?_
  obtain ⟨-, -, -, -, -, -, -, -, -, -, e0, e1⟩ := mlp4_idx t
  match a with
  | ⟨0, _⟩ => show win4_6.index t (0 : Fin 2) * 4000 + 1 * p.val = R.val; omega
  | ⟨1, _⟩ => show win4_6.index t (1 : Fin 2) * 128 + 1 * q.val = q.val; omega

/-- What point `t` writes back is block `t` of the layer map of the arrays the call found. -/
theorem mlp4_flushed (c : Dev nD) (t : Fin cfg4.N) :
    (dat4 (F := Ideal) V c).flushed 6 t = ((cfg4.win 6).blk t).view.read (Elt Ideal)
      (mlpG (F := Ideal) (V c main_v43) (V c main_v47) (V c main_v49) (V c main_v51) (V c main_v53) (V c main_v55)) := by
  show (cfg4.win 6).cut (grid4.coords t) ((dat4 V c).after 6 t) = _
  rw [after4_6]
  unfold out4_6
  rw [View.canon_unit_zero mlp4_hz2]
  simp only [View.ld_unit_zero (S := S4000x128) mlp4_hz2, View.ld_unit_zero (S := S128x128) mlp4_hz2, View.ld_unit_zero (S := S128) mlp4_hz1]
  funext j
  obtain ⟨p, q, rfl⟩ : ∃ (p : Fin 4000) (q : Fin 128), j = ix2 p q := ⟨j 0, j 1, eq_ix2 j⟩
  have ht : t.val < 75 := lt_of_lt_of_eq t.isLt (show cfg4.N = 75 from N_4)
  have hR : 4000 * t.val + p.val < 300000 := by have := p.isLt; omega
  show k4_pay1 (F := Ideal) (iblk4 V c 0 t) (iblk4 V c 1 t) (iblk4 V c 2 t) (iblk4 V c 3 t) (iblk4 V c 4 t) (iblk4 V c 5 t) (ix2 p q)
      = mlpG (F := Ideal) (V c main_v43) (V c main_v47) (V c main_v49) (V c main_v51) (V c main_v53) (V c main_v55)
          (((cfg4.win 6).blk t).view.emb (ix2 p q))
  rw [mlp4_emb6 t p q ⟨4000 * t.val + p.val, hR⟩ rfl]
  exact mlp4_point _ _ _ _ _ _ _ _ _ _ _ _ p q ⟨4000 * t.val + p.val, hR⟩
    (fun k => mlp4_blk0 V c t p k _ rfl) (fun k => mlp4_blk1 V c t p k _ rfl) (fun k j => mlp4_blk2 V c t k j)
    (fun j => mlp4_blk3 V c t j) (fun k j => mlp4_blk4 V c t k j) (fun j => mlp4_blk5 V c t j)

/-- An index of the output array is in point `t`'s block iff each coordinate is in the block's range on its axis. -/
theorem mlp4_mem_blk (t : Fin cfg4.N) (i : S300000x128.Idx) :
    i ∈ ((cfg4.win 6).blk t).view.set ↔ ∀ a : Fin 2, win4_6.index t a * S4000x128.size a ≤ (i a).val ∧ (i a).val < win4_6.index t a * S4000x128.size a + S4000x128.size a := by
  show i ∈ ((View.whole main_v56).slice (win4_6.rect t)).set ↔ _
  rw [View.set_slice_whole, Rect.mem_set_unit]
  exact Iff.rfl

/-- Every index of the output array is in the block of the point its row divided by 4000 names. -/
theorem mlp4_cover (i : S300000x128.Idx) :
    ∃ t : Fin cfg4.N, (cfg4.win 6).flush t = true ∧ i ∈ ((cfg4.win 6).blk t).view.set := by
  have hi0 : (i 0).val < 300000 := (i 0).isLt
  have hi1 : (i 1).val < 128 := (i 1).isLt
  have hN : cfg4.N = 75 := N_4
  have hlt : (i 0).val / 4000 < cfg4.N := by rw [hN]; omega
  obtain ⟨-, -, -, -, -, -, -, -, -, -, e0, e1⟩ := mlp4_idx ⟨(i 0).val / 4000, hlt⟩
  refine ⟨⟨(i 0).val / 4000, hlt⟩, flush4_6 _, ?_⟩
  rw [mlp4_mem_blk]
  intro a
  match a with
  | ⟨0, _⟩ =>
    show win4_6.index ⟨(i 0).val / 4000, hlt⟩ (0 : Fin 2) * 4000 ≤ (i 0).val ∧ (i 0).val < win4_6.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win4_6.index ⟨(i 0).val / 4000, hlt⟩ (1 : Fin 2) * 128 ≤ (i 1).val ∧ (i 1).val < win4_6.index ⟨(i 0).val / 4000, hlt⟩ (1 : Fin 2) * 128 + 128
    rw [e1]; omega

/-- After layer 4's dense call its output array is the layer map of the arrays it read. -/
theorem mlp4_final (c : Dev nD) :
    (dat4 (F := Ideal) V c).arrAt 6 cfg4.N
      = mlpG (F := Ideal) (V c main_v43) (V c main_v47) (V c main_v49) (V c main_v51) (V c main_v53) (V c main_v55) :=
  (dat4 (F := Ideal) V c).arrAt_eq_of_cover 6 _ (fun t _ => mlp4_flushed V c t) (fun i => mlp4_cover i)

end Cert.Gin.K.Mlp4

end
-- ==== Proof.KLayer4.lean ====
/-
  Layer 4 of the kernel program. Two host stretches stand between the previous call and this layer's dense call: the
  first gathers the rows of the features at the edge sources (wrapped, out-of-range rows filled), the second sums them
  into the edge targets and cuts this layer's matrices and biases out of the stacked weights. They write none of the
  carried buffers and neither does the call. So if the previous call left the features `H`, this call leaves the
  layer map of `H` over the kernel program's gather.
-/
import proofs.«414283_j78855599555022_1_alg».proof.Proof.KCarry
import proofs.«414283_j78855599555022_1_alg».proof.Proof.KHost
import proofs.«414283_j78855599555022_1_alg».proof.Proof.RegionMlp4
import Idealize.ShloMosaic.Lib.StableHlo.Run

set_option maxRecDepth 16384

noncomputable section

namespace Cert.Gin.K

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The first stretch, from any contents `X`: the gathered rows are the kernel program's gather of `X`'s features at
    `X`'s sources. -/
theorem gathered4 (X : Valuation τ sig (Elt Ideal)) :
    StableHlo.after hostOps4 X (Proc.devRef .tc main_v44)
      = takeK (F := Ideal) (X (Proc.devRef .tc main_v1)) (X (Proc.devRef .tc main_v43)) := by
  after_results_simp
  simp only [TRef.ofBuf, TRef.toBuf, cast_round]
  simp only [cast_eq]
  rfl

/-- The first stretch writes neither the targets nor the features. -/
theorem gathered4_dst (X : Valuation τ sig (Elt Ideal)) :
    StableHlo.after hostOps4 X (Proc.devRef .tc main_v3) = X (Proc.devRef .tc main_v3) := by
  after_results_simp

/-- The second stretch, from any contents `X`: the aggregate sums `X`'s gathered rows into `X`'s targets. -/
theorem aggregated4 (X : Valuation τ sig (Elt Ideal)) :
    StableHlo.after hostOps4_1 X (Proc.devRef .tc main_v47)
      = aggG (F := Ideal) (X (Proc.devRef .tc main_v3)) (X (Proc.devRef .tc main_v44)) := by
  after_results_simp <;> rfl

/-- Layer 4's two host stretches leave the carried buffers as region 3's exit had them. -/
theorem agree_entry4 (c : Dev nD) : Agree (W13 (F := Ideal) m ρ c) (W11 m ρ c) := by
  intro b hb
  simp only [carriedRefs, List.mem_cons, List.not_mem_nil, or_false] at hb
  rcases hb with rfl | rfl | rfl | rfl | rfl | rfl | rfl | rfl | rfl <;>
    (show StableHlo.after hostOps4_1 (StableHlo.after hostOps4 (W11 m ρ c)) _ = _; after_results_simp)

/-- Region 4 writes none of the carried buffers. -/
theorem agree_exit4 (c : Dev nD) : Agree (W14 (F := Ideal) m ρ c) (W13 m ρ c) :=
  fun b hb => W14_of_ne m ρ c b ((by decide : ∀ b ∈ carriedRefs, ∀ w, Pipeline.arrRef spec4 w ≠ b) b hb)

/-- LAYER 4. If region 3 left the features `H` and the carried buffers at their known values, region 4 leaves the
    layer map of `H`: its aggregate is the rows the kernel program's gather takes at the sources, summed into the targets. -/
theorem layer4 (c : Dev nD) (H : Arr Ideal Cert.ReferenceIdeal.S300000x128 .f32)
    (hH : W11 (F := Ideal) m ρ c (Proc.devRef .tc main_v43) = H) (hk : Known m c (W11 m ρ c)) :
    W14 (F := Ideal) m ρ c (Proc.devRef .tc main_v56)
      = layerG (F := Ideal) (takeK (srcOf (A m c main_arg1))) (dstOf (A m c main_arg1)) H
          (mat3 (A m c main_arg5)) (vec3 (A m c main_arg6)) (mat3 (A m c main_arg7)) (vec3 (A m c main_arg8)) := by
  have e0 : V13 (F := Ideal) m ρ c main_v43 = H := by
    show StableHlo.after hostOps4_1 (StableHlo.after hostOps4 (W11 m ρ c)) (Proc.devRef .tc main_v43) = _
    after_results_simp; exact hH
  have e1 : V13 (F := Ideal) m ρ c main_v47 = aggG (F := Ideal) (dstOf (A m c main_arg1)) (takeK (srcOf (A m c main_arg1)) H) := by
    refine (aggregated4 (StableHlo.after hostOps4 (W11 m ρ c))).trans ?_
    rw [gathered4_dst, gathered4, hk.dst, hk.src, hH]
  have e2 : V13 (F := Ideal) m ρ c main_v49 = mat3 (F := Ideal) (A m c main_arg5) := by
    show StableHlo.after hostOps4_1 (StableHlo.after hostOps4 (W11 m ρ c)) (Proc.devRef .tc main_v49) = _
    after_results_simp; rw [hk.a5]; rfl
  have e3 : V13 (F := Ideal) m ρ c main_v51 = vec3 (F := Ideal) (A m c main_arg6) := by
    show StableHlo.after hostOps4_1 (StableHlo.after hostOps4 (W11 m ρ c)) (Proc.devRef .tc main_v51) = _
    after_results_simp; rw [hk.a6]; rfl
  have e4 : V13 (F := Ideal) m ρ c main_v53 = mat3 (F := Ideal) (A m c main_arg7) := by
    show StableHlo.after hostOps4_1 (StableHlo.after hostOps4 (W11 m ρ c)) (Proc.devRef .tc main_v53) = _
    after_results_simp; rw [hk.a7]; rfl
  have e5 : V13 (F := Ideal) m ρ c main_v55 = vec3 (F := Ideal) (A m c main_arg8) := by
    show StableHlo.after hostOps4_1 (StableHlo.after hostOps4 (W11 m ρ c)) (Proc.devRef .tc main_v55) = _
    after_results_simp; rw [hk.a8]; rfl
  refine (W14_arr m ρ c 6).trans ((Mlp4.mlp4_final (V13 m ρ) c).trans ?_)
  rw [e0, e1, e2, e3, e4, e5]
  rfl

end Cert.Gin.K

end
-- ==== Proof.RegionPool.lean ====
/-
  The output call: 8 grid points, point `t` writing rows 1024·t … 1024·t + 1023 of the result from the same rows of the per-graph sums and counts. After the call the whole array is the output stage of HostG.lean of the arrays the call found.
-/
import proofs.«414283_j78855599555022_1_alg».proof.Proof.Gen.KernelIdeal.Frame
import proofs.«414283_j78855599555022_1_alg».proof.Proof.HostGApply
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gin.K.Pool

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The output call's matrix product: which entries of its operands an entry of the result multiplies -/

theorem lhs_pool_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem lhs_pool_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
theorem rhs_pool_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
theorem rhs_pool_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- An entry of the product into a zero accumulator is the inner product of a row of the left operand with a column of the right. -/
theorem pool_matmul_apply (a : FVec Ideal S1024x128 .bf16) (w : FVec Ideal S128x256 .bf16) (p : Fin 1024) (q : Fin 256) :
    FloatOps.matmul dot_S1024x128_S128x256_S1024x256_1_0_0_1_n_n none a w (constant (F := Ideal) S1024x256 .f32 0x00000000#32) (ix2 p q)
      = ∑ k : Fin 128, a (ix2 p k) * w (ix2 k q) := by
  rw [Ideal.matmul_constant_zero_apply, ← Equiv.sum_comp (ValueIdx.contrEquiv1 dot_S1024x128_S128x256_S1024x256_1_0_0_1_n_n 128 rfl rfl).symm]
  refine Finset.sum_congr rfl fun k _ => ?_
  have hk := ValueIdx.contrEquiv1_symm_val dot_S1024x128_S128x256_S1024x256_1_0_0_1_n_n 128 rfl rfl k
  have el : dot_S1024x128_S128x256_S1024x256_1_0_0_1_n_n.lhsIdx (ix2 p q) ((ValueIdx.contrEquiv1 dot_S1024x128_S128x256_S1024x256_1_0_0_1_n_n 128 rfl rfl).symm k) = ix2 p k := funext fun a => Fin.ext (by
    match a with
    | ⟨0, _⟩ => exact lhs_pool_0 _ _
    | ⟨1, _⟩ => exact (lhs_pool_1 _ _).trans hk)
  have er : dot_S1024x128_S128x256_S1024x256_1_0_0_1_n_n.rhsIdx (ix2 p q) ((ValueIdx.contrEquiv1 dot_S1024x128_S128x256_S1024x256_1_0_0_1_n_n 128 rfl rfl).symm k) = ix2 k q := funext fun a => Fin.ext (by
    match a with
    | ⟨0, _⟩ => exact (rhs_pool_0 _ _).trans hk
    | ⟨1, _⟩ => exact rhs_pool_1 _ _)
  rw [el, er]

/-- A one-column block laid along 128 columns reads its column. -/
theorem pool_col_apply {α : Type} (v : S1024x1.Idx → α) (h : S1024x1.Broadcasts S1024x128) (p : Fin 1024) (k : Fin 128) :
    broadcastTo S1024x128 v h (ix2 p k) = v (ix2 p (0 : Fin 1)) := by
  refine broadcastTo_apply v h (ix2 p k) (ix2 p (0 : Fin 1)) fun ax => ?_
  match ax with
  | ⟨0, _⟩ =>
    show p.val = if (1024 : Nat) = 1 then 0 else p.val
    rw [if_neg (by decide)]
  | ⟨1, _⟩ =>
    show (0 : Nat) = if (1 : Nat) = 1 then 0 else k.val
    rw [if_pos rfl]

/-- The body's value at an entry: the output row function of row `p` of the blocks it loaded. -/
theorem pool_pay_apply (v0 : Vec Ideal S1024x1 .f32) (v4 : Vec Ideal S1024x128 .f32) (v10 : Vec Ideal S128x256 .f32) (v13 : Vec Ideal S256 .f32)
    (p : Fin 1024) (q : Fin 256) :
    k5_pay1 (F := Ideal) v0 v4 v10 v13 (ix2 p q)
      = poolRow (fun k => v4 (ix2 p k)) (v0 (ix2 p (0 : Fin 1))) (fun k j => v10 (ix2 k j)) (fun j => v13 (ix1 j)) q := by
  unfold k5_pay1 poolRow
  dsimp only
  simp only [shapeCast_self]
  refine (addf_apply _ _ _).trans ?_
  refine congrArg₂ (· + ·) ((pool_matmul_apply _ _ p q).trans ?_) ?_
  · refine Finset.sum_congr rfl fun k _ => ?_
    show Ideal.div (v4 (ix2 p k)) (broadcastTo S1024x128 _ broadcasts_S1024x1_S1024x128 (ix2 p k)) * v10 (ix2 k q) = _
    rw [pool_col_apply]
    rfl
  · rw [broadcastTo_1b_ab_apply, shapeCast_a_1a_apply]

/-! ## From the blocks to the array -/

theorem zeros2 : (![0, 0] : Fin 2 → Nat) = fun _ => 0 := funext fun a => by
  match a with
  | ⟨0, _⟩ => rfl
  | ⟨1, _⟩ => rfl
theorem zeros1 : (![0] : Fin 1 → Nat) = fun _ => 0 := funext fun a => by
  match a with
  | ⟨0, _⟩ => rfl

/-- The index maps over the grid: point `t` takes block row `t` of the sums, of the counts and of the result, and the one block of the matrix and of the bias. -/
theorem pool_idx : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- Row `p` of the sums block at point `t` is row `1024·t + p` of the sums. -/
theorem sums_blk_apply (c : Dev nD) (t : Fin cfg5.N) (p : Fin 1024) (k : Fin 128) (R : Fin 8192) (hR : R.val = 1024 * t.val + p.val) :
    (iblk5 (F := Ideal) V c 0 t : Vec Ideal S1024x128 .f32) (ix2 p k) = (V c main_v59 : S8192x128.Idx → EReal) (ix2 R k) := by
  obtain ⟨e0, e1, -⟩ := pool_idx t
  unfold iblk5
  rw [View.read_apply]
  show V c main_v59 _ = V c main_v59 _
  congr 1
  funext a
  apply Fin.ext
  match a with
  | ⟨0, _⟩ => show win5_0.index t 0 * 1024 + 1 * p.val = R.val; rw [e0, hR]; omega
  | ⟨1, _⟩ => show win5_0.index t 1 * 128 + 1 * k.val = k.val; rw [e1]; omega

/-- Row `p` of the counts block at point `t` is row `1024·t + p` of the counts. -/
theorem counts_blk_apply (c : Dev nD) (t : Fin cfg5.N) (p : Fin 1024) (R : Fin 8192) (hR : R.val = 1024 * t.val + p.val) :
    (iblk5 (F := Ideal) V c 1 t : Vec Ideal S1024x1 .f32) (ix2 p (0 : Fin 1)) = (V c main_v63 : S8192x1.Idx → EReal) (ix2 R (0 : Fin 1)) := by
  obtain ⟨-, -, e0, e1, -⟩ := pool_idx t
  unfold iblk5
  rw [View.read_apply]
  show V c main_v63 _ = V c main_v63 _
  congr 1
  funext a
  apply Fin.ext
  match a with
  | ⟨0, _⟩ => show win5_1.index t 0 * 1024 + 1 * p.val = R.val; rw [e0, hR]; omega
  | ⟨1, _⟩ => show win5_1.index t 1 * 1 + 1 * 0 = 0; rw [e1]

/-- The matrix block at any point is the matrix. -/
theorem mat_blk_apply (c : Dev nD) (t : Fin cfg5.N) (k : Fin 128) (j : Fin 256) :
    (iblk5 (F := Ideal) V c 2 t : Vec Ideal S128x256 .f32) (ix2 k j) = (V c main_arg9 : S128x256.Idx → EReal) (ix2 k j) := by
  obtain ⟨-, -, -, -, e0, e1, -⟩ := pool_idx t
  unfold iblk5
  rw [View.read_apply]
  show V c main_arg9 _ = V c main_arg9 _
  congr 1
  funext a
  apply Fin.ext
  match a with
  | ⟨0, _⟩ => show win5_2.index t 0 * 128 + 1 * k.val = k.val; rw [e0]; omega
  | ⟨1, _⟩ => show win5_2.index t 1 * 256 + 1 * j.val = j.val; rw [e1]; omega

/-- The bias block at any point is the bias. -/
theorem bias_blk_apply (c : Dev nD) (t : Fin cfg5.N) (j : Fin 256) :
    (iblk5 (F := Ideal) V c 3 t : Vec Ideal S256 .f32) (ix1 j) = (V c main_arg10 : S256.Idx → EReal) (ix1 j) := by
  obtain ⟨-, -, -, -, -, -, e0, -⟩ := pool_idx t
  unfold iblk5
  rw [View.read_apply]
  show V c main_arg10 _ = V c main_arg10 _
  congr 1
  funext a
  apply Fin.ext
  match a with
  | ⟨0, _⟩ => show win5_3.index t 0 * 256 + 1 * j.val = j.val; rw [e0]; omega

/-- An entry of the result block at point `t` sits at row `1024·t + p` of the result. -/
theorem out_blk_emb (t : Fin cfg5.N) (p : Fin 1024) (q : Fin 256) (R : Fin 8192) (hR : R.val = 1024 * t.val + p.val) :
    (((cfg5.win 4).blk t).view.emb (ix2 p q) : S8192x256.Idx) = ix2 R q := by
  obtain ⟨-, -, -, -, -, -, -, e0, e1⟩ := pool_idx t
  funext a
  apply Fin.ext
  match a with
  | ⟨0, _⟩ => show win5_4.index t 0 * 1024 + 1 * p.val = R.val; rw [e0, hR]; omega
  | ⟨1, _⟩ => show win5_4.index t 1 * 256 + 1 * q.val = q.val; rw [e1]; omega

/-- What point `t` writes back is block `t` of the output stage of the arrays the call found. -/
theorem pool_flushed_eq (c : Dev nD) (t : Fin cfg5.N) :
    (dat5 (F := Ideal) V c).flushed 4 t
      = ((cfg5.win 4).blk t).view.read (Elt Ideal) (poolG (F := Ideal) (V c main_v59) (V c main_v63) (V c main_arg9) (V c main_arg10)) := by
  show (cfg5.win 4).cut (grid5.coords t) ((dat5 V c).after 4 t) = _
  rw [after5_4]
  unfold out5_4
  rw [View.canon_unit_zero zeros2]
  simp only [View.ld_unit_zero (S := S1024x1) zeros2, View.ld_unit_zero (S := S1024x128) zeros2, View.ld_unit_zero (S := S128x256) zeros2, View.ld_unit_zero (S := S256) zeros1]
  funext j
  obtain ⟨p, q, rfl⟩ : ∃ (p : Fin 1024) (q : Fin 256), j = ix2 p q := ⟨j 0, j 1, eq_ix2 j⟩
  have ht : t.val < 8 := lt_of_lt_of_eq t.isLt N_5
  have hRlt : 1024 * t.val + p.val < 8192 := by omega
  show k5_pay1 (F := Ideal) (iblk5 V c 1 t) (iblk5 V c 0 t) (iblk5 V c 2 t) (iblk5 V c 3 t) (ix2 p q)
    = poolG (F := Ideal) (V c main_v59) (V c main_v63) (V c main_arg9) (V c main_arg10) (((cfg5.win 4).blk t).view.emb (ix2 p q))
  rw [out_blk_emb t p q ⟨1024 * t.val + p.val, hRlt⟩ rfl, pool_pay_apply, poolG_apply]
  exact congrFun (congr (congr (congr (congrArg poolRow (funext fun k => sums_blk_apply V c t p k _ rfl))
    (counts_blk_apply V c t p _ rfl)) (funext fun k => funext fun j => mat_blk_apply V c t k j)) (funext fun j => bias_blk_apply V c t j)) q

/-- An index of the result lies in point `t`'s block when each coordinate lies in the block's range on its axis. -/
theorem pool_mem_blk (t : Fin cfg5.N) (i : S8192x256.Idx) :
    i ∈ ((cfg5.win 4).blk t).view.set ↔ ∀ a : Fin 2, win5_4.index t a * S1024x256.size a ≤ (i a).val ∧ (i a).val < win5_4.index t a * S1024x256.size a + S1024x256.size a := by
  show i ∈ ((View.whole main_v64).slice (win5_4.rect t)).set ↔ _
  rw [View.set_slice_whole, Rect.mem_set_unit]
  exact Iff.rfl

/-- Every index of the result lies in the block of the point its row divided by 1024 names, and every point writes back. -/
theorem pool_cover (i : S8192x256.Idx) :
    ∃ t : Fin cfg5.N, (cfg5.win 4).flush t = true ∧ i ∈ ((cfg5.win 4).blk t).view.set := by
  have hi0 : (i 0).val < 8192 := (i 0).isLt
  have hi1 : (i 1).val < 256 := (i 1).isLt
  obtain ⟨t, ht⟩ : ∃ t : Fin cfg5.N, t.val = (i 0).val / 1024 := ⟨⟨(i 0).val / 1024, by rw [show cfg5.N = 8 from N_5]; omega⟩, rfl⟩
  obtain ⟨-, -, -, -, -, -, -, e0, e1⟩ := pool_idx t
  refine ⟨t, flush5_4 t, ?_⟩
  rw [pool_mem_blk]
  intro a
  match a with
  | ⟨0, _⟩ => show win5_4.index t 0 * 1024 ≤ (i 0).val ∧ (i 0).val < win5_4.index t 0 * 1024 + 1024; rw [e0, ht]; omega
  | ⟨1, _⟩ => show win5_4.index t 1 * 256 ≤ (i 1).val ∧ (i 1).val < win5_4.index t 1 * 256 + 256; rw [e1]; omega

/-- After the output call its output array is the output stage of the arrays it read. -/
theorem pool_final (c : Dev nD) :
    (dat5 (F := Ideal) V c).arrAt 4 cfg5.N = poolG (F := Ideal) (V c main_v59) (V c main_v63) (V c main_arg9) (V c main_arg10) :=
  (dat5 (F := Ideal) V c).arrAt_eq_of_cover 4 (poolG (F := Ideal) (V c main_v59) (V c main_v63) (V c main_arg9) (V c main_arg10))
    (fun t _ => pool_flushed_eq V c t) pool_cover

end Cert.Gin.K.Pool

end
-- ==== Proof.KChain.lean ====
/-
  The kernel program's result as the network of HostG.lean over the kernel program's own row gather: after the last
  layer one host stretch sums the features per graph and counts the nodes per graph, the output call applies the
  output stage, and the chain of the encoder and the four layers closes on the whole network.
-/
import proofs.«414283_j78855599555022_1_alg».proof.Proof.KLayer1
import proofs.«414283_j78855599555022_1_alg».proof.Proof.KLayer2
import proofs.«414283_j78855599555022_1_alg».proof.Proof.KLayer3
import proofs.«414283_j78855599555022_1_alg».proof.Proof.KLayer4
import proofs.«414283_j78855599555022_1_alg».proof.Proof.RegionPool
import Idealize.ShloMosaic.Lib.StableHlo.Run

set_option maxRecDepth 16384

noncomputable section

namespace Cert.Gin.K

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The carried buffers at every call's exit -/

theorem known5 (c : Dev nD) : Known m c (W5 (F := Ideal) m ρ c) :=
  (known2 m ρ c).of_agree m ((agree_exit1 m ρ c).trans (agree_entry1 m ρ c))
theorem known8 (c : Dev nD) : Known m c (W8 (F := Ideal) m ρ c) :=
  (known5 m ρ c).of_agree m ((agree_exit2 m ρ c).trans (agree_entry2 m ρ c))
theorem known11 (c : Dev nD) : Known m c (W11 (F := Ideal) m ρ c) :=
  (known8 m ρ c).of_agree m ((agree_exit3 m ρ c).trans (agree_entry3 m ρ c))
theorem known14 (c : Dev nD) : Known m c (W14 (F := Ideal) m ρ c) :=
  (known11 m ρ c).of_agree m ((agree_exit4 m ρ c).trans (agree_entry4 m ρ c))

/-! ## The pooled output -/

/-- If the last layer left the features `H`, the output call leaves the output stage of the per-graph sums of `H`
    and the per-graph node counts. -/
theorem pooled (c : Dev nD) (H : Arr Ideal Cert.ReferenceIdeal.S300000x128 .f32)
    (hH : W14 (F := Ideal) m ρ c (Proc.devRef .tc main_v56) = H) (hk : Known m c (W14 m ρ c)) :
    W16 (F := Ideal) m ρ c (Proc.devRef .tc main_v64)
      = poolG (F := Ideal) (sumsG (A m c main_arg2) H) (countsG (A m c main_arg2)) (A m c main_arg9) (A m c main_arg10) := by
  have e0 : V15 (F := Ideal) m ρ c main_v59 = sumsG (F := Ideal) (A m c main_arg2) H := by
    show StableHlo.after hostOps5 (W14 m ρ c) (Proc.devRef .tc main_v59) = _
    after_results_simp; rw [hk.a2, hH]; rfl
  have e1 : V15 (F := Ideal) m ρ c main_v63 = countsG (F := Ideal) (A m c main_arg2) := by
    show StableHlo.after hostOps5 (W14 m ρ c) (Proc.devRef .tc main_v63) = _
    after_results_simp; rw [hk.a2]; rfl
  have e2 : V15 (F := Ideal) m ρ c main_arg9 = A m c main_arg9 := by
    show StableHlo.after hostOps5 (W14 m ρ c) (Proc.devRef .tc main_arg9) = _
    after_results_simp; exact hk.a9
  have e3 : V15 (F := Ideal) m ρ c main_arg10 = A m c main_arg10 := by
    show StableHlo.after hostOps5 (W14 m ρ c) (Proc.devRef .tc main_arg10) = _
    after_results_simp; exact hk.a10
  refine (W16_arr m ρ c 4).trans ((Pool.pool_final (V15 m ρ) c).trans ?_)
  rw [e0, e1, e2, e3]

/-! ## The whole program -/

/-- The kernel program's result buffer at the last boundary is the network over the kernel program's row gather. -/
theorem kernel_value (c : Dev nD) :
    W16 (F := Ideal) m ρ c (Proc.devRef .tc main_v64)
      = outG (F := Ideal) (takeK (srcOf (A m c main_arg1)))
          (A m c main_arg0) (A m c main_arg1) (A m c main_arg2) (A m c main_arg3) (A m c main_arg4) (A m c main_arg5)
          (A m c main_arg6) (A m c main_arg7) (A m c main_arg8) (A m c main_arg9) (A m c main_arg10) :=
  pooled m ρ c _
    (layer4 m ρ c _ (layer3 m ρ c _ (layer2 m ρ c _ (layer1 m ρ c _ (encoded m ρ c) (known2 m ρ c)) (known5 m ρ c))
      (known8 m ρ c)) (known11 m ρ c))
    (known14 m ρ c)

end Cert.Gin.K

end
-- ==== Proof.RefValue.lean ====
/-
  The reference's result, as its run states it, is the network of HostG.lean with the reference's own row gather:
  rows of the features at the wrapped edge sources. The two terms are the same tree of host operations.
-/
import proofs.«414283_j78855599555022_1_alg».proof.Proof.Gen.ReferenceIdeal.Run
import proofs.«414283_j78855599555022_1_alg».proof.Proof.HostG

noncomputable section

namespace Cert.Gin

open Cert.ReferenceIdeal Cert.ReferenceIdeal.Gen Idealize.ShloMosaic Idealize.ShloMosaic.TcCoe Idealize.SL.Sem

variable {F : FTy → Type} [FloatOps F]

set_option maxRecDepth 16384 in
set_option maxHeartbeats 4000000 in
/-- The reference's result is the network over its gather of the rows at the wrapped sources. -/
theorem ref_value (m : (ℓ : Loc nD τ sig) → Buf (Elt F) ℓ) (c : Dev nD) :
    Cert.ReferenceIdeal.Value.res_main_v138 m c
      = outG (F := F) (gatherG (srcOf (m ((c.tc : Thread nD τ).loc main_arg1))))
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v138
  rfl

end Cert.Gin

end
-- ==== Proof.PreRange.lean ====
/-
  What the precondition says of the edge sources. Its last conjunct is "every entry of row 0 of the edge list lies in
  −300000 … 299999", printed as two signed word comparisons joined entry by entry and reduced by "and" over all
  600000 entries; read back, every source index is in that range.
-/
import proofs.«414283_j78855599555022_1_alg».proof.Pre_finite_inputs
import proofs.«414283_j78855599555022_1_alg».proof.Proof.Gen.Pre_finite_inputs
import proofs.«414283_j78855599555022_1_alg».proof.Proof.HostG
import Idealize.ShloMosaic.Lib.StableHlo.Predicate
import Idealize.ShloMosaic.Lib.ReduceAll
import Idealize.ShloMosaic.Lib.Pipeline.Value
import Idealize.ShloMosaic.Lib.ValueIdx

noncomputable section

namespace Cert.Gin

open Idealize.ShloMosaic Idealize.ShloMosaic.ValueIdx

/-- Under the precondition every edge source lies in −300000 … 299999. -/
theorem src_range_of_pre [Cert.Pre_finite_inputs.Facts] {F : FTy → Type} [FloatOps F]
    (a0 : FVec F Cert.Pre_finite_inputs.S300000x6 .f32) (a1 : IVec Cert.Pre_finite_inputs.S2x600000 32)
    (a2 : IVec Cert.Pre_finite_inputs.S300000 32) (a3 : FVec F Cert.Pre_finite_inputs.S6x128 .f32)
    (a4 : FVec F Cert.Pre_finite_inputs.S128 .f32) (a5 : FVec F Cert.Pre_finite_inputs.S4x128x128 .f32)
    (a6 : FVec F Cert.Pre_finite_inputs.S4x128 .f32) (a7 : FVec F Cert.Pre_finite_inputs.S4x128x128 .f32)
    (a8 : FVec F Cert.Pre_finite_inputs.S4x128 .f32) (a9 : FVec F Cert.Pre_finite_inputs.S128x256 .f32)
    (a10 : FVec F Cert.Pre_finite_inputs.S256 .f32)
    (h : Cert.Pre_finite_inputs.fn (F := F) a0 a1 a2 a3 a4 a5 a6 a7 a8 a9 a10 = fun _ => 1#1) :
    ∀ e : Fin 600000, (-300000 : Int) ≤ (srcOf (F := F) a1 (ix1 e)).toInt ∧ (srcOf (F := F) a1 (ix1 e)).toInt < 300000 := by
  intro e
  -- the conjunction of all conditions holds at the one index of the scalar result; keep its last conjunct only
  have h0 := congrFun h ValueIdx.ix0
  simp only [Cert.Pre_finite_inputs.fn, Cert.Pre_finite_inputs.fn_part1, Cert.Pre_finite_inputs.fn_part2,
    Cert.Pre_finite_inputs.fn_part3] at h0
  have h1 := (IntOp.andi_eq_one.1 h0).2
  clear h0 h
  -- an "and" over all 600000 entries that is 1 had a 1 at entry e
  haveI : Subsingleton Cert.Pre_finite_inputs.S_.Idx := ⟨fun a b => funext fun d => d.elim0⟩
  have h2 := Host.reduce_andi_all _ _ _ _ _ h1 (ix1 e)
  -- that entry is the "and" of the two signed comparisons of the source with the two bounds
  obtain ⟨hge, hlt⟩ := IntOp.andi_eq_one.1 h2
  have hge' := IntOp.cmpi_sge.1 hge
  have hlt' := IntOp.cmpi_slt.1 hlt
  -- each bound is a scalar read at every entry
  rw [StableHlo.Predicate.bcast_scalar _ Cert.Pre_finite_inputs.Facts.h_S_] at hge' hlt'
  -- the two bound words, read signed, are −300000 and 300000
  have c1 : (4294667296#32 : BitVec 32).toInt = -300000 := by decide
  have c2 : (300000#32 : BitVec 32).toInt = 300000 := by decide
  change (4294667296#32 : BitVec 32).toInt ≤ (srcOf (F := F) a1 (ix1 e)).toInt at hge'
  change (srcOf (F := F) a1 (ix1 e)).toInt < (300000#32 : BitVec 32).toInt at hlt'
  rw [c1] at hge'
  rw [c2] at hlt'
  exact ⟨hge', hlt'⟩

end Cert.Gin

end
-- ==== Proof.lean ====
/-
  A graph network: a node encoder, four message-passing layers, a mean pool over graphs and an output projection.
  The kernel program runs the six dense stages as grid calls (75 row blocks of 4000 nodes for the encoder and the
  layers, 8 row blocks of 1024 graphs for the output stage) and leaves the edge gather and the segment sums on the
  host; the reference is the same network written with whole-array operations. On the extended reals a block of a
  dense stage is the same row function of its rows as the whole-array stage (the in-kernel matrix product and the
  host's are one sum over the contracted axis; a change of float format is the identity), so each call leaves its
  whole-array stage of what it read, and the two programs are one composition but for the edge gather: the
  reference reads the feature row at the wrapped source index, the kernel program replaces a row whose wrapped index
  falls outside 0 … 299999 by a fill. The precondition puts every source index in −300000 … 299999, where no row is
  replaced, and the two gathers are one map.
  The three frames are the generated frame certificates (the reference's is its generated run with the result
  dropped); the idealization rewrote nothing, so `preserves` is trivial.
-/
import proofs.«414283_j78855599555022_1_alg».proof.Defs
import proofs.«414283_j78855599555022_1_alg».proof.Proof.Gen.Kernel
import proofs.«414283_j78855599555022_1_alg».proof.Proof.Gen.Kernel.Frame
import proofs.«414283_j78855599555022_1_alg».proof.Proof.Gen.KernelIdeal
import proofs.«414283_j78855599555022_1_alg».proof.Proof.Gen.KernelIdeal.Frame
import proofs.«414283_j78855599555022_1_alg».proof.Proof.Gen.ReferenceIdeal
import proofs.«414283_j78855599555022_1_alg».proof.Proof.Gen.ReferenceIdeal.Run
import proofs.«414283_j78855599555022_1_alg».proof.Proof.Gen.Pre_finite_inputs
import proofs.«414283_j78855599555022_1_alg».proof.Proof.RunValue
import proofs.«414283_j78855599555022_1_alg».proof.Proof.KChain
import proofs.«414283_j78855599555022_1_alg».proof.Proof.KHost
import proofs.«414283_j78855599555022_1_alg».proof.Proof.RefValue
import proofs.«414283_j78855599555022_1_alg».proof.Proof.PreRange
import Idealize.ShloMosaic.Adequacy
import Idealize.ShloMosaic.Init

set_option maxRecDepth 16384

noncomputable section

namespace Cert.Proof

open Idealize.ShloMosaic Idealize.SL.Sem

namespace GinClaims

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the network of their arguments: the kernel program over its filled gather, the reference
    over the plain one; under the precondition's range of the edge sources the two gathers are the same map. -/
theorem algebraic : Cert.algebraic_KernelIdeal_ReferenceIdeal := by
  intro m ρ m' ρ' hpre hagree
  refine ⟨fun c => Cert.KernelIdeal.Gen.W16 (F := Ideal) m ρ c (Proc.devRef .tc Cert.KernelIdeal.main_v64),
    Cert.KernelIdeal.GenValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  have hs := Cert.Gin.src_range_of_pre (F := Ideal) _ _ _ _ _ _ _ _ _ _ _ (hpre c)
  obtain ⟨h0, h1, h2, h3, h4, h5, h6, h7, h8, h9, h10⟩ := hagree c
  show Cert.ReferenceIdeal.Value.res_main_v138 m' c
    = Cert.KernelIdeal.Gen.W16 (F := Ideal) m ρ c (Proc.devRef .tc Cert.KernelIdeal.main_v64)
  rw [Cert.Gin.ref_value m' c, Cert.Gin.K.kernel_value m ρ c, Cert.Gin.K.takeK_eq_gatherG (F := Ideal) _ hs,
    h0, h1, h2, h3, h4, h5, h6, h7, h8, h9, h10]

end GinClaims

theorem claim : Cert.Claim :=
  ⟨Cert.Kernel.Gen.facts, Cert.KernelIdeal.Gen.facts, Cert.ReferenceIdeal.Gen.facts, Cert.Pre_finite_inputs.Gen.facts,
    GinClaims.frame_k, GinClaims.frame_ki, GinClaims.frame_ri, GinClaims.preserves, GinClaims.algebraic⟩

end Cert.Proof

end
